-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536 : Shape := ⟨2, ![16, 65536]⟩
abbrev S16x1024x1024 : Shape := ⟨3, ![16, 1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S16x65536 : S_.BroadcastsInDim S16x65536 (![] : Fin 0 → Fin S16x65536.rank)
  reducesTo_S16x65536_S_d0_1 : S16x65536.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S384x64 .f32) (main_arg8 : FVec F S64 .f32) (main_arg9 : FVec F S384x64 .f32) (main_arg10 : FVec F S64 .f32) (main_v33 : IVec S_ 1) : IVec S_ 1 :=
  let main_v34 : FVec F S384x64 .f32 := Host.absf main_arg7
  let main_cst_12 : FVec F S_ .f32 := constant S_ .f32 0x7F800000#32
  let main_v35 : FVec F S384x64 .f32 := broadcastInDim S384x64 ![] bcast_S_S384x64 main_cst_12
  let main_v36 : IVec S384x64 1 := cmpf .olt main_v34 main_v35
  let main_c_13 : IVec S_ 1 := constantI S_ 1 1#1
  let main_v37 : IVec S_ 1 := (fun x v => Host.reduce IntOp.andi x v reducesTo_S384x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S384x128 .f32) (main_arg6 : FVec F S128 .f32) (main_arg7 : FVec F S384x64 .f32) (main_arg8 : FVec F S64 .f32) (main_arg9 : FVec F S384x64 .f32) (main_arg10 : FVec F S64 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x65536 .f32) (main_arg1 : FVec F S16x65536 .f32) (main_arg2 : FVec F S16x1024x1024 .f32) (main_arg3 : FVec F S384x128 .f32) (main_arg4 : FVec F S128 .f32) (main_arg5 : FVec F S384x128 .f32) (main_arg6 : FVec F S128 .f32) (main_arg7 : FVec F S384x64 .f32) (main_arg8 : FVec F S64 .f32) (main_arg9 : FVec F S384x64 .f32) (main_arg10 : FVec F S64 .f32) : IVec S_ 1 :=
  let main_v0 : FVec F S16x65536 .f32 := Host.absf main_arg0
  let main_cst : FVec F S_ .f32 := constant S_ .f32 0x7F800000#32
  let main_v1 : FVec F S16x65536 .f32 := broadcastInDim S16x65536 ![] bcast_S_S16x65536 main_cst
  let main_v2 : IVec S16x65536 1 := cmpf .olt main_v0 main_v1
  let main_c : IVec S_ 1 := constantI S_ 1 1#1
  let main_v3 : IVec S_ 1 := (fun x v => Host.reduce IntOp.andi x v reducesTo_S16x65536_S_d0_1 h_S_) main_v2 main_c
  let main_v4 : FVec F S16x65536 .f32 := Host.absf main_arg1
  let main_cst_0 : FVec F S_ .f32 := constant S_ .f32 0x7F800000#32
  let main_v5 : FVec F S16x65536 .f32 := broadcastInDim S16x65536 ![] bcast_S_S16x65536 main_cst_0
  let main_v6 : IVec S16x65536 1 := cmpf .olt main_v4 main_v5
  let main_c_1 : IVec S_ 1 := constantI S_ 1 1#1
  let main_v7 : IVec S_ 1 := (fun x v => Host.reduce IntOp.andi x v reducesTo_S16x65536_S_d0_1 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_arg9 main_arg10 main_v13 main_v16
-- ==== Kernel.lean ====
abbrev S16x65536 : Shape := ⟨2, ![16, 65536]⟩
abbrev S16x1024x1024 : Shape := ⟨3, ![16, 1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S16x1024x64 : Shape := ⟨3, ![16, 1024, 64]⟩
abbrev S128x3x128 : Shape := ⟨3, ![128, 3, 128]⟩
abbrev S128x1x128 : Shape := ⟨3, ![128, 1, 128]⟩
abbrev S128x128 : Shape := ⟨2, ![128, 128]⟩
abbrev S1x128 : Shape := ⟨2, ![1, 128]⟩
abbrev S128x3x64 : Shape := ⟨3, ![128, 3, 64]⟩
abbrev S128x1x64 : Shape := ⟨3, ![128, 1, 64]⟩
abbrev S128x64 : Shape := ⟨2, ![128, 64]⟩
abbrev S1x64 : Shape := ⟨2, ![1, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩
abbrev S1024x128 : Shape := ⟨2, ![1024, 128]⟩

abbrev nBuf : Space → Nat
  | .hbm => 59
  | .vmem => 16
  | .smem => 0
  | _ => 0

abbrev bufTy : (tb : Table) → Fin (tcTables nBuf tb) → BufTy
  | .hbm, ⟨0, _⟩ => ⟨S16x65536, .f32⟩
  | .hbm, ⟨1, _⟩ => ⟨S16x65536, .f32⟩
  | .hbm, ⟨2, _⟩ => ⟨S16x1024x1024, .f32⟩
  | .hbm, ⟨3, _⟩ => ⟨S384x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S384x64, .f32⟩
  | .hbm, ⟨8, _⟩ => ⟨S64, .f32⟩
  | .hbm, ⟨9, _⟩ => ⟨S384x64, .f32⟩
  | .hbm, ⟨10, _⟩ => ⟨S64, .f32⟩
  | .hbm, ⟨11, _⟩ => ⟨S16x1024x64, .f32⟩
  | .hbm, ⟨12, _⟩ => ⟨S16x1024x64, .f32⟩
  | .hbm, ⟨13, _⟩ => ⟨S128x3x128, .f32⟩
  | .hbm, ⟨14, _⟩ => ⟨S128x1x128, .f32⟩
  | .hbm, ⟨15, _⟩ => ⟨S128x128, .f32⟩
  | .hbm, ⟨16, _⟩ => ⟨S128x1x128, .f32⟩
  | .hbm, ⟨17, _⟩ => ⟨S128x128, .f32⟩
  | .hbm, ⟨18, _⟩ => ⟨S128x1x128, .f32⟩
  | .hbm, ⟨19, _⟩ => ⟨S128x128, .f32⟩
  | .hbm, ⟨20, _⟩ => ⟨S128x128, .f32⟩
  | .hbm, ⟨21, _⟩ => ⟨S128x3x128, .f32⟩
  | .hbm, ⟨22, _⟩ => ⟨S128x1x128, .f32⟩
  | .hbm, ⟨23, _⟩ => ⟨S128x128, .f32⟩
  | .hbm, ⟨24, _⟩ => ⟨S128x1x128, .f32⟩
  | .hbm, ⟨25, _⟩ => ⟨S128x128, .f32⟩
  | .hbm, ⟨26, _⟩ => ⟨S128x1x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .bf16⟩
  | .hbm, ⟨31, _⟩ => ⟨S128x128, .bf16⟩
  | .hbm, ⟨32, _⟩ => ⟨S128x128, .bf16⟩
  | .hbm, ⟨33, _⟩ => ⟨S128, .f32⟩
  | .hbm, ⟨34, _⟩ => ⟨S1x128, .f32⟩
  | .hbm, ⟨35, _⟩ => ⟨S128x3x64, .f32⟩
  | .hbm, ⟨36, _⟩ => ⟨S128x1x64, .f32⟩
  | .hbm, ⟨37, _⟩ => ⟨S128x64, .f32⟩
  | .hbm, ⟨38, _⟩ => ⟨S128x1x64, .f32⟩
  | .hbm, ⟨39, _⟩ => ⟨S128x64, .f32⟩
  | .hbm, ⟨40, _⟩ => ⟨S128x1x64, .f32⟩
  | .hbm, ⟨41, _⟩ => ⟨S128x64, .f32⟩
  | .hbm, ⟨42, _⟩ => ⟨S128x64, .f32⟩
  | .hbm, ⟨43, _⟩ => ⟨S128x3x64, .f32⟩
  | .hbm, ⟨44, _⟩ => ⟨S128x1x64, .f32⟩
  | .hbm, ⟨45, _⟩ => ⟨S128x64, .f32⟩
  | .hbm, ⟨46, _⟩ => ⟨S128x1x64, .f32⟩
  | .hbm, ⟨47, _⟩ => ⟨S128x64, .f32⟩
  | .hbm, ⟨48, _⟩ => ⟨S128x1x64, .f32⟩
  | .hbm, ⟨49, _⟩ => ⟨S128x64, .f32⟩
  | .hbm, ⟨50, _⟩ => ⟨S128x64, .f32⟩
  | .hbm, ⟨51, _⟩ => ⟨S128x64, .f32⟩
  | .hbm, ⟨52, _⟩ => ⟨S128x64, .bf16⟩
  | .hbm, ⟨53, _⟩ => ⟨S128x64, .bf16⟩
  | .hbm, ⟨54, _⟩ => ⟨S128x64, .bf16⟩
  | .hbm, ⟨55, _⟩ => ⟨S64, .f32⟩
  | .hbm, ⟨56, _⟩ => ⟨S1x64, .f32⟩
  | .hbm, ⟨57, _⟩ => ⟨S16x1024x64, .f32⟩
  | .hbm, ⟨58, _⟩ => ⟨S16x65536, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x64, .bf16⟩
  | .local _ .vmem, ⟨11, _⟩ => ⟨S128x64, .bf16⟩
  | .local _ .vmem, ⟨12, _⟩ => ⟨S128x64, .bf16⟩
  | .local _ .vmem, ⟨13, _⟩ => ⟨S1x64, .f32⟩
  | .local _ .vmem, ⟨14, _⟩ => ⟨S1x1024x64, .f32⟩
  | .local _ .vmem, ⟨15, _⟩ => ⟨S1x1024x64, .f32⟩
  | _, _ => ⟨S16x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S16x65536_S16x1024x64 : S16x65536.ShapeCasts S16x1024x64
  shapeCasts_S384x128_S128x3x128 : S384x128.ShapeCasts S128x3x128
  slices_S128x3x128_S128x1x128_0_0_0 : S128x3x128.Slices ![0, 0, 0] S128x1x128
  shapeCasts_S128x1x128_S128x128 : S128x1x128.ShapeCasts S128x128
  slices_S128x3x128_S128x1x128_0_1_0 : S128x3x128.Slices ![0, 1, 0] S128x1x128
  slices_S128x3x128_S128x1x128_0_2_0 : S128x3x128.Slices ![0, 2, 0] S128x1x128
  bitsLt_bf16_f32 : FTy.bits .bf16 < FTy.bits .f32
  shapeCasts_S128_S1x128 : S128.ShapeCasts S1x128
  shapeCasts_S384x64_S128x3x64 : S384x64.ShapeCasts S128x3x64
  slices_S128x3x64_S128x1x64_0_0_0 : S128x3x64.Slices ![0, 0, 0] S128x1x64
  shapeCasts_S128x1x64_S128x64 : S128x1x64.ShapeCasts S128x64
  slices_S128x3x64_S128x1x64_0_1_0 : S128x3x64.Slices ![0, 1, 0] S128x1x64
  slices_S128x3x64_S128x1x64_0_2_0 : S128x3x64.Slices ![0, 2, 0] S128x1x64
  shapeCasts_S64_S1x64 : S64.ShapeCasts S1x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  iota_S1024x1024_d0_w32 : S1024x1024.Iotas .tc 32 [0]
  iota_S1024x1024_d1_w32 : S1024x1024.Iotas .tc 32 [1]
  natLt_1_32 : 1 < 32
  reduces_S1024x1024_S1024 : S1024x1024.Reduces [0] S1024
  shapeCasts_S1024_S1024x1 : S1024.ShapeCasts S1024x1
  broadcasts_S1024x1_S1024x1024 : S1024x1.Broadcasts S1024x1024
  transposes_S1024x1024_p1_0_S1024x1024 : S1024x1024.Transposes [1, 0] S1024x1024
  concatenates_S1024x64_S1024x64_S1024x128_d1 : Shape.Concatenates [S1024x64, S1024x64] S1024x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x128_o0_0_S1024x64 : S1024x128.Slices ![0, 0] S1024x64
  slices_S1024x128_o0_64_S1024x64 : S1024x128.Slices ![0, 64] S1024x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S1024x64_S1x1024x64 : S1024x64.ShapeCasts S1x1024x64
  shapeCasts_S16x1024x64_S16x65536 : S16x1024x64.ShapeCasts S16x65536
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .f32 = 32 ∨ (Rect.block (s := S16x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x1024x64.size a
  hwx0_2 : ∀ i : grid0.Coords, EltTy.bits .f32 = 32 ∨ (Rect.block (s := S16x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .bf16 = 32 ∨ (Rect.block (s := S128x64) S128x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x64.size a ≤ S16x1024x64.size a
  hwx0_11 : ∀ i : grid0.Coords, EltTy.bits .f32 = 32 ∨ (Rect.block (s := S16x1024x64) S1x1024x64.size (cc0_transform_11 i) (hinb0_11 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg2) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v45) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v46) S1x1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x65536 : Shape := ⟨2, ![16, 65536]⟩
abbrev S16x1024x1024 : Shape := ⟨3, ![16, 1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S1024x1024 : Shape := ⟨2, ![1024, 1024]⟩
abbrev S_ : Shape := ⟨0, ![]⟩
abbrev S1x1024x1024 : Shape := ⟨3, ![1, 1024, 1024]⟩
abbrev S16x1024 : Shape := ⟨2, ![16, 1024]⟩
abbrev S16x1024x1 : Shape := ⟨3, ![16, 1024, 1]⟩
abbrev S16x1024x64 : Shape := ⟨3, ![16, 1024, 64]⟩
abbrev S16x1024x128 : Shape := ⟨3, ![16, 1024, 128]⟩
abbrev S16x1024x128x1 : Shape := ⟨4, ![16, 1024, 128, 1]⟩
abbrev S16x1024x128x3 : Shape := ⟨4, ![16, 1024, 128, 3]⟩
abbrev S16384x384 : Shape := ⟨2, ![16384, 384]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S16x65536, .f32⟩
  | 1 => ⟨S16x65536, .f32⟩
  | 2 => ⟨S16x1024x1024, .f32⟩
  | 3 => ⟨S384x128, .f32⟩
  | 4 => ⟨S128, .f32⟩
  | 5 => ⟨S384x128, .f32⟩
  | 6 => ⟨S128, .f32⟩
  | 7 => ⟨S384x64, .f32⟩
  | 8 => ⟨S64, .f32⟩
  | 9 => ⟨S384x64, .f32⟩
  | 10 => ⟨S64, .f32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S1024x1024, .i1⟩
  | 17 => ⟨S1024x1024, .f32⟩
  | 18 => ⟨S1x1024x1024, .f32⟩
  | 19 => ⟨S16x1024x1024, .f32⟩
  | 20 => ⟨S16x1024x1024, .f32⟩
  | 21 => ⟨S_, .f32⟩
  | 22 => ⟨S16x1024, .f32⟩
  | 23 => ⟨S_, .f32⟩
  | 24 => ⟨S16x1024, .f32⟩
  | 25 => ⟨S16x1024, .i1⟩
  | 26 => ⟨S_, .f32⟩
  | 27 => ⟨S16x1024, .f32⟩
  | 28 => ⟨S_, .f32⟩
  | 29 => ⟨S16x1024, .f32⟩
  | 30 => ⟨S16x1024, .f32⟩
  | 31 => ⟨S16x1024, .f32⟩
  | 32 => ⟨S16x1024x1, .f32⟩
  | 33 => ⟨S16x1024x1024, .f32⟩
  | 34 => ⟨S16x1024x1024, .f32⟩
  | 35 => ⟨S16x1024x1024, .f32⟩
  | 36 => ⟨S1024x1024, .i32⟩
  | 37 => ⟨S1024x1024, .i32⟩
  | 38 => ⟨S_, .i32⟩
  | 39 => ⟨S1024x1024, .i32⟩
  | 40 => ⟨S1024x1024, .i32⟩
  | 41 => ⟨S1024x1024, .i1⟩
  | 42 => ⟨S1024x1024, .f32⟩
  | 43 => ⟨S1x1024x1024, .f32⟩
  | 44 => ⟨S16x1024x1024, .f32⟩
  | 45 => ⟨S16x1024x1024, .f32⟩
  | 46 => ⟨S_, .f32⟩
  | 47 => ⟨S16x1024, .f32⟩
  | 48 => ⟨S_, .f32⟩
  | 49 => ⟨S16x1024, .f32⟩
  | 50 => ⟨S16x1024, .i1⟩
  | 51 => ⟨S_, .f32⟩
  | 52 => ⟨S16x1024, .f32⟩
  | 53 => ⟨S_, .f32⟩
  | 54 => ⟨S16x1024, .f32⟩
  | 55 => ⟨S16x1024, .f32⟩
  | 56 => ⟨S16x1024, .f32⟩
  | 57 => ⟨S16x1024x1, .f32⟩
  | 58 => ⟨S16x1024x1024, .f32⟩
  | 59 => ⟨S16x1024x1024, .f32⟩
  | 60 => ⟨S16x1024x64, .f32⟩
  | 61 => ⟨S16x1024x64, .f32⟩
  | 62 => ⟨S16x1024x128, .f32⟩
  | 63 => ⟨S16x1024x128, .f32⟩
  | 64 => ⟨S16x1024x128, .f32⟩
  | 65 => ⟨S16x1024x128x1, .f32⟩
  | 66 => ⟨S16x1024x128x1, .f32⟩
  | 67 => ⟨S16x1024x128x1, .f32⟩
  | 68 => ⟨S16x1024x128x3, .f32⟩
  | 69 => ⟨S16384x384, .f32⟩
  | 70 => ⟨S16x1024x128, .f32⟩
  | 71 => ⟨S16x1024x128, .f32⟩
  | 72 => ⟨S16x1024x128x1, .f32⟩
  | 73 => ⟨S16x1024x128x1, .f32⟩
  | 74 => ⟨S16x1024x128x1, .f32⟩
  | 75 => ⟨S16x1024x128x3, .f32⟩
  | 76 => ⟨S16384x384, .f32⟩
  | 77 => ⟨S16384x128, .f32⟩
  | 78 => ⟨S1x128, .f32⟩
  | 79 => ⟨S16384x128, .f32⟩
  | 80 => ⟨S16384x128, .f32⟩
  | 81 => ⟨S16384x128, .f32⟩
  | 82 => ⟨S1x128, .f32⟩
  | 83 => ⟨S16384x128, .f32⟩
  | 84 => ⟨S16384x128, .f32⟩
  | 85 => ⟨S16384x128, .f32⟩
  | 86 => ⟨S16384x128, .f32⟩
  | 87 => ⟨S16384x128, .f32⟩
  | 88 => ⟨S_, .f32⟩
  | 89 => ⟨S16384x128, .f32⟩
  | 90 => ⟨S16384x128, .f32⟩
  | 91 => ⟨S_, .f32⟩
  | 92 => ⟨S16384x128, .f32⟩
  | 93 => ⟨S16384x128, .f32⟩
  | 94 => ⟨S16x1024x128, .f32⟩
  | 95 => ⟨S16x1024x64, .f32⟩
  | 96 => ⟨S16x65536, .f32⟩
  | 97 => ⟨S16x1024x64, .f32⟩
  | 98 => ⟨S16x65536, .f32⟩
  | 99 => ⟨S16x65536, .f32⟩
  | 100 => ⟨S16x1024x64, .f32⟩
  | 101 => ⟨S16x1024x64, .f32⟩
  | 102 => ⟨S16x1024x128, .f32⟩
  | 103 => ⟨S16x1024x128, .f32⟩
  | 104 => ⟨S16x1024x128, .f32⟩
  | 105 => ⟨S16x1024x128x1, .f32⟩
  | 106 => ⟨S16x1024x128x1, .f32⟩
  | 107 => ⟨S16x1024x128x1, .f32⟩
  | 108 => ⟨S16x1024x128x3, .f32⟩
  | 109 => ⟨S16384x384, .f32⟩
  | 110 => ⟨S16x1024x128, .f32⟩
  | 111 => ⟨S16x1024x128, .f32⟩
  | 112 => ⟨S16x1024x128x1, .f32⟩
  | 113 => ⟨S16x1024x128x1, .f32⟩
  | 114 => ⟨S16x1024x128x1, .f32⟩
  | 115 => ⟨S16x1024x128x3, .f32⟩
  | 116 => ⟨S16384x384, .f32⟩
  | 117 => ⟨S16384x64, .f32⟩
  | 118 => ⟨S1x64, .f32⟩
  | 119 => ⟨S16384x64, .f32⟩
  | 120 => ⟨S16384x64, .f32⟩
  | 121 => ⟨S16384x64, .f32⟩
  | 122 => ⟨S1x64, .f32⟩
  | 123 => ⟨S16384x64, .f32⟩
  | 124 => ⟨S16384x64, .f32⟩
  | 125 => ⟨S16384x64, .f32⟩
  | 126 => ⟨S16384x64, .f32⟩
  | 127 => ⟨S16x65536, .f32⟩
  | _ => ⟨S16x65536, .f32⟩

abbrev hbmTy0_1 (i : Nat) : BufTy := match i % 128 with
  | 0 => ⟨S16x65536, .f32⟩
  | 1 => ⟨S_, .f32⟩
  | 2 => ⟨S16x65536, .f32⟩
  | 3 => ⟨S16x65536, .f32⟩
  | 4 => ⟨S16x65536, .f32⟩
  | 5 => ⟨S16x65536, .f32⟩
  | _ => ⟨S16x65536, .f32⟩

abbrev hbmTy (i : Nat) : BufTy := match i / 128 with
  | 0 => hbmTy0_0 i
  | 1 => hbmTy0_1 i
  | _ => ⟨S16x65536, .f32⟩

abbrev bufTy : (tb : Table) → Fin (tcTables nBuf tb) → BufTy
  | .hbm, ⟨i, _⟩ => hbmTy i
  | _, _ => ⟨S16x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_10 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d1 : S16x1024x1024.ReducesTo [1] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  transposes_S16x1024x1024_S16x1024x1024_0_2_1 : S16x1024x1024.Transposes [0, 2, 1] S16x1024x1024
  shapeCasts_S16x65536_S16x1024x64 : S16x65536.ShapeCasts S16x1024x64
  concatenates_S16x1024x64_S16x1024x64_S16x1024x128_d2 : Shape.Concatenates [S16x1024x64, S16x1024x64] S16x1024x128 2
  bcast_S16x1024x128_S16x1024x128x1_0_1_2 : S16x1024x128.BroadcastsInDim S16x1024x128x1 (![0, 1, 2] : Fin 3 → Fin S16x1024x128x1.rank)
  concatenates_S16x1024x128x1_S16x1024x128x1_S16x1024x128x1_S16x1024x128x3_d3 : Shape.Concatenates [S16x1024x128x1, S16x1024x128x1, S16x1024x128x1] S16x1024x128x3 3
  shapeCasts_S16x1024x128x3_S16384x384 : S16x1024x128x3.ShapeCasts S16384x384
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  shapeCasts_S16384x128_S16x1024x128 : S16384x128.ShapeCasts S16x1024x128
  slices_S16x1024x128_S16x1024x64_0_0_0 : S16x1024x128.Slices ![0, 0, 0] S16x1024x64
  shapeCasts_S16x1024x64_S16x65536 : S16x1024x64.ShapeCasts S16x65536
  slices_S16x1024x128_S16x1024x64_0_0_64 : S16x1024x128.Slices ![0, 0, 64] S16x1024x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S16x65536 : S16384x64.ShapeCasts S16x65536
  bcast_S_S16x65536 : S_.BroadcastsInDim S16x65536 (![] : Fin 0 → Fin S16x65536.rank)
  dot_S16x1024x1024_S16x1024x128_S16x1024x128_2_1_1_2_0_0_wf : DotDims.WF S16x1024x1024 S16x1024x128 S16x1024x128 [2] [1] [1] [2] [0] [0]
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []

variable [Facts₀]

def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf

class Facts : Prop extends Facts₀ where

variable [Facts]
-- ==== Proof.Spec.lean ====
/-
  The mathematics of one step of a diffusion-convolution gated recurrent cell on a graph of 1024 nodes, for one
  batch element, over the extended reals.

  From an adjacency matrix a the cell forms two random-walk matrices: with ā = a + I, the matrix whose row i is
  ā's row i scaled by the guarded reciprocal of ā's i-th COLUMN sum, once for a and once for its transpose. Node
  features are the 64 input features beside the 64 state features. A graph convolution of features x with the two
  diffused feature sets A₀x and A₁x is an affine map of the stacked triples (x, A₀x, A₀x) and (x, A₁x, A₁x); it is
  written here in two arrangements: as two products over the 384 interleaved rows of the weight matrices
  (`gconvR`), and with the rows belonging to equal factors added first, as three products over 128 rows
  (`gconvK`). The gate is the logistic function of a 128-wide convolution; its lower half scales the state inside
  a second, 64-wide convolution whose hyperbolic tangent is the candidate; its upper half mixes state and candidate.
-/
import Idealize.ShloMosaic.PureOps.Ideal
import Idealize.ShloMosaic.Lib.ValueIdx

noncomputable section

open scoped BigOperators

namespace Cert.DiffGru
open Idealize.ShloMosaic Idealize.ShloMosaic.ValueIdx

/-- The single-precision words of 0.0 and 1.0, kept as words: both programs spell them so. -/
abbrev w0 : EReal := Ideal.ofBits .f32 0x00000000#32
abbrev w1 : EReal := Ideal.ofBits .f32 0x3F800000#32

/-- The identity matrix. -/
def eye (i j : Fin 1024) : EReal := if i = j then 1 else 0

/-- The adjacency matrix with a self loop on every node. -/
def selfLoop (a : Fin 1024 → Fin 1024 → EReal) (i j : Fin 1024) : EReal := a i j + eye i j

/-- The guarded reciprocal: 0 at 0, else 1/d. -/
def rinv (d : EReal) : EReal := Scalar.select (Ideal.cmp .oeq d w0) w0 (Ideal.div w1 d)

/-- Row i of a + I scaled by the guarded reciprocal of the i-th column sum of a + I. -/
def rwalk (a : Fin 1024 → Fin 1024 → EReal) (i j : Fin 1024) : EReal :=
  rinv (∑ k : Fin 1024, selfLoop a k i) * selfLoop a i j

/-- The transpose. -/
def tr (a : Fin 1024 → Fin 1024 → EReal) (i j : Fin 1024) : EReal := a j i

/-- Two 64-wide feature sets side by side. -/
def cat (p q : Fin 1024 → Fin 64 → EReal) (n : Fin 1024) (f : Fin 128) : EReal :=
  if h : f.val < 64 then p n ⟨f.val, h⟩ else q n ⟨f.val - 64, by omega⟩

/-- The matrix product. -/
def mm {M K N : Nat} (A : Fin M → Fin K → EReal) (B : Fin K → Fin N → EReal) (i : Fin M) (j : Fin N) : EReal :=
  ∑ κ : Fin K, A i κ * B κ j

/-- A graph convolution: a map from the features and their two diffusions to O outputs per node. -/
abbrev GC (O : Nat) := (x ax0 ax1 : Fin 1024 → Fin 128 → EReal) → Fin 1024 → Fin O → EReal

/-- Three products over 128 rows and one bias. -/
def gconvP {O : Nat} (wa wb wc : Fin 128 → Fin O → EReal) (bs : Fin O → EReal) : GC O :=
  fun x ax0 ax1 n o => mm x wa n o + mm ax0 wb n o + mm ax1 wc n o + bs o

/-- Row 3f + s of an interleaved 384-row weight matrix: the weight of feature f in stack position s. -/
def wsl {O : Nat} (W : Fin 384 → Fin O → EReal) (s : Fin 3) (f : Fin 128) (o : Fin O) : EReal :=
  W ⟨f.val * 3 + s.val, by omega⟩ o

/-- The convolution with equal factors' weights added first. -/
def gconvK {O : Nat} (W0 W1 : Fin 384 → Fin O → EReal) (b0 b1 : Fin O → EReal) : GC O :=
  gconvP (fun f o => wsl W0 0 f o + wsl W1 0 f o) (fun f o => wsl W0 1 f o + wsl W0 2 f o)
    (fun f o => wsl W1 1 f o + wsl W1 2 f o) (fun o => b0 o + b1 o)

/-- The stacked triple (x, ax, ax), feature-major: column 3f + s holds stack position s of feature f. -/
def stack3 (x ax : Fin 1024 → Fin 128 → EReal) (n : Fin 1024) (k : Fin 384) : EReal :=
  if k.val % 3 = 0 then x n ⟨k.val / 3, by omega⟩ else ax n ⟨k.val / 3, by omega⟩

/-- The convolution as two products over the 384 interleaved rows. -/
def gconvR {O : Nat} (W0 W1 : Fin 384 → Fin O → EReal) (b0 b1 : Fin O → EReal) : GC O :=
  fun x ax0 ax1 n o => (mm (stack3 x ax0) W0 n o + b0 o) + (mm (stack3 x ax1) W1 n o + b1 o)

/-- The lower and the upper half of 128 columns. -/
def lo (u : Fin 64) : Fin 128 := ⟨u.val, by omega⟩
def hi (u : Fin 64) : Fin 128 := ⟨u.val + 64, by omega⟩

/-- The reset and update gates, 128 wide. -/
def gate (g1 : GC 128) (adj : Fin 1024 → Fin 1024 → EReal) (inp hx : Fin 1024 → Fin 64 → EReal)
    (n : Fin 1024) (o : Fin 128) : EReal :=
  Ideal.logistic (g1 (cat inp hx) (mm (rwalk adj) (cat inp hx)) (mm (rwalk (tr adj)) (cat inp hx)) n o)

/-- The candidate's features: the inputs beside the reset-scaled state. -/
def xcand (g1 : GC 128) (adj : Fin 1024 → Fin 1024 → EReal) (inp hx : Fin 1024 → Fin 64 → EReal) :
    Fin 1024 → Fin 128 → EReal :=
  cat inp (fun n u => gate g1 adj inp hx n (lo u) * hx n u)

/-- The candidate state. -/
def cand (g1 : GC 128) (g2 : GC 64) (adj : Fin 1024 → Fin 1024 → EReal) (inp hx : Fin 1024 → Fin 64 → EReal)
    (n : Fin 1024) (u : Fin 64) : EReal :=
  Ideal.tanh (g2 (xcand g1 adj inp hx) (mm (rwalk adj) (xcand g1 adj inp hx)) (mm (rwalk (tr adj)) (xcand g1 adj inp hx)) n u)

/-- The new state: z·h + (1 − z)·c with z the update gate. -/
def cell (g1 : GC 128) (g2 : GC 64) (adj : Fin 1024 → Fin 1024 → EReal) (inp hx : Fin 1024 → Fin 64 → EReal)
    (n : Fin 1024) (u : Fin 64) : EReal :=
  gate g1 adj inp hx n (hi u) * hx n u + (w1 - gate g1 adj inp hx n (hi u)) * cand g1 g2 adj inp hx n u

/-! ## The arrays as the mathematics reads them -/

/-- Batch element b's adjacency matrix. -/
def adjOf (a : (⟨3, ![16, 1024, 1024]⟩ : Shape).Idx → EReal) (b : Fin 16) (i j : Fin 1024) : EReal := a (ix3 b i j)

/-- Batch element b's 65536 numbers as 1024 nodes of 64 features. -/
def rowsOf (a : (⟨2, ![16, 65536]⟩ : Shape).Idx → EReal) (b : Fin 16) (n : Fin 1024) (u : Fin 64) : EReal :=
  a (ix2 b ⟨n.val * 64 + u.val, by omega⟩)

def wOf {O : Nat} (W : (⟨2, ![384, O]⟩ : Shape).Idx → EReal) (k : Fin 384) (o : Fin O) : EReal := W (ix2 k o)
def vOf {O : Nat} (v : (⟨1, ![O]⟩ : Shape).Idx → EReal) (o : Fin O) : EReal := v (ix1 o)

/-- The batch, the node and the feature of a position of the flat [16, 65536] result. -/
def bOf (i : (⟨2, ![16, 65536]⟩ : Shape).Idx) : Fin 16 := ⟨(i 0).val, idx2_lt0 i⟩
def nOf (i : (⟨2, ![16, 65536]⟩ : Shape).Idx) : Fin 1024 := ⟨(i 1).val / 64, by have := idx2_lt1 i; omega⟩
def uOf (i : (⟨2, ![16, 65536]⟩ : Shape).Idx) : Fin 64 := ⟨(i 1).val % 64, by omega⟩

/-- The whole result with the three-product convolutions. -/
def outK (a0 a1 : (⟨2, ![16, 65536]⟩ : Shape).Idx → EReal) (a2 : (⟨3, ![16, 1024, 1024]⟩ : Shape).Idx → EReal)
    (a3 : (⟨2, ![384, 128]⟩ : Shape).Idx → EReal) (a4 : (⟨1, ![128]⟩ : Shape).Idx → EReal)
    (a5 : (⟨2, ![384, 128]⟩ : Shape).Idx → EReal) (a6 : (⟨1, ![128]⟩ : Shape).Idx → EReal)
    (a7 : (⟨2, ![384, 64]⟩ : Shape).Idx → EReal) (a8 : (⟨1, ![64]⟩ : Shape).Idx → EReal)
    (a9 : (⟨2, ![384, 64]⟩ : Shape).Idx → EReal) (a10 : (⟨1, ![64]⟩ : Shape).Idx → EReal) :
    (⟨2, ![16, 65536]⟩ : Shape).Idx → EReal := fun i =>
  cell (gconvK (wOf a3) (wOf a5) (vOf a4) (vOf a6)) (gconvK (wOf a7) (wOf a9) (vOf a8) (vOf a10))
    (adjOf a2 (bOf i)) (rowsOf a0 (bOf i)) (rowsOf a1 (bOf i)) (nOf i) (uOf i)

/-- The whole result with the two-product convolutions. -/
def outR (a0 a1 : (⟨2, ![16, 65536]⟩ : Shape).Idx → EReal) (a2 : (⟨3, ![16, 1024, 1024]⟩ : Shape).Idx → EReal)
    (a3 : (⟨2, ![384, 128]⟩ : Shape).Idx → EReal) (a4 : (⟨1, ![128]⟩ : Shape).Idx → EReal)
    (a5 : (⟨2, ![384, 128]⟩ : Shape).Idx → EReal) (a6 : (⟨1, ![128]⟩ : Shape).Idx → EReal)
    (a7 : (⟨2, ![384, 64]⟩ : Shape).Idx → EReal) (a8 : (⟨1, ![64]⟩ : Shape).Idx → EReal)
    (a9 : (⟨2, ![384, 64]⟩ : Shape).Idx → EReal) (a10 : (⟨1, ![64]⟩ : Shape).Idx → EReal) :
    (⟨2, ![16, 65536]⟩ : Shape).Idx → EReal := fun i =>
  cell (gconvR (wOf a3) (wOf a5) (vOf a4) (vOf a6)) (gconvR (wOf a7) (wOf a9) (vOf a8) (vOf a10))
    (adjOf a2 (bOf i)) (rowsOf a0 (bOf i)) (rowsOf a1 (bOf i)) (nOf i) (uOf i)

end Cert.DiffGru

end
-- ==== Proof.KBodyA.lean ====
/-
  The first half of the kernel body read at an index: the loaded blocks as matrices, the two random-walk matrices
  (of the adjacency block and of its transpose) and the node features (inputs beside state).
-/
import proofs.«179813_j9328668967409_1_alg».proof.Proof.Gen.KernelIdeal.Skeleton
import proofs.«179813_j9328668967409_1_alg».proof.Proof.Spec
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.KernelIdeal.Body
open Idealize.ShloMosaic Idealize.ShloMosaic.ValueIdx Cert.KernelIdeal Cert.KernelIdeal.Gen Cert.DiffGru

/-- A [1, 1024, 1024] block as a matrix. -/
def sq (v : (⟨3, ![1, 1024, 1024]⟩ : Shape).Idx → EReal) (i j : Fin 1024) : EReal := v (ix3 0 i j)
/-- A [1, 1024, 64] block as 1024 rows of 64. -/
def rows (v : (⟨3, ![1, 1024, 64]⟩ : Shape).Idx → EReal) (n : Fin 1024) (u : Fin 64) : EReal := v (ix3 0 n u)

theorem pay3_apply (v : Vec Ideal S1x1024x64 .f32) (n : Fin 1024) (u : Fin 64) :
    k0_pay3 (F := Ideal) v (ix2 n u) = rows v n u :=
  shapeCast_1ab_ab_apply v shapeCasts_S1x1024x64_S1024x64 n u

theorem pay4_apply (v : Vec Ideal S1x1024x64 .f32) (n : Fin 1024) (u : Fin 64) :
    k0_pay4 (F := Ideal) v (ix2 n u) = rows v n u :=
  shapeCast_1ab_ab_apply v shapeCasts_S1x1024x64_S1024x64 n u

/-- The adjacency block cast to a matrix reads the block's one slab. -/
theorem pay2_apply (v0 : Vec Ideal S1x1024x1024 .f32) (i j : Fin 1024) :
    k0_pay2 (F := Ideal) v0 (ix2 i j) = sq v0 i j :=
  shapeCast_1ab_ab_apply v0 shapeCasts_S1x1024x1024_S1024x1024 i j

/-- Two node numbers below 1024 have equal 32-bit words only when they are equal. -/
theorem ofNat32_inj (i j : Fin 1024) : BitVec.ofNat 32 i.val = BitVec.ofNat 32 j.val ↔ i = j := by
  constructor
  · intro h
    have := congrArg BitVec.toNat h
    simp only [BitVec.toNat_ofNat] at this
    have hi := i.isLt; have hj := j.isLt
    exact Fin.ext (by omega)
  · intro h; rw [h]

/-- The comparison of the row number with the column number, widened and converted, is the identity matrix. -/
theorem pay5_apply (i j : Fin 1024) : k0_pay5 (F := Ideal) (ix2 i j) = eye i j := by
  show FloatOps.sitofp (F := Ideal) .f32
      ((IntOp.cmpi .eq (iota .tc S1024x1024 32 [0] iota_S1024x1024_d0_w32 (ix2 i j))
        (iota .tc S1024x1024 32 [1] iota_S1024x1024_d1_w32 (ix2 i j))).setWidth 32) = eye i j
  rw [iota_single_apply, iota_single_apply]
  show ((((IntOp.cmpi .eq (BitVec.ofNat 32 i.val) (BitVec.ofNat 32 j.val)).setWidth 32).toInt : ℝ) : EReal) = eye i j
  by_cases h : i = j
  · have hc : IntOp.cmpi .eq (BitVec.ofNat 32 i.val) (BitVec.ofNat 32 j.val) = 1#1 :=
      StableHlo.Predicate.cmpi_eq_iff.mpr ((ofNat32_inj i j).mpr h)
    have h1 : ((1#1 : BitVec 1).setWidth 32).toInt = 1 := by decide
    rw [hc, h1, eye, if_pos h]
    simp
  · have hc : IntOp.cmpi .eq (BitVec.ofNat 32 i.val) (BitVec.ofNat 32 j.val) = 0#1 :=
      eq_zero_of_ne_one fun h1 => h ((ofNat32_inj i j).mp (StableHlo.Predicate.cmpi_eq_iff.mp h1))
    have h0 : ((0#1 : BitVec 1).setWidth 32).toInt = 0 := by decide
    rw [hc, h0, eye, if_neg h]
    simp

/-- The random-walk normalisation the kernel applies to a matrix value: add the identity, sum each column, take the
    guarded reciprocal, and scale row i by the reciprocal of column i's sum. -/
def walkPay (M : FVec Ideal S1024x1024 .f32) : FVec Ideal S1024x1024 .bf16 :=
  have v11 : FVec Ideal S1024x1024 .f32 := addf M (k0_pay5 (F := Ideal))
  have v12 : FVec Ideal S1024 .f32 := multiReduction .add [0] S1024 v11 0x00000000#32 reduces_S1024x1024_S1024 (.inl rfl) rfl
  have cst_8 : Ideal .f32 := Scalar.ofBits .f32 0x00000000#32
  have v13 : FVec Ideal S1024 .f32 := broadcast S1024 cst_8
  have v14 : IVec S1024 1 := cmpf .oeq v12 v13
  have cst_9 : Ideal .f32 := Scalar.ofBits .f32 0x3F800000#32
  have v15 : FVec Ideal S1024 .f32 := broadcast S1024 cst_9
  have v16 : FVec Ideal S1024 .f32 := divf v15 v12
  have cst_10 : Ideal .f32 := Scalar.ofBits .f32 0x00000000#32
  have v17 : FVec Ideal S1024 .f32 := broadcast S1024 cst_10
  have v18 : FVec Ideal S1024 .f32 := select v14 v17 v16
  have v19 : FVec Ideal S1024x1 .f32 := shapeCast S1024x1 v18 shapeCasts_S1024_S1024x1
  have v20 : FVec Ideal S1024x1024 .f32 := broadcastTo S1024x1024 v19 broadcasts_S1024x1_S1024x1024
  have v21 : FVec Ideal S1024x1024 .f32 := mulf v20 v11
  have v22 : FVec Ideal S1024x1024 .bf16 := truncf .bf16 v21 bitsLt_bf16_f32
  v22

theorem pay6_eq (v0 : Vec Ideal S1x1024x1024 .f32) : k0_pay6 (F := Ideal) v0 = walkPay (k0_pay2 (F := Ideal) v0) := rfl

theorem pay7_eq (v0 : Vec Ideal S1x1024x1024 .f32) :
    k0_pay7 (F := Ideal) v0
      = walkPay (transpose S1024x1024 [1, 0] (k0_pay2 (F := Ideal) v0) transposes_S1024x1024_p1_0_S1024x1024) := rfl

section Column
variable {α : Type}

/-- A vector of length a cast to a column [a, 1] reads, at (i, 0), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column [a, 1] broadcast along its unit axis to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The sum over the first axis of a matrix value, read at column i, is the sum of that column's entries. -/
theorem colsum_apply (X : FVec Ideal S1024x1024 .f32) (i : Fin 1024) :
    multiReduction .add [0] S1024 X 0x00000000#32 reduces_S1024x1024_S1024 (.inl rfl) rfl (ix1 i)
      = ∑ k : Fin 1024, X (ix2 k i) := by
  refine (Ideal.multiReduction_add_single X 0x00000000#32 reduces_S1024x1024_S1024 (.inl rfl) rfl (ix1 i)).trans ?_
  show ∑ k : Fin 1024, X (reduces_S1024x1024_S1024.lift (ix1 i) k) = _
  refine Finset.sum_congr rfl fun k _ => congrArg X ?_
  funext a
  match a with
  | ⟨0, _⟩ => rfl
  | ⟨1, _⟩ => rfl

/-- The normalisation of any matrix value M with entries m is the random-walk matrix of m. -/
theorem walkPay_apply (M : FVec Ideal S1024x1024 .f32) (m : Fin 1024 → Fin 1024 → EReal)
    (hM : ∀ i j, M (ix2 i j) = m i j) (i j : Fin 1024) : walkPay M (ix2 i j) = rwalk m i j := by
  have h11 : ∀ r c : Fin 1024, addf M (k0_pay5 (F := Ideal)) (ix2 r c) = selfLoop m r c := fun r c => by
    rw [addf_apply, hM, pay5_apply]; rfl
  have hs : multiReduction .add [0] S1024 (addf M (k0_pay5 (F := Ideal))) 0x00000000#32 reduces_S1024x1024_S1024
      (.inl rfl) rfl (ix1 i) = ∑ k : Fin 1024, selfLoop m k i :=
    (colsum_apply _ i).trans (Finset.sum_congr rfl fun k _ => h11 k i)
  unfold walkPay rwalk
  show (broadcastTo S1024x1024 _ broadcasts_S1024x1_S1024x1024 (ix2 i j)) * (addf M (k0_pay5 (F := Ideal)) (ix2 i j)) = _
  refine congrArg₂ (· * ·) ?_ (h11 i j)
  refine (broadcastTo_a1_ab_apply _ broadcasts_S1024x1_S1024x1024 i j).trans ?_
  refine (shapeCast_a_a1_apply _ shapeCasts_S1024_S1024x1 i 0).trans ?_
  exact congrArg rinv hs

theorem pay6_apply (v0 : Vec Ideal S1x1024x1024 .f32) (i j : Fin 1024) :
    k0_pay6 (F := Ideal) v0 (ix2 i j) = rwalk (sq v0) i j :=
  (congrFun (pay6_eq v0) (ix2 i j)).trans (walkPay_apply _ (sq v0) (pay2_apply v0) i j)

theorem pay7_apply (v0 : Vec Ideal S1x1024x1024 .f32) (i j : Fin 1024) :
    k0_pay7 (F := Ideal) v0 (ix2 i j) = rwalk (tr (sq v0)) i j :=
  (congrFun (pay7_eq v0) (ix2 i j)).trans
    (walkPay_apply _ (tr (sq v0))
      (fun r c => (transpose_ix2_apply _ transposes_S1024x1024_p1_0_S1024x1024 r c).trans (pay2_apply v0 c r)) i j)

theorem pay8_apply (v2 v4 : Vec Ideal S1x1024x64 .f32) (n : Fin 1024) (f : Fin 128) :
    k0_pay8 (F := Ideal) v2 v4 (ix2 n f) = cat (rows v2) (rows v4) n f := by
  show concatenate S1024x128 1 [⟨S1024x64, k0_pay3 (F := Ideal) v2⟩, ⟨S1024x64, k0_pay4 (F := Ideal) v4⟩]
      concatenates_S1024x64_S1024x64_S1024x128_d1 (ix2 n f) = _
  unfold cat
  by_cases h : f.val < 64
  · rw [dif_pos h]
    refine (concatenate_pair_apply_left _ _ _ concatenates_S1024x64_S1024x64_S1024x128_d1 (ix2 n f) rfl
      (ix2 n (⟨f.val, h⟩ : Fin 64)) fun b => ?_).trans (pay3_apply v2 n ⟨f.val, h⟩)
    match b with
    | ⟨0, _⟩ => rfl
    | ⟨1, _⟩ => rfl
  · rw [dif_neg h]
    refine (concatenate_pair_apply_right _ _ _ concatenates_S1024x64_S1024x64_S1024x128_d1 (ix2 n f) rfl rfl
      (ix2 n (⟨f.val - 64, by omega⟩ : Fin 64)) (fun b hb => ?_) ?_).trans (pay4_apply v4 n ⟨f.val - 64, by omega⟩)
    · match b, hb with
      | ⟨0, _⟩, _ => rfl
      | ⟨1, _⟩, hb => exact absurd rfl hb
    · show f.val - 64 + 64 = f.val
      omega

end Cert.KernelIdeal.Body

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KBodyB.lean ====
/-
  The second half of the kernel body read at an index: the diffused features as matrix products, the gate, the
  candidate, and the stored block as the cell's new state with the three-product convolutions.

  Every product of the body contracts the left operand's columns with the right operand's rows into a zero
  accumulator, so at an index it is the sum over the contracted coordinate; the narrowing of an operand to sixteen
  bits is the identity over the extended reals. The gate's logits are the three products over the features and
  their two diffusions plus the bias row; its upper half is the update gate, its lower half scales the state inside
  the candidate's features. The candidate's logits are again three products plus a bias row, of which the two
  diffused ones are products of products. What is stored is z·h + (1 − z)·c.
-/
import proofs.«179813_j9328668967409_1_alg».proof.Proof.KBodyA
import proofs.«179813_j9328668967409_1_alg».proof.Proof.LibPlainDot
import proofs.«179813_j9328668967409_1_alg».proof.Proof.Gen.KernelIdeal.Frame
import Idealize.ShloMosaic.Lib.Pipeline.Value
import Idealize.ShloMosaic.Lib.ValueLayout

noncomputable section

open scoped BigOperators

namespace Cert.KernelIdeal.Body
open Idealize.ShloMosaic Idealize.ShloMosaic.ValueIdx Cert.KernelIdeal Cert.KernelIdeal.Gen Cert.DiffGru

/-- A two-axis block as a matrix. -/
def mat {A B : Nat} (v : (⟨2, ![A, B]⟩ : Shape).Idx → EReal) (i : Fin A) (j : Fin B) : EReal := v (ix2 i j)
/-- A [1, B] block as a row. -/
def rowv {B : Nat} (v : (⟨2, ![1, B]⟩ : Shape).Idx → EReal) (j : Fin B) : EReal := v (ix2 0 j)

/-! ## The body's products at an index -/

/-- The three dimension-number records of the body are plain: columns against rows, no batch axes. -/
theorem plainA : PlainDot.IsPlain dot_S1024x1024_S1024x128_S1024x128_1_0_0_1_n_n := ⟨rfl, rfl, rfl, rfl, rfl, rfl⟩
theorem plainB : PlainDot.IsPlain dot_S1024x128_S128x128_S1024x128_1_0_0_1_n_n := ⟨rfl, rfl, rfl, rfl, rfl, rfl⟩
theorem plainC : PlainDot.IsPlain dot_S1024x128_S128x64_S1024x64_1_0_0_1_n_n := ⟨rfl, rfl, rfl, rfl, rfl, rfl⟩

/-- A 1024×1024 by 1024×128 product into the zero accumulator is the matrix product of the operands. -/
theorem dotA_apply {φ₁ φ₂ : FTy} (l : FVec Ideal S1024x1024 φ₁) (r : FVec Ideal S1024x128 φ₂) (n : Fin 1024) (f : Fin 128) :
    matmul dot_S1024x1024_S1024x128_S1024x128_1_0_0_1_n_n none l r (constant S1024x128 .f32 0x00000000#32) (ix2 n f)
      = mm (mat l) (mat r) n f :=
  PlainDot.matmul_zero_plain _ plainA none l r n f

/-- A 1024×128 by 128×128 product into the zero accumulator is the matrix product of the operands. -/
theorem dotB_apply {φ₁ φ₂ : FTy} (l : FVec Ideal S1024x128 φ₁) (r : FVec Ideal S128x128 φ₂) (n : Fin 1024) (o : Fin 128) :
    matmul dot_S1024x128_S128x128_S1024x128_1_0_0_1_n_n none l r (constant S1024x128 .f32 0x00000000#32) (ix2 n o)
      = mm (mat l) (mat r) n o :=
  PlainDot.matmul_zero_plain _ plainB none l r n o

/-- A 1024×128 by 128×64 product into the zero accumulator is the matrix product of the operands. -/
theorem dotC_apply {φ₁ φ₂ : FTy} (l : FVec Ideal S1024x128 φ₁) (r : FVec Ideal S128x64 φ₂) (n : Fin 1024) (u : Fin 64) :
    matmul dot_S1024x128_S128x64_S1024x64_1_0_0_1_n_n none l r (constant S1024x64 .f32 0x00000000#32) (ix2 n u)
      = mm (mat l) (mat r) n u :=
  PlainDot.matmul_zero_plain _ plainC none l r n u

/-! ## The first half's blocks as whole matrices -/

theorem mat_pay3 (v : Vec Ideal S1x1024x64 .f32) : mat (k0_pay3 (F := Ideal) v) = rows v :=
  funext fun n => funext fun u => pay3_apply v n u
theorem mat_pay4 (v : Vec Ideal S1x1024x64 .f32) : mat (k0_pay4 (F := Ideal) v) = rows v :=
  funext fun n => funext fun u => pay4_apply v n u
theorem mat_pay6 (v0 : Vec Ideal S1x1024x1024 .f32) : mat (k0_pay6 (F := Ideal) v0) = rwalk (sq v0) :=
  funext fun i => funext fun j => pay6_apply v0 i j
theorem mat_pay7 (v0 : Vec Ideal S1x1024x1024 .f32) : mat (k0_pay7 (F := Ideal) v0) = rwalk (tr (sq v0)) :=
  funext fun i => funext fun j => pay7_apply v0 i j
theorem mat_pay8 (v2 v4 : Vec Ideal S1x1024x64 .f32) : mat (k0_pay8 (F := Ideal) v2 v4) = cat (rows v2) (rows v4) :=
  funext fun n => funext fun f => pay8_apply v2 v4 n f

/-! ## The diffused features -/

theorem pay9_apply (v0 : Vec Ideal S1x1024x1024 .f32) (v2 v4 : Vec Ideal S1x1024x64 .f32) (n : Fin 1024) (f : Fin 128) :
    k0_pay9 (F := Ideal) v0 v2 v4 (ix2 n f) = mm (rwalk (sq v0)) (cat (rows v2) (rows v4)) n f := by
  refine (dotA_apply (k0_pay6 (F := Ideal) v0) (k0_pay8 (F := Ideal) v2 v4) n f).trans ?_
  rw [mat_pay6, mat_pay8]

theorem pay10_apply (v0 : Vec Ideal S1x1024x1024 .f32) (v2 v4 : Vec Ideal S1x1024x64 .f32) (n : Fin 1024) (f : Fin 128) :
    k0_pay10 (F := Ideal) v0 v2 v4 (ix2 n f) = mm (rwalk (tr (sq v0))) (cat (rows v2) (rows v4)) n f := by
  refine (dotA_apply (k0_pay7 (F := Ideal) v0) (k0_pay8 (F := Ideal) v2 v4) n f).trans ?_
  rw [mat_pay7, mat_pay8]

theorem mat_pay9 (v0 : Vec Ideal S1x1024x1024 .f32) (v2 v4 : Vec Ideal S1x1024x64 .f32) :
    mat (k0_pay9 (F := Ideal) v0 v2 v4) = mm (rwalk (sq v0)) (cat (rows v2) (rows v4)) :=
  funext fun n => funext fun f => pay9_apply v0 v2 v4 n f
theorem mat_pay10 (v0 : Vec Ideal S1x1024x1024 .f32) (v2 v4 : Vec Ideal S1x1024x64 .f32) :
    mat (k0_pay10 (F := Ideal) v0 v2 v4) = mm (rwalk (tr (sq v0))) (cat (rows v2) (rows v4)) :=
  funext fun n => funext fun f => pay10_apply v0 v2 v4 n f

/-! ## The gate -/

/-- Three blocks and a bias row added up, at an index. -/
theorem logits_apply {O : Nat} (p q r : FVec Ideal ⟨2, ![1024, O]⟩ .f32) (b : FVec Ideal ⟨2, ![1, O]⟩ .f32)
    (h : (⟨2, ![1, O]⟩ : Shape).Broadcasts ⟨2, ![1024, O]⟩) (n : Fin 1024) (o : Fin O) :
    addf (addf (addf p q) r) (broadcastTo ⟨2, ![1024, O]⟩ b h) (ix2 n o)
      = p (ix2 n o) + q (ix2 n o) + r (ix2 n o) + rowv b o :=
  congrArg (p (ix2 n o) + q (ix2 n o) + r (ix2 n o) + ·) (broadcastTo_1b_ab_apply b h n o)

/-- The gate's block: the logistic function of the three products of the features and of their two diffusions
    with the loaded weight blocks, plus the bias row. -/
theorem pay11_apply (v37 : FVec Ideal S1024x128 .bf16) (v38 v39 : FVec Ideal S1024x128 .f32)
    (v42 v44 v46 : Vec Ideal S128x128 .bf16) (v48 : Vec Ideal S1x128 .f32) (n : Fin 1024) (o : Fin 128) :
    k0_pay11 (F := Ideal) v37 v38 v39 v42 v44 v46 v48 (ix2 n o)
      = Ideal.logistic (gconvP (mat v42) (mat v44) (mat v46) (rowv v48) (mat v37) (mat v38) (mat v39) n o) := by
  unfold k0_pay11
  rw [shapeCast_self v42, shapeCast_self v44, shapeCast_self v46, shapeCast_self v48]
  refine (congrArg Ideal.logistic (logits_apply _ _ _ v48 broadcasts_S1x128_S1024x128 n o)).trans ?_
  rw [dotB_apply, dotB_apply, dotB_apply]
  rfl

/-- The update gate's block: the upper half of the gate's columns. -/
theorem pay12_apply (v37 : FVec Ideal S1024x128 .bf16) (v38 v39 : FVec Ideal S1024x128 .f32)
    (v42 v44 v46 : Vec Ideal S128x128 .bf16) (v48 : Vec Ideal S1x128 .f32) (n : Fin 1024) (u : Fin 64) :
    k0_pay12 (F := Ideal) v37 v38 v39 v42 v44 v46 v48 (ix2 n u)
      = k0_pay11 (F := Ideal) v37 v38 v39 v42 v44 v46 v48 (ix2 n (hi u)) := by
  unfold k0_pay12
  exact slice2_axis1_apply 64 _ slices_S1024x128_o0_64_S1024x64 n u (hi u)
    (by show u.val + 64 = 64 + u.val; exact Nat.add_comm _ _)

/-! ## The candidate's features -/

/-- Two 64-wide blocks side by side, at an index: the left one below column 64, the right one from it on. -/
theorem concat_apply (p q : FVec Ideal S1024x64 .f32) (n : Fin 1024) (f : Fin 128) :
    concatenate S1024x128 1 [⟨S1024x64, p⟩, ⟨S1024x64, q⟩] concatenates_S1024x64_S1024x64_S1024x128_d1 (ix2 n f)
      = cat (mat p) (mat q) n f := by
  unfold cat
  split
  · next h =>
    exact concatenate_pair_apply_left _ p q _ (ix2 n f) rfl (ix2 n ⟨f.val, h⟩)
      (fun b => match b with | ⟨0, _⟩ => rfl | ⟨1, _⟩ => rfl)
  · next h =>
    exact concatenate_pair_apply_right _ p q _ (ix2 n f) rfl rfl (ix2 n ⟨f.val - 64, by omega⟩)
      (fun b hb => match b, hb with | ⟨0, _⟩, _ => rfl | ⟨1, _⟩, hb => absurd rfl hb)
      (by show f.val - 64 + 64 = f.val; omega)

/-- The candidate's features: the inputs beside the state scaled by the lower half of the gate's columns. -/
theorem pay13_apply (v3 v5 : FVec Ideal S1024x64 .f32) (v37 : FVec Ideal S1024x128 .bf16)
    (v38 v39 : FVec Ideal S1024x128 .f32) (v42 v44 v46 : Vec Ideal S128x128 .bf16) (v48 : Vec Ideal S1x128 .f32)
    (n : Fin 1024) (f : Fin 128) :
    k0_pay13 (F := Ideal) v3 v5 v37 v38 v39 v42 v44 v46 v48 (ix2 n f)
      = cat (mat v3) (fun m u => k0_pay11 (F := Ideal) v37 v38 v39 v42 v44 v46 v48 (ix2 m (lo u)) * mat v5 m u) n f := by
  unfold k0_pay13
  refine (concat_apply v3 _ n f).trans ?_
  refine congrArg (fun q => cat (mat v3) q n f) (funext fun m => funext fun u => ?_)
  exact congrArg (· * v5 (ix2 m u))
    (slice2_axis1_apply 0 _ slices_S1024x128_o0_0_S1024x64 m u (lo u) (Nat.zero_add _).symm)

/-! ## The candidate's three products -/

/-- The features diffused along the transposed graph: a product with the candidate's features. -/
theorem pay14_apply (v3 v5 : FVec Ideal S1024x64 .f32) (v35 : FVec Ideal S1024x1024 .bf16) (v37 : FVec Ideal S1024x128 .bf16)
    (v38 v39 : FVec Ideal S1024x128 .f32) (v42 v44 v46 : Vec Ideal S128x128 .bf16) (v48 : Vec Ideal S1x128 .f32)
    (n : Fin 1024) (f : Fin 128) :
    k0_pay14 (F := Ideal) v3 v5 v35 v37 v38 v39 v42 v44 v46 v48 (ix2 n f)
      = mm (mat v35) (mat (k0_pay13 (F := Ideal) v3 v5 v37 v38 v39 v42 v44 v46 v48)) n f := by
  unfold k0_pay14
  exact dotA_apply v35 _ n f

/-- The candidate's features times their weight block. -/
theorem pay17_apply (v3 v5 : FVec Ideal S1024x64 .f32) (v37 : FVec Ideal S1024x128 .bf16)
    (v38 v39 : FVec Ideal S1024x128 .f32) (v42 v44 v46 : Vec Ideal S128x128 .bf16) (v48 : Vec Ideal S1x128 .f32)
    (v67 : Vec Ideal S128x64 .bf16) (n : Fin 1024) (u : Fin 64) :
    k0_pay17 (F := Ideal) v3 v5 v37 v38 v39 v42 v44 v46 v48 v67 (ix2 n u)
      = mm (mat (k0_pay13 (F := Ideal) v3 v5 v37 v38 v39 v42 v44 v46 v48)) (mat v67) n u := by
  unfold k0_pay17
  rw [shapeCast_self v67]
  exact dotC_apply _ v67 n u

/-- The features diffused along the graph, times their weight block: a product of a product. -/
theorem pay18_apply (v3 v5 : FVec Ideal S1024x64 .f32) (v22 : FVec Ideal S1024x1024 .bf16) (v37 : FVec Ideal S1024x128 .bf16)
    (v38 v39 : FVec Ideal S1024x128 .f32) (v42 v44 v46 : Vec Ideal S128x128 .bf16) (v48 : Vec Ideal S1x128 .f32)
    (v69 : Vec Ideal S128x64 .bf16) (n : Fin 1024) (u : Fin 64) :
    k0_pay18 (F := Ideal) v3 v5 v22 v37 v38 v39 v42 v44 v46 v48 v69 (ix2 n u)
      = mm (mm (mat v22) (mat (k0_pay13 (F := Ideal) v3 v5 v37 v38 v39 v42 v44 v46 v48))) (mat v69) n u := by
  unfold k0_pay18
  rw [shapeCast_self v69]
  refine (dotC_apply _ v69 n u).trans ?_
  refine congrArg (fun l => mm l (mat v69) n u) (funext fun i => funext fun κ => ?_)
  exact dotA_apply v22 _ i κ

/-! ## The stored block -/

/-- The stored block from the blocks it is computed from: z·h + (1 − z)·tanh of the candidate's logits, the
    logits being two products already formed, a third product and the bias row. -/
theorem pay1_apply (v5 v59 : FVec Ideal S1024x64 .f32) (v66 : FVec Ideal S1024x128 .bf16) (v72 : FVec Ideal S128x64 .bf16)
    (v74 : FVec Ideal S1x64 .f32) (v75 v76 : FVec Ideal S1024x64 .f32) (n : Fin 1024) (u : Fin 64) :
    k0_pay1 (F := Ideal) v5 v59 v66 v72 v74 v75 v76 (ix3 0 n u)
      = mat v59 n u * mat v5 n u
        + (w1 - mat v59 n u) * Ideal.tanh (mat v75 n u + mat v76 n u + mm (mat v66) (mat v72) n u + rowv v74 u) := by
  unfold k0_pay1
  refine (shapeCast_ab_1ab_apply _ shapeCasts_S1024x64_S1x1024x64 0 n u).trans ?_
  refine congrArg (fun t => v59 (ix2 n u) * v5 (ix2 n u) + (w1 - v59 (ix2 n u)) * Ideal.tanh t) ?_
  refine (logits_apply v75 v76 _ v74 broadcasts_S1x64_S1024x64 n u).trans ?_
  rw [dotC_apply]
  rfl

/-! ## The payloads of the loaded blocks as the cell's terms -/

section Loaded
variable (x0 : Vec Ideal S1x1024x1024 .f32) (x1 x2 : Vec Ideal S1x1024x64 .f32)
  (x3 x4 x5 : Vec Ideal S128x128 .bf16) (x6 : Vec Ideal S1x128 .f32)

/-- The gate's block of the loaded blocks is the cell's gate. -/
theorem gate_apply (n : Fin 1024) (o : Fin 128) :
    k0_pay11 (F := Ideal) (k0_pay8 x1 x2) (k0_pay9 x0 x1 x2) (k0_pay10 x0 x1 x2) x3 x4 x5 x6 (ix2 n o)
      = gate (gconvP (mat x3) (mat x4) (mat x5) (rowv x6)) (sq x0) (rows x1) (rows x2) n o := by
  refine (pay11_apply _ _ _ x3 x4 x5 x6 n o).trans ?_
  rw [mat_pay8, mat_pay9, mat_pay10]
  rfl

/-- The update gate's block is the upper half of the cell's gate. -/
theorem upd_apply (n : Fin 1024) (u : Fin 64) :
    mat (k0_pay12 (F := Ideal) (k0_pay8 x1 x2) (k0_pay9 x0 x1 x2) (k0_pay10 x0 x1 x2) x3 x4 x5 x6) n u
      = gate (gconvP (mat x3) (mat x4) (mat x5) (rowv x6)) (sq x0) (rows x1) (rows x2) n (hi u) :=
  (pay12_apply _ _ _ x3 x4 x5 x6 n u).trans (gate_apply x0 x1 x2 x3 x4 x5 x6 n (hi u))

/-- The candidate's features of the loaded blocks are the cell's. -/
theorem xcand_eq :
    mat (k0_pay13 (F := Ideal) (k0_pay3 x1) (k0_pay4 x2) (k0_pay8 x1 x2) (k0_pay9 x0 x1 x2) (k0_pay10 x0 x1 x2) x3 x4 x5 x6)
      = xcand (gconvP (mat x3) (mat x4) (mat x5) (rowv x6)) (sq x0) (rows x1) (rows x2) := by
  funext n f
  refine (pay13_apply _ _ _ _ _ x3 x4 x5 x6 n f).trans ?_
  rw [mat_pay3, mat_pay4]
  unfold xcand
  refine congrArg (fun q => cat (rows x1) q n f) (funext fun m => funext fun u => ?_)
  exact congrArg (· * rows x2 m u) (gate_apply x0 x1 x2 x3 x4 x5 x6 m (lo u))

/-- The candidate's first product. -/
theorem prod0_eq (x7 : Vec Ideal S128x64 .bf16) :
    mat (k0_pay17 (F := Ideal) (k0_pay3 x1) (k0_pay4 x2) (k0_pay8 x1 x2) (k0_pay9 x0 x1 x2) (k0_pay10 x0 x1 x2) x3 x4 x5 x6 x7)
      = mm (xcand (gconvP (mat x3) (mat x4) (mat x5) (rowv x6)) (sq x0) (rows x1) (rows x2)) (mat x7) := by
  funext n u
  refine (pay17_apply _ _ _ _ _ x3 x4 x5 x6 x7 n u).trans ?_
  rw [xcand_eq]

/-- The candidate's second product: the features diffused along the graph. -/
theorem prod1_eq (x8 : Vec Ideal S128x64 .bf16) :
    mat (k0_pay18 (F := Ideal) (k0_pay3 x1) (k0_pay4 x2) (k0_pay6 x0) (k0_pay8 x1 x2) (k0_pay9 x0 x1 x2) (k0_pay10 x0 x1 x2)
        x3 x4 x5 x6 x8)
      = mm (mm (rwalk (sq x0)) (xcand (gconvP (mat x3) (mat x4) (mat x5) (rowv x6)) (sq x0) (rows x1) (rows x2))) (mat x8) := by
  funext n u
  refine (pay18_apply _ _ _ _ _ _ x3 x4 x5 x6 x8 n u).trans ?_
  rw [xcand_eq, mat_pay6]

/-- The features diffused along the transposed graph. -/
theorem diff1_eq :
    mat (k0_pay14 (F := Ideal) (k0_pay3 x1) (k0_pay4 x2) (k0_pay7 x0) (k0_pay8 x1 x2) (k0_pay9 x0 x1 x2) (k0_pay10 x0 x1 x2)
        x3 x4 x5 x6)
      = mm (rwalk (tr (sq x0))) (xcand (gconvP (mat x3) (mat x4) (mat x5) (rowv x6)) (sq x0) (rows x1) (rows x2)) := by
  funext n f
  refine (pay14_apply _ _ _ _ _ _ x3 x4 x5 x6 n f).trans ?_
  rw [xcand_eq, mat_pay7]

end Loaded

/-- What the body stores, at node n and feature u: the cell's new state of the loaded blocks. -/
theorem out_apply (x0 : Vec Ideal S1x1024x1024 .f32) (x1 x2 : Vec Ideal S1x1024x64 .f32)
    (x3 x4 x5 : Vec Ideal S128x128 .bf16) (x6 : Vec Ideal S1x128 .f32)
    (x7 x8 x9 : Vec Ideal S128x64 .bf16) (x10 : Vec Ideal S1x64 .f32) (n : Fin 1024) (u : Fin 64) :
    out0_11 (F := Ideal) x0 x1 x2 x3 x4 x5 x6 x7 x8 x9 x10 (ix3 0 n u)
      = cell (gconvP (mat x3) (mat x4) (mat x5) (rowv x6)) (gconvP (mat x7) (mat x8) (mat x9) (rowv x10))
          (sq x0) (rows x1) (rows x2) n u := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold out0_11
  rw [View.canon_unit_zero hz3]
  simp only [View.ld_unit_zero (S := S1x1024x1024) hz3, View.ld_unit_zero (S := S1x1024x64) hz3,
    View.ld_unit_zero (S := S128x128) hz2, View.ld_unit_zero (S := S1x128) hz2,
    View.ld_unit_zero (S := S128x64) hz2, View.ld_unit_zero (S := S1x64) hz2]
  refine (pay1_apply _ _ _ _ _ _ _ n u).trans ?_
  rw [upd_apply, mat_pay4, prod0_eq, prod1_eq, diff1_eq]
  unfold k0_pay15 k0_pay16
  rw [shapeCast_self x9, shapeCast_self x10]
  rfl

end Cert.KernelIdeal.Body

end
-- ==== Proof.KHost.lean ====
/-
  The arrays the kernel region finds, as functions of the program's arguments: the host lines before the region view the
  flat input and state arrays as [16, 1024, 64]; view each interleaved [384, O] weight matrix as [128, 3, O], take its three
  slices along the middle axis, add slice 0 of the first matrix to slice 0 of the second, and slices 1 and 2 of each
  matrix to each other; and add the two biases, viewed as one row.

  Three facts carry everything. Viewing a row of 65536 numbers as 1024 rows of 64 keeps the row-major position, so entry
  (n, u) is number n·64 + u. Viewing 384 rows as 128 groups of 3 keeps it too, so group f, member s is row 3f + s; the cut
  at member s followed by dropping the unit axis therefore reads row 3f + s at row f. A vector viewed as a single row
  reads its own entries. Sums are entrywise and the change of number format is the identity on the extended reals.
-/
import proofs.«179813_j9328668967409_1_alg».proof.Proof.Gen.KernelIdeal.Frame
import proofs.«179813_j9328668967409_1_alg».proof.Proof.Spec
import Idealize.ShloMosaic.Lib.StableHlo.Run
import Idealize.ShloMosaic.Lib.Pipeline.Value
import Idealize.ShloMosaic.Lib.ValueLayout

noncomputable section

open scoped BigOperators

namespace Cert.KernelIdeal.HostSide
open Idealize.ShloMosaic Idealize.ShloMosaic.TcCoe Idealize.ShloMosaic.ValueIdx Idealize.SL.Sem Cert.KernelIdeal Cert.KernelIdeal.Gen Cert.DiffGru

variable (m : (ℓ : Loc nD τ sig) → Buf (Elt Ideal) ℓ)

/-! ## The three views, read at an index -/

/-- The flat [16, 65536] array viewed as [16, 1024, 64] reads, at (b, n, u), position n·64 + u of row b. -/
theorem rows_view_apply (A : (⟨2, ![16, 65536]⟩ : Shape).Idx → EReal)
    (h : (⟨2, ![16, 65536]⟩ : Shape).ShapeCasts ⟨3, ![16, 1024, 64]⟩) (b : Fin 16) (n : Fin 1024) (u : Fin 64) :
    shapeCast ⟨3, ![16, 1024, 64]⟩ A h (ix3 b n u) = rowsOf A b n u := by
  unfold rowsOf
  refine shapeCast_apply A h _ _ ?_
  rw [Shape.rowMajor_val_two, Shape.rowMajor_val_three]
  show b.val * 65536 + (n.val * 64 + u.val) = (b.val * 1024 + n.val) * 64 + u.val
  omega

/-- An interleaved [384, O] matrix viewed as [128, 3, O], cut at position s of the middle axis and viewed as [128, O],
    reads row 3f + s at row f. -/
theorem wslice_apply {O : Nat} (W : (⟨2, ![384, O]⟩ : Shape).Idx → EReal)
    (h1 : (⟨2, ![384, O]⟩ : Shape).ShapeCasts ⟨3, ![128, 3, O]⟩) (s : Fin 3)
    (h2 : (⟨3, ![128, 3, O]⟩ : Shape).Slices ![0, s.val, 0] ⟨3, ![128, 1, O]⟩)
    (h3 : (⟨3, ![128, 1, O]⟩ : Shape).ShapeCasts ⟨2, ![128, O]⟩) (f : Fin 128) (o : Fin O) :
    shapeCast ⟨2, ![128, O]⟩
        (extractStridedSlice ⟨3, ![128, 1, O]⟩ ![0, s.val, 0] (shapeCast ⟨3, ![128, 3, O]⟩ W h1) h2) h3 (ix2 f o)
      = wsl (wOf W) s f o := by
  unfold wsl wOf
  refine (shapeCast_apply _ h3 (ix2 f o) (ix3 f (0 : Fin 1) o) ?_).trans ?_
  · rw [Shape.rowMajor_val_two, Shape.rowMajor_val_three]
    show (f.val * 1 + 0) * O + o.val = f.val * O + o.val
    rw [Nat.mul_one, Nat.add_zero]
  refine (slice3_axis1_apply s.val _ h2 f (0 : Fin 1) o s (by simp)).trans ?_
  refine shapeCast_apply W h1 _ _ ?_
  rw [Shape.rowMajor_val_two, Shape.rowMajor_val_three]
  show (f.val * 3 + s.val) * O + o.val = (f.val * 3 + s.val) * O + o.val
  rfl

/-- A [O] vector viewed as one row reads its entry o at (0, o). -/
theorem bias_view_apply {O : Nat} (x y : (⟨1, ![O]⟩ : Shape).Idx → EReal)
    (h : (⟨1, ![O]⟩ : Shape).ShapeCasts ⟨2, ![1, O]⟩) (o : Fin O) :
    shapeCast ⟨2, ![1, O]⟩ (addf (F := Ideal) (φ := .f32) x y) h (ix2 (0 : Fin 1) o) = vOf x o + vOf y o :=
  shapeCast_a_1a_apply _ h 0 o

/-! ## The staged arrays -/

theorem V_v0_apply (c : Dev nD) (b : Fin 16) (n : Fin 1024) (u : Fin 64) :
    (V m c main_v0 : S16x1024x64.Idx → EReal) (ix3 b n u) = rowsOf (m ((c.tc : Thread nD τ).loc main_arg0)) b n u := by
  have e : (V m c main_v0 : S16x1024x64.Idx → EReal)
      = shapeCast S16x1024x64 (m ((c.tc : Thread nD τ).loc main_arg0) : S16x65536.Idx → EReal) shapeCasts_S16x65536_S16x1024x64 := by
    show StableHlo.after hostOps0 (fun b => m (c, b)) (Proc.devRef .tc main_v0) = _
    after_results
    rfl
  exact (congrFun e (ix3 b n u)).trans (rows_view_apply _ _ b n u)

theorem V_v1_apply (c : Dev nD) (b : Fin 16) (n : Fin 1024) (u : Fin 64) :
    (V m c main_v1 : S16x1024x64.Idx → EReal) (ix3 b n u) = rowsOf (m ((c.tc : Thread nD τ).loc main_arg1)) b n u := by
  have e : (V m c main_v1 : S16x1024x64.Idx → EReal)
      = shapeCast S16x1024x64 (m ((c.tc : Thread nD τ).loc main_arg1) : S16x65536.Idx → EReal) shapeCasts_S16x65536_S16x1024x64 := by
    show StableHlo.after hostOps0 (fun b => m (c, b)) (Proc.devRef .tc main_v1) = _
    after_results
    rfl
  exact (congrFun e (ix3 b n u)).trans (rows_view_apply _ _ b n u)

theorem V_v19_apply (c : Dev nD) (f o : Fin 128) :
    (V m c main_v19 : S128x128.Idx → EReal) (ix2 f o)
      = wsl (wOf (m ((c.tc : Thread nD τ).loc main_arg3))) 0 f o + wsl (wOf (m ((c.tc : Thread nD τ).loc main_arg5))) 0 f o := by
  have e : (V m c main_v19 : S128x128.Idx → EReal)
      = truncf (F := Ideal) .bf16 (addf (F := Ideal) (φ := .f32)
        (shapeCast S128x128 (extractStridedSlice S128x1x128 ![0, 0, 0]
          (shapeCast S128x3x128 (m ((c.tc : Thread nD τ).loc main_arg3) : S384x128.Idx → EReal) shapeCasts_S384x128_S128x3x128)
          slices_S128x3x128_S128x1x128_0_0_0) shapeCasts_S128x1x128_S128x128)
        (shapeCast S128x128 (extractStridedSlice S128x1x128 ![0, 0, 0]
          (shapeCast S128x3x128 (m ((c.tc : Thread nD τ).loc main_arg5) : S384x128.Idx → EReal) shapeCasts_S384x128_S128x3x128)
          slices_S128x3x128_S128x1x128_0_0_0) shapeCasts_S128x1x128_S128x128)) bitsLt_bf16_f32 := by
    show StableHlo.after hostOps0 (fun b => m (c, b)) (Proc.devRef .tc main_v19) = _
    after_results
    rfl
  refine (congrFun e (ix2 f o)).trans ?_
  refine (truncf_apply (φ := .f32) (ψ := .bf16) _ bitsLt_bf16_f32 (ix2 f o)).trans ?_
  refine (addf_apply (φ := .f32) _ _ (ix2 f o)).trans ?_
  exact congrArg₂ (· + ·) (wslice_apply _ _ 0 _ _ f o) (wslice_apply _ _ 0 _ _ f o)

theorem V_v20_apply (c : Dev nD) (f o : Fin 128) :
    (V m c main_v20 : S128x128.Idx → EReal) (ix2 f o)
      = wsl (wOf (m ((c.tc : Thread nD τ).loc main_arg3))) 1 f o + wsl (wOf (m ((c.tc : Thread nD τ).loc main_arg3))) 2 f o := by
  have e : (V m c main_v20 : S128x128.Idx → EReal)
      = truncf (F := Ideal) .bf16 (addf (F := Ideal) (φ := .f32)
        (shapeCast S128x128 (extractStridedSlice S128x1x128 ![0, 1, 0]
          (shapeCast S128x3x128 (m ((c.tc : Thread nD τ).loc main_arg3) : S384x128.Idx → EReal) shapeCasts_S384x128_S128x3x128)
          slices_S128x3x128_S128x1x128_0_1_0) shapeCasts_S128x1x128_S128x128)
        (shapeCast S128x128 (extractStridedSlice S128x1x128 ![0, 2, 0]
          (shapeCast S128x3x128 (m ((c.tc : Thread nD τ).loc main_arg3) : S384x128.Idx → EReal) shapeCasts_S384x128_S128x3x128)
          slices_S128x3x128_S128x1x128_0_2_0) shapeCasts_S128x1x128_S128x128)) bitsLt_bf16_f32 := by
    show StableHlo.after hostOps0 (fun b => m (c, b)) (Proc.devRef .tc main_v20) = _
    after_results
    rfl
  refine (congrFun e (ix2 f o)).trans ?_
  refine (truncf_apply (φ := .f32) (ψ := .bf16) _ bitsLt_bf16_f32 (ix2 f o)).trans ?_
  refine (addf_apply (φ := .f32) _ _ (ix2 f o)).trans ?_
  exact congrArg₂ (· + ·) (wslice_apply _ _ 1 _ _ f o) (wslice_apply _ _ 2 _ _ f o)

theorem V_v21_apply (c : Dev nD) (f o : Fin 128) :
    (V m c main_v21 : S128x128.Idx → EReal) (ix2 f o)
      = wsl (wOf (m ((c.tc : Thread nD τ).loc main_arg5))) 1 f o + wsl (wOf (m ((c.tc : Thread nD τ).loc main_arg5))) 2 f o := by
  have e : (V m c main_v21 : S128x128.Idx → EReal)
      = truncf (F := Ideal) .bf16 (addf (F := Ideal) (φ := .f32)
        (shapeCast S128x128 (extractStridedSlice S128x1x128 ![0, 1, 0]
          (shapeCast S128x3x128 (m ((c.tc : Thread nD τ).loc main_arg5) : S384x128.Idx → EReal) shapeCasts_S384x128_S128x3x128)
          slices_S128x3x128_S128x1x128_0_1_0) shapeCasts_S128x1x128_S128x128)
        (shapeCast S128x128 (extractStridedSlice S128x1x128 ![0, 2, 0]
          (shapeCast S128x3x128 (m ((c.tc : Thread nD τ).loc main_arg5) : S384x128.Idx → EReal) shapeCasts_S384x128_S128x3x128)
          slices_S128x3x128_S128x1x128_0_2_0) shapeCasts_S128x1x128_S128x128)) bitsLt_bf16_f32 := by
    show StableHlo.after hostOps0 (fun b => m (c, b)) (Proc.devRef .tc main_v21) = _
    after_results
    rfl
  refine (congrFun e (ix2 f o)).trans ?_
  refine (truncf_apply (φ := .f32) (ψ := .bf16) _ bitsLt_bf16_f32 (ix2 f o)).trans ?_
  refine (addf_apply (φ := .f32) _ _ (ix2 f o)).trans ?_
  exact congrArg₂ (· + ·) (wslice_apply _ _ 1 _ _ f o) (wslice_apply _ _ 2 _ _ f o)

theorem V_v23_apply (c : Dev nD) (o : Fin 128) :
    (V m c main_v23 : S1x128.Idx → EReal) (ix2 0 o) = vOf (m ((c.tc : Thread nD τ).loc main_arg4)) o + vOf (m ((c.tc : Thread nD τ).loc main_arg6)) o := by
  have e : (V m c main_v23 : S1x128.Idx → EReal)
      = shapeCast S1x128 (addf (F := Ideal) (φ := .f32) (m ((c.tc : Thread nD τ).loc main_arg4) : S128.Idx → EReal)
          (m ((c.tc : Thread nD τ).loc main_arg6) : S128.Idx → EReal)) shapeCasts_S128_S1x128 := by
    show StableHlo.after hostOps0 (fun b => m (c, b)) (Proc.devRef .tc main_v23) = _
    after_results
    rfl
  exact (congrFun e (ix2 0 o)).trans (bias_view_apply _ _ _ o)

theorem V_v41_apply (c : Dev nD) (f : Fin 128) (o : Fin 64) :
    (V m c main_v41 : S128x64.Idx → EReal) (ix2 f o)
      = wsl (wOf (m ((c.tc : Thread nD τ).loc main_arg7))) 0 f o + wsl (wOf (m ((c.tc : Thread nD τ).loc main_arg9))) 0 f o := by
  have e : (V m c main_v41 : S128x64.Idx → EReal)
      = truncf (F := Ideal) .bf16 (addf (F := Ideal) (φ := .f32)
        (shapeCast S128x64 (extractStridedSlice S128x1x64 ![0, 0, 0]
          (shapeCast S128x3x64 (m ((c.tc : Thread nD τ).loc main_arg7) : S384x64.Idx → EReal) shapeCasts_S384x64_S128x3x64)
          slices_S128x3x64_S128x1x64_0_0_0) shapeCasts_S128x1x64_S128x64)
        (shapeCast S128x64 (extractStridedSlice S128x1x64 ![0, 0, 0]
          (shapeCast S128x3x64 (m ((c.tc : Thread nD τ).loc main_arg9) : S384x64.Idx → EReal) shapeCasts_S384x64_S128x3x64)
          slices_S128x3x64_S128x1x64_0_0_0) shapeCasts_S128x1x64_S128x64)) bitsLt_bf16_f32 := by
    show StableHlo.after hostOps0 (fun b => m (c, b)) (Proc.devRef .tc main_v41) = _
    after_results_simp
    rfl
  refine (congrFun e (ix2 f o)).trans ?_
  refine (truncf_apply (φ := .f32) (ψ := .bf16) _ bitsLt_bf16_f32 (ix2 f o)).trans ?_
  refine (addf_apply (φ := .f32) _ _ (ix2 f o)).trans ?_
  exact congrArg₂ (· + ·) (wslice_apply _ _ 0 _ _ f o) (wslice_apply _ _ 0 _ _ f o)

theorem V_v42_apply (c : Dev nD) (f : Fin 128) (o : Fin 64) :
    (V m c main_v42 : S128x64.Idx → EReal) (ix2 f o)
      = wsl (wOf (m ((c.tc : Thread nD τ).loc main_arg7))) 1 f o + wsl (wOf (m ((c.tc : Thread nD τ).loc main_arg7))) 2 f o := by
  have e : (V m c main_v42 : S128x64.Idx → EReal)
      = truncf (F := Ideal) .bf16 (addf (F := Ideal) (φ := .f32)
        (shapeCast S128x64 (extractStridedSlice S128x1x64 ![0, 1, 0]
          (shapeCast S128x3x64 (m ((c.tc : Thread nD τ).loc main_arg7) : S384x64.Idx → EReal) shapeCasts_S384x64_S128x3x64)
          slices_S128x3x64_S128x1x64_0_1_0) shapeCasts_S128x1x64_S128x64)
        (shapeCast S128x64 (extractStridedSlice S128x1x64 ![0, 2, 0]
          (shapeCast S128x3x64 (m ((c.tc : Thread nD τ).loc main_arg7) : S384x64.Idx → EReal) shapeCasts_S384x64_S128x3x64)
          slices_S128x3x64_S128x1x64_0_2_0) shapeCasts_S128x1x64_S128x64)) bitsLt_bf16_f32 := by
    show StableHlo.after hostOps0 (fun b => m (c, b)) (Proc.devRef .tc main_v42) = _
    after_results_simp
    rfl
  refine (congrFun e (ix2 f o)).trans ?_
  refine (truncf_apply (φ := .f32) (ψ := .bf16) _ bitsLt_bf16_f32 (ix2 f o)).trans ?_
  refine (addf_apply (φ := .f32) _ _ (ix2 f o)).trans ?_
  exact congrArg₂ (· + ·) (wslice_apply _ _ 1 _ _ f o) (wslice_apply _ _ 2 _ _ f o)

theorem V_v43_apply (c : Dev nD) (f : Fin 128) (o : Fin 64) :
    (V m c main_v43 : S128x64.Idx → EReal) (ix2 f o)
      = wsl (wOf (m ((c.tc : Thread nD τ).loc main_arg9))) 1 f o + wsl (wOf (m ((c.tc : Thread nD τ).loc main_arg9))) 2 f o := by
  have e : (V m c main_v43 : S128x64.Idx → EReal)
      = truncf (F := Ideal) .bf16 (addf (F := Ideal) (φ := .f32)
        (shapeCast S128x64 (extractStridedSlice S128x1x64 ![0, 1, 0]
          (shapeCast S128x3x64 (m ((c.tc : Thread nD τ).loc main_arg9) : S384x64.Idx → EReal) shapeCasts_S384x64_S128x3x64)
          slices_S128x3x64_S128x1x64_0_1_0) shapeCasts_S128x1x64_S128x64)
        (shapeCast S128x64 (extractStridedSlice S128x1x64 ![0, 2, 0]
          (shapeCast S128x3x64 (m ((c.tc : Thread nD τ).loc main_arg9) : S384x64.Idx → EReal) shapeCasts_S384x64_S128x3x64)
          slices_S128x3x64_S128x1x64_0_2_0) shapeCasts_S128x1x64_S128x64)) bitsLt_bf16_f32 := by
    show StableHlo.after hostOps0 (fun b => m (c, b)) (Proc.devRef .tc main_v43) = _
    after_results_simp
    rfl
  refine (congrFun e (ix2 f o)).trans ?_
  refine (truncf_apply (φ := .f32) (ψ := .bf16) _ bitsLt_bf16_f32 (ix2 f o)).trans ?_
  refine (addf_apply (φ := .f32) _ _ (ix2 f o)).trans ?_
  exact congrArg₂ (· + ·) (wslice_apply _ _ 1 _ _ f o) (wslice_apply _ _ 2 _ _ f o)

theorem V_v45_apply (c : Dev nD) (o : Fin 64) :
    (V m c main_v45 : S1x64.Idx → EReal) (ix2 0 o) = vOf (m ((c.tc : Thread nD τ).loc main_arg8)) o + vOf (m ((c.tc : Thread nD τ).loc main_arg10)) o := by
  have e : (V m c main_v45 : S1x64.Idx → EReal)
      = shapeCast S1x64 (addf (F := Ideal) (φ := .f32) (m ((c.tc : Thread nD τ).loc main_arg8) : S64.Idx → EReal)
          (m ((c.tc : Thread nD τ).loc main_arg10) : S64.Idx → EReal)) shapeCasts_S64_S1x64 := by
    show StableHlo.after hostOps0 (fun b => m (c, b)) (Proc.devRef .tc main_v45) = _
    after_results_simp
    rfl
  exact (congrFun e (ix2 0 o)).trans (bias_view_apply _ _ _ o)

end Cert.KernelIdeal.HostSide

end
-- ==== Proof.KRun.lean ====
/-
  The idealized kernel program's run, with its result named: every weakly fair execution ends with the flat
  [16, 65536] result holding, at batch b and position 64·n + u, the cell's new state at node n and feature u of batch
  element b, computed with the three-product convolutions from the argument arrays, which end unchanged.

  Grid point t stages batch element t's adjacency matrix and its input and state rows (the flat arrays viewed
  [16, 1024, 64]) and, at every point, the same weight blocks, which the host lines before the region form from the
  interleaved weight matrices: rows 3f of the two matrices added, and rows 3f + 1 and 3f + 2 of each matrix added;
  the biases added. The body's stored block is the cell of those blocks; the 16 blocks tile the [16, 1024, 64]
  result, which the host line after the region views flat.
-/
import proofs.«179813_j9328668967409_1_alg».proof.Proof.KBodyB
import proofs.«179813_j9328668967409_1_alg».proof.Proof.KHost
import proofs.«179813_j9328668967409_1_alg».proof.Proof.Gen.KernelIdeal.Frame
import Idealize.ShloMosaic.Lib.StableHlo.Run
import Idealize.ShloMosaic.Lib.Pipeline.Value

noncomputable section

open scoped BigOperators

namespace Cert.KernelIdeal.RunValue
open Idealize.ShloMosaic Idealize.ShloMosaic.TcCoe Idealize.ShloMosaic.ValueIdx Idealize.SL.Sem Cert.KernelIdeal Cert.KernelIdeal.Gen Cert.KernelIdeal.Body Cert.DiffGru
open Idealize.ShloMosaic.Pipeline (Dat)

variable (m : (ℓ : Loc nD τ sig) → Buf (Elt Ideal) ℓ) (ρ : Dev nD → PrngReg)

/-! ## The array the region leaves -/

/-- The cell's new state at node n and feature u of batch element b, from the eleven argument arrays. -/
def cellAt (a0 a1 : (⟨2, ![16, 65536]⟩ : Shape).Idx → EReal) (a2 : (⟨3, ![16, 1024, 1024]⟩ : Shape).Idx → EReal)
    (a3 : (⟨2, ![384, 128]⟩ : Shape).Idx → EReal) (a4 : (⟨1, ![128]⟩ : Shape).Idx → EReal)
    (a5 : (⟨2, ![384, 128]⟩ : Shape).Idx → EReal) (a6 : (⟨1, ![128]⟩ : Shape).Idx → EReal)
    (a7 : (⟨2, ![384, 64]⟩ : Shape).Idx → EReal) (a8 : (⟨1, ![64]⟩ : Shape).Idx → EReal)
    (a9 : (⟨2, ![384, 64]⟩ : Shape).Idx → EReal) (a10 : (⟨1, ![64]⟩ : Shape).Idx → EReal)
    (b : Fin 16) (n : Fin 1024) (u : Fin 64) : EReal :=
  cell (gconvK (wOf a3) (wOf a5) (vOf a4) (vOf a6)) (gconvK (wOf a7) (wOf a9) (vOf a8) (vOf a10))
    (adjOf a2 b) (rowsOf a0 b) (rowsOf a1 b) n u

/-- The cell of core c's argument arrays. -/
def cellOfArgs (c : Dev nD) (b : Fin 16) (n : Fin 1024) (u : Fin 64) : EReal :=
  cellAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b n u

/-- The [16, 1024, 64] array the region leaves: at (b, n, u) the cell's new state at node n and feature u of batch
    element b. -/
def G3 (c : Dev nD) : S16x1024x64.Idx → EReal := fun i => cellOfArgs m c (i 0) (i 1) (i 2)

theorem G3_apply (c : Dev nD) (b : Fin 16) (n : Fin 1024) (u : Fin 64) : G3 m c (ix3 b n u) = cellOfArgs m c b n u := rfl

/-! ## What grid point t stages -/

/-- The block indices, decided over the grid: point t stages batch element t of the adjacency, input, state and
    result arrays, and the one block of each weight and bias array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-- The batch element grid point t works on. -/
def batchOf (t : Fin cfg0.N) : Fin 16 := ⟨t.val, Nat.lt_of_lt_of_eq t.isLt N_0⟩

/-- The staged blocks at point t, at their literal types. -/
abbrev blk0 (c : Dev nD) (t : Fin cfg0.N) : Vec Ideal S1x1024x1024 .f32 := iblk m c 0 t
abbrev blk1 (c : Dev nD) (t : Fin cfg0.N) : Vec Ideal S1x1024x64 .f32 := iblk m c 1 t
abbrev blk2 (c : Dev nD) (t : Fin cfg0.N) : Vec Ideal S1x1024x64 .f32 := iblk m c 2 t
abbrev blk3 (c : Dev nD) (t : Fin cfg0.N) : Vec Ideal S128x128 .bf16 := iblk m c 3 t
abbrev blk4 (c : Dev nD) (t : Fin cfg0.N) : Vec Ideal S128x128 .bf16 := iblk m c 4 t
abbrev blk5 (c : Dev nD) (t : Fin cfg0.N) : Vec Ideal S128x128 .bf16 := iblk m c 5 t
abbrev blk6 (c : Dev nD) (t : Fin cfg0.N) : Vec Ideal S1x128 .f32 := iblk m c 6 t
abbrev blk7 (c : Dev nD) (t : Fin cfg0.N) : Vec Ideal S128x64 .bf16 := iblk m c 7 t
abbrev blk8 (c : Dev nD) (t : Fin cfg0.N) : Vec Ideal S128x64 .bf16 := iblk m c 8 t
abbrev blk9 (c : Dev nD) (t : Fin cfg0.N) : Vec Ideal S128x64 .bf16 := iblk m c 9 t
abbrev blk10 (c : Dev nD) (t : Fin cfg0.N) : Vec Ideal S1x64 .f32 := iblk m c 10 t

/-- The adjacency block at point t is batch element t's adjacency matrix. -/
theorem blk0_apply (c : Dev nD) (t : Fin cfg0.N) (i j : Fin 1024) :
    blk0 m c t (ix3 0 i j) = adjOf (m ((c.tc : Thread nD τ).loc main_arg2)) (batchOf t) i j := by
  obtain ⟨e0, e1, e2, -⟩ := idx_facts t
  show V m c main_arg2 (((cfg0.win 0).blk t).view.emb (ix3 0 i j)) = _
  rw [V_main_arg2]
  show m ((c.tc : Thread nD τ).loc main_arg2) (((cfg0.win 0).blk t).view.emb (ix3 0 i j)) = m ((c.tc : Thread nD τ).loc main_arg2) (ix3 (batchOf t) i j)
  refine congrArg _ ?_
  funext a; apply Fin.ext
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 1024 + 1 * j.val = j.val; omega

/-- The input block at point t is batch element t's input rows. -/
theorem blk1_apply (c : Dev nD) (t : Fin cfg0.N) (n : Fin 1024) (u : Fin 64) :
    blk1 m c t (ix3 0 n u) = rowsOf (m ((c.tc : Thread nD τ).loc main_arg0)) (batchOf t) n u := by
  obtain ⟨-, -, -, e0, e1, e2, -⟩ := idx_facts t
  have he : ((cfg0.win 1).blk t).view.emb (ix3 0 n u) = ix3 (batchOf t) n u := by
    funext a; apply Fin.ext
    match a with
    | ⟨0, _⟩ => show win0_1.index t (0 : Fin 3) * 1 + 1 * 0 = t.val; omega
    | ⟨1, _⟩ => show win0_1.index t (1 : Fin 3) * 1024 + 1 * n.val = n.val; omega
    | ⟨2, _⟩ => show win0_1.index t (2 : Fin 3) * 64 + 1 * u.val = u.val; omega
  show (V m c main_v0 : S16x1024x64.Idx → EReal) (((cfg0.win 1).blk t).view.emb (ix3 0 n u)) = _
  exact (congrArg (V m c main_v0 : S16x1024x64.Idx → EReal) he).trans (HostSide.V_v0_apply m c (batchOf t) n u)

/-- The state block at point t is batch element t's state rows. -/
theorem blk2_apply (c : Dev nD) (t : Fin cfg0.N) (n : Fin 1024) (u : Fin 64) :
    blk2 m c t (ix3 0 n u) = rowsOf (m ((c.tc : Thread nD τ).loc main_arg1)) (batchOf t) n u := by
  obtain ⟨-, -, -, -, -, -, e0, e1, e2, -⟩ := idx_facts t
  have he : ((cfg0.win 2).blk t).view.emb (ix3 0 n u) = ix3 (batchOf t) n u := by
    funext a; apply Fin.ext
    match a with
    | ⟨0, _⟩ => show win0_2.index t (0 : Fin 3) * 1 + 1 * 0 = t.val; omega
    | ⟨1, _⟩ => show win0_2.index t (1 : Fin 3) * 1024 + 1 * n.val = n.val; omega
    | ⟨2, _⟩ => show win0_2.index t (2 : Fin 3) * 64 + 1 * u.val = u.val; omega
  show (V m c main_v1 : S16x1024x64.Idx → EReal) (((cfg0.win 2).blk t).view.emb (ix3 0 n u)) = _
  exact (congrArg (V m c main_v1 : S16x1024x64.Idx → EReal) he).trans (HostSide.V_v1_apply m c (batchOf t) n u)

/-- The gate's first weight block: rows 3f of the two interleaved matrices added. -/
theorem blk3_apply (c : Dev nD) (t : Fin cfg0.N) (f : Fin 128) (o : Fin 128) :
    blk3 m c t (ix2 f o) = wsl (wOf (m ((c.tc : Thread nD τ).loc main_arg3))) 0 f o + wsl (wOf (m ((c.tc : Thread nD τ).loc main_arg5))) 0 f o := by
  obtain ⟨-, -, -, -, -, -, -, -, -, e0, e1, -⟩ := idx_facts t
  have he : ((cfg0.win 3).blk t).view.emb (ix2 f o) = ix2 f o := by
    funext a; apply Fin.ext
    match a with
    | ⟨0, _⟩ => show win0_3.index t (0 : Fin 2) * 128 + 1 * f.val = f.val; omega
    | ⟨1, _⟩ => show win0_3.index t (1 : Fin 2) * 128 + 1 * o.val = o.val; omega
  show (V m c main_v19 : S128x128.Idx → EReal) (((cfg0.win 3).blk t).view.emb (ix2 f o)) = _
  exact (congrArg (V m c main_v19 : S128x128.Idx → EReal) he).trans (HostSide.V_v19_apply m c f o)

/-- The gate's second weight block: rows 3f + 1 and 3f + 2 of the first matrix added. -/
theorem blk4_apply (c : Dev nD) (t : Fin cfg0.N) (f : Fin 128) (o : Fin 128) :
    blk4 m c t (ix2 f o) = wsl (wOf (m ((c.tc : Thread nD τ).loc main_arg3))) 1 f o + wsl (wOf (m ((c.tc : Thread nD τ).loc main_arg3))) 2 f o := by
  obtain ⟨-, -, -, -, -, -, -, -, -, -, -, e0, e1, -⟩ := idx_facts t
  have he : ((cfg0.win 4).blk t).view.emb (ix2 f o) = ix2 f o := by
    funext a; apply Fin.ext
    match a with
    | ⟨0, _⟩ => show win0_4.index t (0 : Fin 2) * 128 + 1 * f.val = f.val; omega
    | ⟨1, _⟩ => show win0_4.index t (1 : Fin 2) * 128 + 1 * o.val = o.val; omega
  show (V m c main_v20 : S128x128.Idx → EReal) (((cfg0.win 4).blk t).view.emb (ix2 f o)) = _
  exact (congrArg (V m c main_v20 : S128x128.Idx → EReal) he).trans (HostSide.V_v20_apply m c f o)

/-- The gate's third weight block: rows 3f + 1 and 3f + 2 of the second matrix added. -/
theorem blk5_apply (c : Dev nD) (t : Fin cfg0.N) (f : Fin 128) (o : Fin 128) :
    blk5 m c t (ix2 f o) = wsl (wOf (m ((c.tc : Thread nD τ).loc main_arg5))) 1 f o + wsl (wOf (m ((c.tc : Thread nD τ).loc main_arg5))) 2 f o := by
  obtain ⟨-, -, -, -, -, -, -, -, -, -, -, -, -, e0, e1, -⟩ := idx_facts t
  have he : ((cfg0.win 5).blk t).view.emb (ix2 f o) = ix2 f o := by
    funext a; apply Fin.ext
    match a with
    | ⟨0, _⟩ => show win0_5.index t (0 : Fin 2) * 128 + 1 * f.val = f.val; omega
    | ⟨1, _⟩ => show win0_5.index t (1 : Fin 2) * 128 + 1 * o.val = o.val; omega
  show (V m c main_v21 : S128x128.Idx → EReal) (((cfg0.win 5).blk t).view.emb (ix2 f o)) = _
  exact (congrArg (V m c main_v21 : S128x128.Idx → EReal) he).trans (HostSide.V_v21_apply m c f o)

/-- The gate's bias row: the two biases added. -/
theorem blk6_apply (c : Dev nD) (t : Fin cfg0.N) (o : Fin 128) :
    blk6 m c t (ix2 0 o) = vOf (m ((c.tc : Thread nD τ).loc main_arg4)) o + vOf (m ((c.tc : Thread nD τ).loc main_arg6)) o := by
  obtain ⟨-, -, -, -, -, -, -, -, -, -, -, -, -, -, -, e0, e1, -⟩ := idx_facts t
  have he : ((cfg0.win 6).blk t).view.emb (ix2 0 o) = ix2 0 o := by
    funext a; apply Fin.ext
    match a with
    | ⟨0, _⟩ => show win0_6.index t (0 : Fin 2) * 1 + 1 * 0 = 0; omega
    | ⟨1, _⟩ => show win0_6.index t (1 : Fin 2) * 128 + 1 * o.val = o.val; omega
  show (V m c main_v23 : S1x128.Idx → EReal) (((cfg0.win 6).blk t).view.emb (ix2 0 o)) = _
  exact (congrArg (V m c main_v23 : S1x128.Idx → EReal) he).trans (HostSide.V_v23_apply m c o)

/-- The candidate's first weight block. -/
theorem blk7_apply (c : Dev nD) (t : Fin cfg0.N) (f : Fin 128) (o : Fin 64) :
    blk7 m c t (ix2 f o) = wsl (wOf (m ((c.tc : Thread nD τ).loc main_arg7))) 0 f o + wsl (wOf (m ((c.tc : Thread nD τ).loc main_arg9))) 0 f o := by
  obtain ⟨-, -, -, -, -, -, -, -, -, -, -, -, -, -, -, -, -, e0, e1, -⟩ := idx_facts t
  have he : ((cfg0.win 7).blk t).view.emb (ix2 f o) = ix2 f o := by
    funext a; apply Fin.ext
    match a with
    | ⟨0, _⟩ => show win0_7.index t (0 : Fin 2) * 128 + 1 * f.val = f.val; omega
    | ⟨1, _⟩ => show win0_7.index t (1 : Fin 2) * 64 + 1 * o.val = o.val; omega
  show (V m c main_v41 : S128x64.Idx → EReal) (((cfg0.win 7).blk t).view.emb (ix2 f o)) = _
  exact (congrArg (V m c main_v41 : S128x64.Idx → EReal) he).trans (HostSide.V_v41_apply m c f o)

/-- The candidate's second weight block. -/
theorem blk8_apply (c : Dev nD) (t : Fin cfg0.N) (f : Fin 128) (o : Fin 64) :
    blk8 m c t (ix2 f o) = wsl (wOf (m ((c.tc : Thread nD τ).loc main_arg7))) 1 f o + wsl (wOf (m ((c.tc : Thread nD τ).loc main_arg7))) 2 f o := by
  obtain ⟨-, -, -, -, -, -, -, -, -, -, -, -, -, -, -, -, -, -, -, e0, e1, -⟩ := idx_facts t
  have he : ((cfg0.win 8).blk t).view.emb (ix2 f o) = ix2 f o := by
    funext a; apply Fin.ext
    match a with
    | ⟨0, _⟩ => show win0_8.index t (0 : Fin 2) * 128 + 1 * f.val = f.val; omega
    | ⟨1, _⟩ => show win0_8.index t (1 : Fin 2) * 64 + 1 * o.val = o.val; omega
  show (V m c main_v42 : S128x64.Idx → EReal) (((cfg0.win 8).blk t).view.emb (ix2 f o)) = _
  exact (congrArg (V m c main_v42 : S128x64.Idx → EReal) he).trans (HostSide.V_v42_apply m c f o)

/-- The candidate's third weight block. -/
theorem blk9_apply (c : Dev nD) (t : Fin cfg0.N) (f : Fin 128) (o : Fin 64) :
    blk9 m c t (ix2 f o) = wsl (wOf (m ((c.tc : Thread nD τ).loc main_arg9))) 1 f o + wsl (wOf (m ((c.tc : Thread nD τ).loc main_arg9))) 2 f o := by
  obtain ⟨-, -, -, -, -, -, -, -, -, -, -, -, -, -, -, -, -, -, -, -, -, e0, e1, -⟩ := idx_facts t
  have he : ((cfg0.win 9).blk t).view.emb (ix2 f o) = ix2 f o := by
    funext a; apply Fin.ext
    match a with
    | ⟨0, _⟩ => show win0_9.index t (0 : Fin 2) * 128 + 1 * f.val = f.val; omega
    | ⟨1, _⟩ => show win0_9.index t (1 : Fin 2) * 64 + 1 * o.val = o.val; omega
  show (V m c main_v43 : S128x64.Idx → EReal) (((cfg0.win 9).blk t).view.emb (ix2 f o)) = _
  exact (congrArg (V m c main_v43 : S128x64.Idx → EReal) he).trans (HostSide.V_v43_apply m c f o)

/-- The candidate's bias row. -/
theorem blk10_apply (c : Dev nD) (t : Fin cfg0.N) (o : Fin 64) :
    blk10 m c t (ix2 0 o) = vOf (m ((c.tc : Thread nD τ).loc main_arg8)) o + vOf (m ((c.tc : Thread nD τ).loc main_arg10)) o := by
  obtain ⟨-, -, -, -, -, -, -, -, -, -, -, -, -, -, -, -, -, -, -, -, -, -, -, e0, e1, -⟩ := idx_facts t
  have he : ((cfg0.win 10).blk t).view.emb (ix2 0 o) = ix2 0 o := by
    funext a; apply Fin.ext
    match a with
    | ⟨0, _⟩ => show win0_10.index t (0 : Fin 2) * 1 + 1 * 0 = 0; omega
    | ⟨1, _⟩ => show win0_10.index t (1 : Fin 2) * 64 + 1 * o.val = o.val; omega
  show (V m c main_v45 : S1x64.Idx → EReal) (((cfg0.win 10).blk t).view.emb (ix2 0 o)) = _
  exact (congrArg (V m c main_v45 : S1x64.Idx → EReal) he).trans (HostSide.V_v45_apply m c o)

/-! ## What grid point t writes back -/

/-- The cell of the blocks staged at point t is the cell of batch element t of the arguments: each block is that
    batch element's matrix or rows, and the weight blocks are the sums the three-product convolution is written with. -/
theorem cell_blocks (c : Dev nD) (t : Fin cfg0.N) (n : Fin 1024) (u : Fin 64) :
    cell (gconvP (mat (blk3 m c t)) (mat (blk4 m c t)) (mat (blk5 m c t)) (rowv (blk6 m c t)))
        (gconvP (mat (blk7 m c t)) (mat (blk8 m c t)) (mat (blk9 m c t)) (rowv (blk10 m c t)))
        (Body.sq (blk0 m c t)) (rows (blk1 m c t)) (rows (blk2 m c t)) n u
      = cellOfArgs m c (batchOf t) n u := by
  have h0 : Body.sq (blk0 m c t) = adjOf (m ((c.tc : Thread nD τ).loc main_arg2)) (batchOf t) :=
    funext fun i => funext fun j => blk0_apply m c t i j
  have h1 : rows (blk1 m c t) = rowsOf (m ((c.tc : Thread nD τ).loc main_arg0)) (batchOf t) :=
    funext fun n => funext fun u => blk1_apply m c t n u
  have h2 : rows (blk2 m c t) = rowsOf (m ((c.tc : Thread nD τ).loc main_arg1)) (batchOf t) :=
    funext fun n => funext fun u => blk2_apply m c t n u
  have h3 : mat (blk3 m c t) = fun f o => wsl (wOf (m ((c.tc : Thread nD τ).loc main_arg3))) 0 f o + wsl (wOf (m ((c.tc : Thread nD τ).loc main_arg5))) 0 f o :=
    funext fun f => funext fun o => blk3_apply m c t f o
  have h4 : mat (blk4 m c t) = fun f o => wsl (wOf (m ((c.tc : Thread nD τ).loc main_arg3))) 1 f o + wsl (wOf (m ((c.tc : Thread nD τ).loc main_arg3))) 2 f o :=
    funext fun f => funext fun o => blk4_apply m c t f o
  have h5 : mat (blk5 m c t) = fun f o => wsl (wOf (m ((c.tc : Thread nD τ).loc main_arg5))) 1 f o + wsl (wOf (m ((c.tc : Thread nD τ).loc main_arg5))) 2 f o :=
    funext fun f => funext fun o => blk5_apply m c t f o
  have h6 : rowv (blk6 m c t) = fun o => vOf (m ((c.tc : Thread nD τ).loc main_arg4)) o + vOf (m ((c.tc : Thread nD τ).loc main_arg6)) o :=
    funext fun o => blk6_apply m c t o
  have h7 : mat (blk7 m c t) = fun f o => wsl (wOf (m ((c.tc : Thread nD τ).loc main_arg7))) 0 f o + wsl (wOf (m ((c.tc : Thread nD τ).loc main_arg9))) 0 f o :=
    funext fun f => funext fun o => blk7_apply m c t f o
  have h8 : mat (blk8 m c t) = fun f o => wsl (wOf (m ((c.tc : Thread nD τ).loc main_arg7))) 1 f o + wsl (wOf (m ((c.tc : Thread nD τ).loc main_arg7))) 2 f o :=
    funext fun f => funext fun o => blk8_apply m c t f o
  have h9 : mat (blk9 m c t) = fun f o => wsl (wOf (m ((c.tc : Thread nD τ).loc main_arg9))) 1 f o + wsl (wOf (m ((c.tc : Thread nD τ).loc main_arg9))) 2 f o :=
    funext fun f => funext fun o => blk9_apply m c t f o
  have h10 : rowv (blk10 m c t) = fun o => vOf (m ((c.tc : Thread nD τ).loc main_arg8)) o + vOf (m ((c.tc : Thread nD τ).loc main_arg10)) o :=
    funext fun o => blk10_apply m c t o
  rw [h0, h1, h2, h3, h4, h5, h6, h7, h8, h9, h10]
  rfl

/-- What point t writes back is batch element t's block of the array. -/
theorem flushed_eq (c : Dev nD) (t : Fin cfg0.N) :
    (dats m 0 c).flushed 11 t = ((cfg0.win 11).blk t).view.read (Elt Ideal) (G3 m c) := by
  show (cfg0.win 11).cut (grid0.coords t) ((dats m 0 c).after 11 t) = _
  rw [after0_11]
  obtain ⟨-, -, -, -, -, -, -, -, -, -, -, -, -, -, -, -, -, -, -, -, -, -, -, -, -, e0, e1, e2⟩ := idx_facts t
  funext y
  have hy0 : (y 0).val < 1 := (y 0).isLt
  have hy1 : (y 1).val < 1024 := (y 1).isLt
  have hy2 : (y 2).val < 64 := (y 2).isLt
  have hin : (cfg0.win 11).xinj (grid0.coords t) y = ix3 (0 : Fin 1) (⟨(y 1).val, hy1⟩ : Fin 1024) (⟨(y 2).val, hy2⟩ : Fin 64) := by
    funext a; apply Fin.ext
    match a with
    | ⟨0, _⟩ => show (y 0).val = 0; omega
    | ⟨1, _⟩ => rfl
    | ⟨2, _⟩ => rfl
  have hout : ((cfg0.win 11).blk t).view.emb y = ix3 (batchOf t) (⟨(y 1).val, hy1⟩ : Fin 1024) (⟨(y 2).val, hy2⟩ : Fin 64) := by
    funext a; apply Fin.ext
    match a with
    | ⟨0, _⟩ => show win0_11.index t (0 : Fin 3) * 1 + 1 * (y 0).val = t.val; omega
    | ⟨1, _⟩ => show win0_11.index t (1 : Fin 3) * 1024 + 1 * (y 1).val = (y 1).val; omega
    | ⟨2, _⟩ => show win0_11.index t (2 : Fin 3) * 64 + 1 * (y 2).val = (y 2).val; omega
  show out0_11 (F := Ideal) (blk0 m c t) (blk1 m c t) (blk2 m c t) (blk3 m c t) (blk4 m c t) (blk5 m c t) (blk6 m c t) (blk7 m c t) (blk8 m c t) (blk9 m c t) (blk10 m c t) ((cfg0.win 11).xinj (grid0.coords t) y)
      = G3 m c (((cfg0.win 11).blk t).view.emb y)
  rw [hin, hout]
  refine (out_apply (blk0 m c t) (blk1 m c t) (blk2 m c t) (blk3 m c t) (blk4 m c t) (blk5 m c t) (blk6 m c t) (blk7 m c t) (blk8 m c t) (blk9 m c t) (blk10 m c t) (⟨(y 1).val, hy1⟩ : Fin 1024) (⟨(y 2).val, hy2⟩ : Fin 64)).trans ?_
  exact (cell_blocks m c t _ _).trans (G3_apply m c _ _ _).symm

/-! ## The blocks tile the array -/

/-- An index of the array is in point t's block iff each coordinate is in the block's range on its axis. -/
theorem mem_blk (t : Fin cfg0.N) (i : S16x1024x64.Idx) :
    i ∈ ((cfg0.win 11).blk t).view.set ↔ ∀ a : Fin 3, win0_11.index t a * S1x1024x64.size a ≤ (i a).val ∧ (i a).val < win0_11.index t a * S1x1024x64.size a + S1x1024x64.size a := by
  show i ∈ ((View.whole main_v46).slice (win0_11.rect t)).set ↔ _
  rw [View.set_slice_whole, Rect.mem_set_unit]
  exact Iff.rfl

/-- Every index of the array is in the block of the point numbered by its batch coordinate, and every point writes
    its block back. -/
theorem cover (i : S16x1024x64.Idx) :
    ∃ t : Fin cfg0.N, (cfg0.win 11).flush t = true ∧ i ∈ ((cfg0.win 11).blk t).view.set := by
  have hi0 : (i 0).val < 16 := (i 0).isLt
  have hi1 : (i 1).val < 1024 := (i 1).isLt
  have hi2 : (i 2).val < 64 := (i 2).isLt
  have ht : ∃ t : Fin cfg0.N, t.val = (i 0).val := ⟨⟨(i 0).val, Nat.lt_of_lt_of_eq hi0 N_0.symm⟩, rfl⟩
  obtain ⟨t, ht⟩ := ht
  obtain ⟨-, -, -, -, -, -, -, -, -, -, -, -, -, -, -, -, -, -, -, -, -, -, -, -, -, e0, e1, e2⟩ := idx_facts t
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 1024 ≤ (i 1).val ∧ (i 1).val < win0_11.index t (1 : Fin 3) * 1024 + 1024; omega
  | ⟨2, _⟩ => show win0_11.index t (2 : Fin 3) * 64 ≤ (i 2).val ∧ (i 2).val < win0_11.index t (2 : Fin 3) * 64 + 64; omega

/-- The result array of the region after the run is that array. -/
theorem final (c : Dev nD) : (dats m 0 c).arrAt 11 cfg0.N = G3 m c :=
  (dats m 0 c).arrAt_eq_of_cover 11 (G3 m c) (fun t _ => flushed_eq m c t) cover

/-! ## The host line after the region -/

/-- The flat view of the region's result is the specification's function of the arguments: position p of batch b is
    node p / 64, feature p % 64. -/
theorem tail_eq (c : Dev nD) :
    Pipeline.afterTail₀ cfgs (dats m) 0 (V0 m) [hostOps1] c main_v47
      = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v47) = _
  after_results
  have e : Pipeline.withArrays (cfgs 0).spec c (V0 m c) (fun w => (dats m 0 c).arrAt w (cfgs 0).N) (Proc.devRef .tc main_v46) = G3 m c :=
    (Pipeline.withArrays_arr spec0 launch0.win.arr_inj c _ _ 11).trans (final m c)
  funext i
  show shapeCast S16x65536 (Pipeline.withArrays (cfgs 0).spec c (V0 m c) (fun w => (dats m 0 c).arrAt w (cfgs 0).N) (Proc.devRef .tc main_v46)) shapeCasts_S16x1024x64_S16x65536 i = _
  rw [e]
  refine (shapeCast_apply (G3 m c) shapeCasts_S16x1024x64_S16x65536 i (ix3 (bOf i) (nOf i) (uOf i)) ?_).trans ?_
  · rw [Shape.rowMajor_val_three, Shape.rowMajor_val_two]
    show ((i 0).val * 1024 + (i 1).val / 64) * 64 + (i 1).val % 64 = (i 0).val * 65536 + (i 1).val
    omega
  · rfl

/-- The run of the idealized kernel program with its result as the specification's function of the arguments. -/
theorem kernel_run :
    θ_run (defs (F := Ideal)) (onTc (τ := τ) (main (F := Ideal))) ⟨m, fun _ => 0, ρ⟩ (fun r => ∀ c : Dev nD,
      r.2.mem ((c.tc : Thread nD τ).loc main_v47)
          = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_v47 (Pipeline.mem_restRefs_of main_v47 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.RunValue

end
-- ==== Proof.RStageA.lean ====
/-
  The reference's first stages read at an index: the adjacency with self loops, the two random-walk matrices (of the
  adjacency and of its transpose), and the node features (inputs beside state), each for batch element b.

  The identity matrix is spelt "the row index plus 0 equals the column index" on 32-bit words, read as a number; the
  guarded reciprocal of a column sum d is spelt "d = 0 ? 0 : 1 / d". Both random-walk chains are the same operations
  over the adjacency and over its transpose; they share the two facts above.
-/
import proofs.«179813_j9328668967409_1_alg».proof.Proof.RefRead
import proofs.«179813_j9328668967409_1_alg».proof.Proof.Spec
import Idealize.ShloMosaic.Lib.ValueLayout
import Idealize.ShloMosaic.Lib.StableHlo.Predicate

noncomputable section

open scoped BigOperators

namespace Cert.ReferenceIdeal.Stage
open Idealize.ShloMosaic Idealize.ShloMosaic.ValueIdx Cert.ReferenceIdeal Cert.ReferenceIdeal.ReadCopy Cert.DiffGru

/-! ## The identity matrix as the reference spells it -/

/-- The word "row index + 0 equals column index", read as a number, is the identity matrix's entry: below 2³² the
    32-bit words of two naturals agree exactly when the naturals do. -/
theorem eyeWord (i j : Fin 1024) :
    (FloatOps.uitofp (F := Ideal) .f32
      (IntOp.cmpi .eq (IntOp.addi (BitVec.ofNat 32 i.val) 0#32) (BitVec.ofNat 32 j.val)) : EReal) = eye i j := by
  unfold eye
  by_cases h : i = j
  · subst h
    rw [if_pos rfl]
    have hc : IntOp.cmpi .eq (IntOp.addi (BitVec.ofNat 32 i.val) 0#32) (BitVec.ofNat 32 i.val) = 1#1 :=
      StableHlo.Predicate.cmpi_eq_iff.mpr (by simp [IntOp.addi])
    rw [hc]
    show (((1#1 : BitVec 1).toNat : ℝ) : EReal) = 1
    simp
  · rw [if_neg h]
    have hc : IntOp.cmpi .eq (IntOp.addi (BitVec.ofNat 32 i.val) 0#32) (BitVec.ofNat 32 j.val) = 0#1 := by
      refine eq_zero_of_ne_one fun hc => h (Fin.ext ?_)
      have e := congrArg BitVec.toNat (StableHlo.Predicate.cmpi_eq_iff.mp hc)
      simp only [IntOp.addi, BitVec.add_zero, BitVec.toNat_ofNat] at e
      have hi := i.isLt
      have hj := j.isLt
      omega
    rw [hc]
    show (((0#1 : BitVec 1).toNat : ℝ) : EReal) = 0
    simp

/-- %7: the identity, the same for every batch element. -/
theorem v7_apply (b : Fin 16) (i j : Fin 1024) : val_main_v7 (F := Ideal) (ix3 b i j) = eye i j := by
  rw [val_main_v7_apply, val_main_v6_apply, val_main_v5_apply, val_main_v4_apply, val_main_v3_apply,
    val_main_v2_apply, val_main_c_apply, val_main_v0_apply, val_main_v1_apply]
  exact eyeWord i j

/-- %27: the identity again. -/
theorem v27_apply (b : Fin 16) (i j : Fin 1024) : val_main_v27 (F := Ideal) (ix3 b i j) = eye i j := by
  rw [val_main_v27_apply, val_main_v26_apply, val_main_v25_apply, val_main_v24_apply, val_main_v23_apply,
    val_main_v22_apply, val_main_c_3_apply, val_main_v20_apply, val_main_v21_apply]
  exact eyeWord i j

/-! ## The shared core: the guarded reciprocal of a column sum times an entry -/

/-- The reference's select-of-compare-and-divide on a number d is the guarded reciprocal of d, and its product with an
    entry of a + I is the random-walk matrix's entry, once d is the column sum. -/
theorem rwalk_core (a : Fin 1024 → Fin 1024 → EReal) (i j : Fin 1024) (d s : EReal)
    (hd : d = ∑ k : Fin 1024, selfLoop a k i) (hs : s = selfLoop a i j) :
    FloatOps.mulf (F := Ideal) (φ := .f32)
      (Scalar.select (FloatOps.cmpf (F := Ideal) (φ := .f32) .oeq d (FloatOps.ofBits (F := Ideal) .f32 0x00000000#32))
        (FloatOps.ofBits (F := Ideal) .f32 0x00000000#32)
        (FloatOps.hostDivf (F := Ideal) (φ := .f32) (FloatOps.ofBits (F := Ideal) .f32 0x3F800000#32) d)) s
      = rwalk a i j := by
  subst hd hs
  rfl

/-! ## The adjacency's chain, %8 to %18 -/

theorem v8_apply (x2 : FVec Ideal S16x1024x1024 .f32) (b : Fin 16) (i j : Fin 1024) :
    val_main_v8 (F := Ideal) x2 (ix3 b i j) = selfLoop (adjOf x2 b) i j := by
  rw [val_main_v8_apply, v7_apply]
  rfl

/-- %9: the column sums of a + I. -/
theorem v9_apply (x2 : FVec Ideal S16x1024x1024 .f32) (b : Fin 16) (i : Fin 1024) :
    val_main_v9 (F := Ideal) x2 (ix2 b i) = ∑ k : Fin 1024, selfLoop (adjOf x2 b) k i := by
  rw [val_main_v9_apply, val_main_cst_apply, Ideal.ofBits_def, Ideal.ofBits_zero_f32, zero_add]
  refine Finset.sum_congr rfl fun k _ => ?_
  have hk : idx_main_v9 (ix2 b i) k = ix3 b k i :=
    funext fun a => Fin.ext (by match a with | ⟨0, _⟩ => rfl | ⟨1, _⟩ => rfl | ⟨2, _⟩ => rfl)
  rw [hk]
  exact v8_apply x2 b k i

theorem v18_apply (x2 : FVec Ideal S16x1024x1024 .f32) (b : Fin 16) (i j : Fin 1024) :
    val_main_v18 (F := Ideal) x2 (ix3 b i j) = rwalk (adjOf x2 b) i j := by
  have hi : idx_main_v16 (idx_main_v17 (ix3 b i j)) = ix2 b i :=
    funext fun a => Fin.ext (by match a with | ⟨0, _⟩ => rfl | ⟨1, _⟩ => rfl)
  rw [val_main_v18_apply, val_main_v17_apply, val_main_v16_apply, hi, val_main_v15_apply, val_main_v11_apply,
    val_main_v14_apply, val_main_v12_apply, val_main_v10_apply, val_main_v13_apply, val_main_cst_0_apply,
    val_main_cst_1_apply, val_main_cst_2_apply]
  exact rwalk_core (adjOf x2 b) i j _ _ (v9_apply x2 b i) (v8_apply x2 b i j)

/-! ## The transposed adjacency's chain, %19 to %38 -/

/-- %28: the transposed adjacency with self loops. -/
theorem v28_apply (x2 : FVec Ideal S16x1024x1024 .f32) (b : Fin 16) (i j : Fin 1024) :
    val_main_v28 (F := Ideal) x2 (ix3 b i j) = selfLoop (tr (adjOf x2 b)) i j := by
  have ht : idx_main_v19 (ix3 b i j) = ix3 b j i :=
    funext fun a => Fin.ext (by match a with | ⟨0, _⟩ => rfl | ⟨1, _⟩ => rfl | ⟨2, _⟩ => rfl)
  rw [val_main_v28_apply, v27_apply, val_main_v19_apply, ht]
  rfl

/-- %29: its column sums. -/
theorem v29_apply (x2 : FVec Ideal S16x1024x1024 .f32) (b : Fin 16) (i : Fin 1024) :
    val_main_v29 (F := Ideal) x2 (ix2 b i) = ∑ k : Fin 1024, selfLoop (tr (adjOf x2 b)) k i := by
  rw [val_main_v29_apply, val_main_cst_4_apply, Ideal.ofBits_def, Ideal.ofBits_zero_f32, zero_add]
  refine Finset.sum_congr rfl fun k _ => ?_
  have hk : idx_main_v29 (ix2 b i) k = ix3 b k i :=
    funext fun a => Fin.ext (by match a with | ⟨0, _⟩ => rfl | ⟨1, _⟩ => rfl | ⟨2, _⟩ => rfl)
  rw [hk]
  exact v28_apply x2 b k i

theorem v38_apply (x2 : FVec Ideal S16x1024x1024 .f32) (b : Fin 16) (i j : Fin 1024) :
    val_main_v38 (F := Ideal) x2 (ix3 b i j) = rwalk (tr (adjOf x2 b)) i j := by
  have hi : idx_main_v36 (idx_main_v37 (ix3 b i j)) = ix2 b i :=
    funext fun a => Fin.ext (by match a with | ⟨0, _⟩ => rfl | ⟨1, _⟩ => rfl)
  rw [val_main_v38_apply, val_main_v37_apply, val_main_v36_apply, hi, val_main_v35_apply, val_main_v31_apply,
    val_main_v34_apply, val_main_v32_apply, val_main_v30_apply, val_main_v33_apply, val_main_cst_5_apply,
    val_main_cst_6_apply, val_main_cst_7_apply]
  exact rwalk_core (tr (adjOf x2 b)) i j _ _ (v29_apply x2 b i) (v28_apply x2 b i j)

/-! ## The node features, %39 to %41 -/

/-- %39 / %40: a flat row of 65536 numbers read as 1024 nodes of 64 features. -/
theorem v39_apply (x0 : FVec Ideal S16x65536 .f32) (b : Fin 16) (n : Fin 1024) (u : Fin 64) :
    val_main_v39 (F := Ideal) x0 (ix3 b n u) = rowsOf x0 b n u := by
  rw [val_main_v39_apply]
  refine congrArg x0 (funext fun a => Fin.ext ?_)
  have hb := b.isLt
  have hn := n.isLt
  have hu := u.isLt
  match a with
  | ⟨0, _⟩ => show ((b.val * 1024 + n.val) * 64 + u.val) / 65536 = b.val; omega
  | ⟨1, _⟩ => show ((b.val * 1024 + n.val) * 64 + u.val) % 65536 = n.val * 64 + u.val; omega

theorem v40_apply (x1 : FVec Ideal S16x65536 .f32) (b : Fin 16) (n : Fin 1024) (u : Fin 64) :
    val_main_v40 (F := Ideal) x1 (ix3 b n u) = rowsOf x1 b n u := by
  rw [val_main_v40_apply]
  refine congrArg x1 (funext fun a => Fin.ext ?_)
  have hb := b.isLt
  have hn := n.isLt
  have hu := u.isLt
  match a with
  | ⟨0, _⟩ => show ((b.val * 1024 + n.val) * 64 + u.val) / 65536 = b.val; omega
  | ⟨1, _⟩ => show ((b.val * 1024 + n.val) * 64 + u.val) % 65536 = n.val * 64 + u.val; omega

theorem v41_apply (x0 x1 : FVec Ideal S16x65536 .f32) (b : Fin 16) (n : Fin 1024) (f : Fin 128) :
    val_main_v41 (F := Ideal) x0 x1 (ix3 b n f) = cat (rowsOf x0 b) (rowsOf x1 b) n f := by
  unfold val_main_v41 cat
  by_cases h : f.val < 64
  · rw [dif_pos h]
    refine (concatenate_pair_apply_left (t := S16x1024x128) (s₁ := S16x1024x64) (s₂ := S16x1024x64) _ _ _ _ (ix3 b n f) rfl
      (ix3 b n (⟨f.val, h⟩ : Fin 64)) ?_).trans
      (v39_apply x0 b n ⟨f.val, h⟩)
    intro c
    match c with
    | ⟨0, _⟩ => rfl
    | ⟨1, _⟩ => rfl
    | ⟨2, _⟩ => rfl
  · rw [dif_neg h]
    have hf := f.isLt
    refine (concatenate_pair_apply_right (t := S16x1024x128) (s₁ := S16x1024x64) (s₂ := S16x1024x64) _ _ _ _ (ix3 b n f) rfl rfl
      (ix3 b n (⟨f.val - 64, by omega⟩ : Fin 64)) ?_ ?_).trans (v40_apply x1 b n ⟨f.val - 64, by omega⟩)
    · intro c hc
      match c with
      | ⟨0, _⟩ => rfl
      | ⟨1, _⟩ => rfl
      | ⟨2, _⟩ => exact absurd rfl hc
    · show f.val - 64 + 64 = f.val
      omega

end Cert.ReferenceIdeal.Stage

end
-- ==== Proof.RStageB.lean ====
/-
  The reference's middle stages read at an index: the diffused features as matrix products, the stacked triples laid
  out as 384 interleaved columns, the gate as the logistic function of the two-product convolution, its upper half and
  the reset-scaled state as flat [16, 65536] arrays.
-/
import proofs.«179813_j9328668967409_1_alg».proof.Proof.RStageA

noncomputable section

open scoped BigOperators

namespace Cert.ReferenceIdeal.Stage
open Idealize.ShloMosaic Idealize.ShloMosaic.ValueIdx Cert.ReferenceIdeal Cert.ReferenceIdeal.ReadCopy Cert.DiffGru

/-- Row b·1024 + n of the [16384, …] arrays: node n of batch element b. -/
def bn (b : Fin 16) (n : Fin 1024) : Fin 16384 := ⟨b.val * 1024 + n.val, by omega⟩
/-- Position 64·n + u of a batch element's 65536 numbers: feature u of node n. -/
def nu (n : Fin 1024) (u : Fin 64) : Fin 65536 := ⟨n.val * 64 + u.val, by omega⟩

/-! ## The diffused features: two matrix products -/

theorem v42_apply (x0 x1 : FVec Ideal S16x65536 .f32) (x2 : FVec Ideal S16x1024x1024 .f32) (b : Fin 16) (n : Fin 1024) (f : Fin 128) :
    val_main_v42 (F := Ideal) x0 x1 x2 (ix3 b n f) = mm (rwalk (adjOf x2 b)) (cat (rowsOf x0 b) (rowsOf x1 b)) n f := by
  refine (val_main_v42_apply x0 x1 x2 (ix3 b n f)).trans ?_
  unfold mm
  refine Finset.sum_congr rfl fun k _ => ?_
  have hl : lidx_main_v42 (ix3 b n f) k = ix3 b n k := funext fun a => by match a with | ⟨0, _⟩ => rfl | ⟨1, _⟩ => rfl | ⟨2, _⟩ => rfl
  have hr : ridx_main_v42 (ix3 b n f) k = ix3 b k f := funext fun a => by match a with | ⟨0, _⟩ => rfl | ⟨1, _⟩ => rfl | ⟨2, _⟩ => rfl
  rw [hl, hr, v18_apply, v41_apply]

theorem v49_apply (x0 x1 : FVec Ideal S16x65536 .f32) (x2 : FVec Ideal S16x1024x1024 .f32) (b : Fin 16) (n : Fin 1024) (f : Fin 128) :
    val_main_v49 (F := Ideal) x0 x1 x2 (ix3 b n f) = mm (rwalk (tr (adjOf x2 b))) (cat (rowsOf x0 b) (rowsOf x1 b)) n f := by
  refine (val_main_v49_apply x0 x1 x2 (ix3 b n f)).trans ?_
  unfold mm
  refine Finset.sum_congr rfl fun k _ => ?_
  have hl : lidx_main_v49 (ix3 b n f) k = ix3 b n k := funext fun a => by match a with | ⟨0, _⟩ => rfl | ⟨1, _⟩ => rfl | ⟨2, _⟩ => rfl
  have hr : ridx_main_v49 (ix3 b n f) k = ix3 b k f := funext fun a => by match a with | ⟨0, _⟩ => rfl | ⟨1, _⟩ => rfl | ⟨2, _⟩ => rfl
  rw [hl, hr, v38_apply, v41_apply]

/-! ## The stacked triples: three unit pieces along a trailing axis, then 384 interleaved columns -/

/-- Feature k / 3 and stack position k % 3 of interleaved column k. -/
private def colF (k : Fin 384) : Fin 128 := ⟨k.val / 3, by omega⟩
private def colS (k : Fin 384) : Fin 3 := ⟨k.val % 3, by omega⟩

/-- Three arrays with a trailing unit axis joined along it: position s of the last axis picks piece s. -/
private theorem cat3_unit {α : Type} (u0 u1 u2 : S16x1024x128x1.Idx → α)
    (h : Shape.Concatenates [S16x1024x128x1, S16x1024x128x1, S16x1024x128x1] S16x1024x128x3 3)
    (b : Fin 16) (n : Fin 1024) (f : Fin 128) (s : Fin 3) :
    concatenate S16x1024x128x3 3 [⟨S16x1024x128x1, u0⟩, ⟨S16x1024x128x1, u1⟩, ⟨S16x1024x128x1, u2⟩] h (ix4 b n f s)
      = if s.val = 0 then u0 (ix4 b n f 0) else if s.val = 1 then u1 (ix4 b n f 0) else u2 (ix4 b n f 0) := by
  have hs : s.val = 0 ∨ s.val = 1 ∨ s.val = 2 := by omega
  rcases hs with h0 | h1 | h2
  · rw [if_pos h0]
    refine concatenate_apply_piece (t := S16x1024x128x3) (a := 3)
      (xs := [⟨S16x1024x128x1, u0⟩, ⟨S16x1024x128x1, u1⟩, ⟨S16x1024x128x1, u2⟩]) h (ix4 b n f s) 0
      (by show 0 < 3; omega) S16x1024x128x1 u0 rfl rfl 0 ?_ (ix4 b n f 0) ?_ ?_
    · rfl
    · intro c hc
      match c with
      | ⟨0, _⟩ => rfl
      | ⟨1, _⟩ => rfl
      | ⟨2, _⟩ => rfl
      | ⟨3, _⟩ => exact absurd rfl hc
    · show 0 + 0 = s.val; omega
  · rw [if_neg (by omega), if_pos h1]
    refine concatenate_apply_piece (t := S16x1024x128x3) (a := 3)
      (xs := [⟨S16x1024x128x1, u0⟩, ⟨S16x1024x128x1, u1⟩, ⟨S16x1024x128x1, u2⟩]) h (ix4 b n f s) 1
      (by show 1 < 3; omega) S16x1024x128x1 u1 rfl rfl 1 ?_ (ix4 b n f 0) ?_ ?_
    · rfl
    · intro c hc
      match c with
      | ⟨0, _⟩ => rfl
      | ⟨1, _⟩ => rfl
      | ⟨2, _⟩ => rfl
      | ⟨3, _⟩ => exact absurd rfl hc
    · show 1 + 0 = s.val; omega
  · rw [if_neg (by omega), if_neg (by omega)]
    refine concatenate_apply_piece (t := S16x1024x128x3) (a := 3)
      (xs := [⟨S16x1024x128x1, u0⟩, ⟨S16x1024x128x1, u1⟩, ⟨S16x1024x128x1, u2⟩]) h (ix4 b n f s) 2
      (by show 2 < 3; omega) S16x1024x128x1 u2 rfl rfl 2 ?_ (ix4 b n f 0) ?_ ?_
    · rfl
    · intro c hc
      match c with
      | ⟨0, _⟩ => rfl
      | ⟨1, _⟩ => rfl
      | ⟨2, _⟩ => rfl
      | ⟨3, _⟩ => exact absurd rfl hc
    · show 2 + 0 = s.val; omega

/-- The joined triple (x, ax, ax) at feature k / 3 and stack position k % 3 is column k of the stacked features. -/
private theorem cat3_stack (u0 u1 u2 : S16x1024x128x1.Idx → EReal)
    (h : Shape.Concatenates [S16x1024x128x1, S16x1024x128x1, S16x1024x128x1] S16x1024x128x3 3)
    (x ax : Fin 1024 → Fin 128 → EReal) (b : Fin 16)
    (h0 : ∀ n f, u0 (ix4 b n f (0 : Fin 1)) = x n f) (h1 : ∀ n f, u1 (ix4 b n f (0 : Fin 1)) = ax n f)
    (h2 : ∀ n f, u2 (ix4 b n f (0 : Fin 1)) = ax n f) (n : Fin 1024) (k : Fin 384) :
    concatenate S16x1024x128x3 3 [⟨S16x1024x128x1, u0⟩, ⟨S16x1024x128x1, u1⟩, ⟨S16x1024x128x1, u2⟩] h
      (ix4 b n (colF k) (colS k)) = stack3 x ax n k := by
  rw [cat3_unit, h0, h1, h2]
  unfold stack3
  by_cases hk : k.val % 3 = 0
  · rw [if_pos (show (colS k).val = 0 from hk), if_pos hk]; rfl
  · rw [if_neg (show ¬(colS k).val = 0 from hk), if_neg hk, ite_self]; rfl

/-- Row b·1024 + n, column k of the [16384, 384] view is batch b, node n, feature k / 3, stack position k % 3. -/
private theorem idx_stack (b : Fin 16) (n : Fin 1024) (k : Fin 384) :
    idx_main_v48 (ix2 (bn b n) k) = ix4 b n (colF k) (colS k) := funext fun a => Fin.ext (by
  have hb := b.isLt; have hn := n.isLt; have hk := k.isLt
  match a with
  | ⟨0, _⟩ => show ((b.val * 1024 + n.val) * 384 + k.val) / 393216 = b.val; omega
  | ⟨1, _⟩ => show ((b.val * 1024 + n.val) * 384 + k.val) / 384 % 1024 = n.val; omega
  | ⟨2, _⟩ => show ((b.val * 1024 + n.val) * 384 + k.val) / 3 % 128 = k.val / 3; omega
  | ⟨3, _⟩ => show ((b.val * 1024 + n.val) * 384 + k.val) % 3 = k.val % 3; omega)

/-- The trailing unit axis added to %41. -/
private theorem v44_at (x0 x1 : FVec Ideal S16x65536 .f32) (b : Fin 16) (n : Fin 1024) (f : Fin 128) :
    val_main_v44 (F := Ideal) x0 x1 (ix4 b n f (0 : Fin 1)) = cat (rowsOf x0 b) (rowsOf x1 b) n f := by
  refine (val_main_v44_apply (F := Ideal) x0 x1 _).trans ?_
  have h : idx_main_v44 (ix4 b n f (0 : Fin 1)) = ix3 b n f := funext fun a => by match a with | ⟨0, _⟩ => rfl | ⟨1, _⟩ => rfl | ⟨2, _⟩ => rfl
  rw [h, v41_apply]

/-- The trailing unit axis added to %42. -/
private theorem v45_at (x0 x1 : FVec Ideal S16x65536 .f32) (x2 : FVec Ideal S16x1024x1024 .f32) (b : Fin 16) (n : Fin 1024) (f : Fin 128) :
    val_main_v45 (F := Ideal) x0 x1 x2 (ix4 b n f (0 : Fin 1)) = mm (rwalk (adjOf x2 b)) (cat (rowsOf x0 b) (rowsOf x1 b)) n f := by
  refine (val_main_v45_apply (F := Ideal) x0 x1 x2 _).trans ?_
  have h : idx_main_v45 (ix4 b n f (0 : Fin 1)) = ix3 b n f := funext fun a => by match a with | ⟨0, _⟩ => rfl | ⟨1, _⟩ => rfl | ⟨2, _⟩ => rfl
  rw [h, v42_apply]

/-- The trailing unit axis added to %42. -/
private theorem v46_at (x0 x1 : FVec Ideal S16x65536 .f32) (x2 : FVec Ideal S16x1024x1024 .f32) (b : Fin 16) (n : Fin 1024) (f : Fin 128) :
    val_main_v46 (F := Ideal) x0 x1 x2 (ix4 b n f (0 : Fin 1)) = mm (rwalk (adjOf x2 b)) (cat (rowsOf x0 b) (rowsOf x1 b)) n f := by
  refine (val_main_v46_apply (F := Ideal) x0 x1 x2 _).trans ?_
  have h : idx_main_v46 (ix4 b n f (0 : Fin 1)) = ix3 b n f := funext fun a => by match a with | ⟨0, _⟩ => rfl | ⟨1, _⟩ => rfl | ⟨2, _⟩ => rfl
  rw [h, v42_apply]

/-- The trailing unit axis added to %41. -/
private theorem v51_at (x0 x1 : FVec Ideal S16x65536 .f32) (b : Fin 16) (n : Fin 1024) (f : Fin 128) :
    val_main_v51 (F := Ideal) x0 x1 (ix4 b n f (0 : Fin 1)) = cat (rowsOf x0 b) (rowsOf x1 b) n f := by
  refine (val_main_v51_apply (F := Ideal) x0 x1 _).trans ?_
  have h : idx_main_v51 (ix4 b n f (0 : Fin 1)) = ix3 b n f := funext fun a => by match a with | ⟨0, _⟩ => rfl | ⟨1, _⟩ => rfl | ⟨2, _⟩ => rfl
  rw [h, v41_apply]

/-- The trailing unit axis added to %49. -/
private theorem v52_at (x0 x1 : FVec Ideal S16x65536 .f32) (x2 : FVec Ideal S16x1024x1024 .f32) (b : Fin 16) (n : Fin 1024) (f : Fin 128) :
    val_main_v52 (F := Ideal) x0 x1 x2 (ix4 b n f (0 : Fin 1)) = mm (rwalk (tr (adjOf x2 b))) (cat (rowsOf x0 b) (rowsOf x1 b)) n f := by
  refine (val_main_v52_apply (F := Ideal) x0 x1 x2 _).trans ?_
  have h : idx_main_v52 (ix4 b n f (0 : Fin 1)) = ix3 b n f := funext fun a => by match a with | ⟨0, _⟩ => rfl | ⟨1, _⟩ => rfl | ⟨2, _⟩ => rfl
  rw [h, v49_apply]

/-- The trailing unit axis added to %49. -/
private theorem v53_at (x0 x1 : FVec Ideal S16x65536 .f32) (x2 : FVec Ideal S16x1024x1024 .f32) (b : Fin 16) (n : Fin 1024) (f : Fin 128) :
    val_main_v53 (F := Ideal) x0 x1 x2 (ix4 b n f (0 : Fin 1)) = mm (rwalk (tr (adjOf x2 b))) (cat (rowsOf x0 b) (rowsOf x1 b)) n f := by
  refine (val_main_v53_apply (F := Ideal) x0 x1 x2 _).trans ?_
  have h : idx_main_v53 (ix4 b n f (0 : Fin 1)) = ix3 b n f := funext fun a => by match a with | ⟨0, _⟩ => rfl | ⟨1, _⟩ => rfl | ⟨2, _⟩ => rfl
  rw [h, v49_apply]

theorem v48_apply (x0 x1 : FVec Ideal S16x65536 .f32) (x2 : FVec Ideal S16x1024x1024 .f32) (b : Fin 16) (n : Fin 1024) (k : Fin 384) :
    val_main_v48 (F := Ideal) x0 x1 x2 (ix2 (bn b n) k)
      = stack3 (cat (rowsOf x0 b) (rowsOf x1 b)) (mm (rwalk (adjOf x2 b)) (cat (rowsOf x0 b) (rowsOf x1 b))) n k := by
  refine (val_main_v48_apply (F := Ideal) x0 x1 x2 (ix2 (bn b n) k)).trans ?_
  have h : idx_main_v48 (ix2 (bn b n) k) = ix4 b n (colF k) (colS k) := idx_stack b n k
  rw [h]
  unfold val_main_v47
  exact cat3_stack _ _ _ _ _ _ b (fun n f => v44_at x0 x1 b n f) (fun n f => v45_at x0 x1 x2 b n f)
    (fun n f => v46_at x0 x1 x2 b n f) n k

theorem v55_apply (x0 x1 : FVec Ideal S16x65536 .f32) (x2 : FVec Ideal S16x1024x1024 .f32) (b : Fin 16) (n : Fin 1024) (k : Fin 384) :
    val_main_v55 (F := Ideal) x0 x1 x2 (ix2 (bn b n) k)
      = stack3 (cat (rowsOf x0 b) (rowsOf x1 b)) (mm (rwalk (tr (adjOf x2 b))) (cat (rowsOf x0 b) (rowsOf x1 b))) n k := by
  refine (val_main_v55_apply (F := Ideal) x0 x1 x2 (ix2 (bn b n) k)).trans ?_
  have h : idx_main_v55 (ix2 (bn b n) k) = ix4 b n (colF k) (colS k) := idx_stack b n k
  rw [h]
  unfold val_main_v54
  exact cat3_stack _ _ _ _ _ _ b (fun n f => v51_at x0 x1 b n f) (fun n f => v52_at x0 x1 x2 b n f)
    (fun n f => v53_at x0 x1 x2 b n f) n k

/-! ## The two products with the weight matrices, the biases, the logistic function -/

/-- The stacked features times the first weight matrix. -/
private theorem v56_at (x0 x1 : FVec Ideal S16x65536 .f32) (x2 : FVec Ideal S16x1024x1024 .f32) (x3 : FVec Ideal S384x128 .f32) (b : Fin 16) (n : Fin 1024) (o : Fin 128) :
    val_main_v56 (F := Ideal) x0 x1 x2 x3 (ix2 (bn b n) o) = mm (stack3 (cat (rowsOf x0 b) (rowsOf x1 b)) (mm (rwalk (adjOf x2 b)) (cat (rowsOf x0 b) (rowsOf x1 b)))) (wOf x3) n o := by
  refine (val_main_v56_apply x0 x1 x2 x3 (ix2 (bn b n) o)).trans ?_
  unfold mm
  refine Finset.sum_congr rfl fun k _ => ?_
  have hl : lidx_main_v56 (ix2 (bn b n) o) k = ix2 (bn b n) k := funext fun a => by match a with | ⟨0, _⟩ => rfl | ⟨1, _⟩ => rfl
  have hr : ridx_main_v56 (ix2 (bn b n) o) k = ix2 k o := funext fun a => by match a with | ⟨0, _⟩ => rfl | ⟨1, _⟩ => rfl
  rw [hl, hr, v48_apply]
  rfl

/-- The stacked features of the transposed walk times the second weight matrix. -/
private theorem v60_at (x0 x1 : FVec Ideal S16x65536 .f32) (x2 : FVec Ideal S16x1024x1024 .f32) (x5 : FVec Ideal S384x128 .f32) (b : Fin 16) (n : Fin 1024) (o : Fin 128) :
    val_main_v60 (F := Ideal) x0 x1 x2 x5 (ix2 (bn b n) o) = mm (stack3 (cat (rowsOf x0 b) (rowsOf x1 b)) (mm (rwalk (tr (adjOf x2 b))) (cat (rowsOf x0 b) (rowsOf x1 b)))) (wOf x5) n o := by
  refine (val_main_v60_apply x0 x1 x2 x5 (ix2 (bn b n) o)).trans ?_
  unfold mm
  refine Finset.sum_congr rfl fun k _ => ?_
  have hl : lidx_main_v60 (ix2 (bn b n) o) k = ix2 (bn b n) k := funext fun a => by match a with | ⟨0, _⟩ => rfl | ⟨1, _⟩ => rfl
  have hr : ridx_main_v60 (ix2 (bn b n) o) k = ix2 k o := funext fun a => by match a with | ⟨0, _⟩ => rfl | ⟨1, _⟩ => rfl
  rw [hl, hr, v55_apply]
  rfl

/-- A bias broadcast over the rows. -/
private theorem v58_at (x4 : FVec Ideal S128 .f32) (r : Fin 16384) (o : Fin 128) :
    val_main_v58 (F := Ideal) x4 (ix2 r o) = vOf x4 o := by
  refine (val_main_v58_apply (F := Ideal) x4 (ix2 r o)).trans ?_
  refine (val_main_v57_apply (F := Ideal) x4 _).trans ?_
  exact congrArg x4 (funext fun a => by match a with | ⟨0, _⟩ => rfl)

/-- The second bias broadcast over the rows. -/
private theorem v62_at (x6 : FVec Ideal S128 .f32) (r : Fin 16384) (o : Fin 128) :
    val_main_v62 (F := Ideal) x6 (ix2 r o) = vOf x6 o := by
  refine (val_main_v62_apply (F := Ideal) x6 (ix2 r o)).trans ?_
  refine (val_main_v61_apply (F := Ideal) x6 _).trans ?_
  exact congrArg x6 (funext fun a => by match a with | ⟨0, _⟩ => rfl)

/-- The single-precision word 0x3F800000 is the number 1. -/
private theorem oneWord : Ideal.ofBits .f32 0x3F800000#32 = (1 : EReal) := by
  simp [Ideal.ofBits, Ideal.ieee, -EReal.coe_mul]; norm_num

/-- 1 / (1 + e^(−x)) with both ones spelled as words is the logistic function. -/
private theorem logistic_words (x : EReal) :
    Ideal.div (Ideal.ofBits .f32 0x3F800000#32) (Ideal.ofBits .f32 0x3F800000#32 + Ideal.exp (-x)) = Ideal.logistic x := by
  rw [oneWord]; rfl

theorem v70_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (o : Fin 128) :
    val_main_v70 (F := Ideal) x0 x1 x2 x3 x4 x5 x6 (ix2 (bn b n) o)
      = gate (gconvR (wOf x3) (wOf x5) (vOf x4) (vOf x6)) (adjOf x2 b) (rowsOf x0 b) (rowsOf x1 b) n o := by
  rw [val_main_v70_apply, val_main_v69_apply, val_main_cst_9_apply, val_main_v68_apply, val_main_v67_apply,
    val_main_cst_8_apply, val_main_v66_apply, val_main_v65_apply, val_main_v64_apply, val_main_v59_apply,
    val_main_v63_apply, v56_at, v58_at, v60_at, v62_at]
  simp only [Ideal.hostDivf_def, Ideal.ofBits_def, Ideal.addf_def, Ideal.hostUnary_exp_def, Ideal.hostNegf_def,
    Ideal.negf_def]
  rw [logistic_words]
  rfl

/-! ## The gate's halves as flat [16, 65536] arrays -/

/-- The gate viewed [16, 1024, 128]. -/
private theorem v71_at (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (o : Fin 128) :
    val_main_v71 (F := Ideal) x0 x1 x2 x3 x4 x5 x6 (ix3 b n o) = gate (gconvR (wOf x3) (wOf x5) (vOf x4) (vOf x6)) (adjOf x2 b) (rowsOf x0 b) (rowsOf x1 b) n o := by
  refine (val_main_v71_apply (F := Ideal) x0 x1 x2 x3 x4 x5 x6 _).trans ?_
  have h : idx_main_v71 (ix3 b n o) = ix2 (bn b n) o := funext fun a => Fin.ext (by
    have hb := b.isLt; have hn := n.isLt; have ho := o.isLt
    match a with
    | ⟨0, _⟩ => show ((b.val * 1024 + n.val) * 128 + o.val) / 128 = b.val * 1024 + n.val; omega
    | ⟨1, _⟩ => show ((b.val * 1024 + n.val) * 128 + o.val) % 128 = o.val; omega)
  rw [h, v70_apply]

/-- Position 64·n + u of batch element b in the flat view is node n, feature u. -/
private theorem idx_flat (b : Fin 16) (n : Fin 1024) (u : Fin 64) :
    idx_main_v73 (ix2 b (nu n u)) = ix3 b n u := funext fun a => Fin.ext (by
  have hb := b.isLt; have hn := n.isLt; have hu := u.isLt
  match a with
  | ⟨0, _⟩ => show (b.val * 65536 + (n.val * 64 + u.val)) / 65536 = b.val; omega
  | ⟨1, _⟩ => show (b.val * 65536 + (n.val * 64 + u.val)) / 64 % 1024 = n.val; omega
  | ⟨2, _⟩ => show (b.val * 65536 + (n.val * 64 + u.val)) % 64 = u.val; omega)

theorem v75_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (u : Fin 64) :
    val_main_v75 (F := Ideal) x0 x1 x2 x3 x4 x5 x6 (ix2 b (nu n u))
      = gate (gconvR (wOf x3) (wOf x5) (vOf x4) (vOf x6)) (adjOf x2 b) (rowsOf x0 b) (rowsOf x1 b) n (hi u) := by
  refine (val_main_v75_apply (F := Ideal) x0 x1 x2 x3 x4 x5 x6 _).trans ?_
  have h : idx_main_v75 (ix2 b (nu n u)) = ix3 b n u := idx_flat b n u
  rw [h]
  refine (val_main_v74_apply (F := Ideal) x0 x1 x2 x3 x4 x5 x6 _).trans ?_
  have h' : idx_main_v74 (ix3 b n u) = ix3 b n (hi u) := funext fun a => Fin.ext (by
    match a with
    | ⟨0, _⟩ => rfl
    | ⟨1, _⟩ => rfl
    | ⟨2, _⟩ => show 64 + u.val = u.val + 64; omega)
  rw [h', v71_at]

theorem v76_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (u : Fin 64) :
    val_main_v76 (F := Ideal) x0 x1 x2 x3 x4 x5 x6 (ix2 b (nu n u))
      = gate (gconvR (wOf x3) (wOf x5) (vOf x4) (vOf x6)) (adjOf x2 b) (rowsOf x0 b) (rowsOf x1 b) n (lo u) * rowsOf x1 b n u := by
  rw [val_main_v76_apply, Ideal.mulf_def]
  refine congrArg₂ (· * ·) ?_ rfl
  refine (val_main_v73_apply (F := Ideal) x0 x1 x2 x3 x4 x5 x6 _).trans ?_
  rw [idx_flat]
  refine (val_main_v72_apply (F := Ideal) x0 x1 x2 x3 x4 x5 x6 _).trans ?_
  have h' : idx_main_v72 (ix3 b n u) = ix3 b n (lo u) := funext fun a => Fin.ext (by match a with | ⟨0, _⟩ => rfl | ⟨1, _⟩ => rfl | ⟨2, _⟩ => rfl)
  rw [h', v71_at]

end Cert.ReferenceIdeal.Stage

end
-- ==== Proof.RStageC.lean ====
/-
  The reference's last stages read at an index: the candidate's features, their diffusions and stacked triples, the
  candidate as the hyperbolic tangent of the 64-wide two-product convolution, and the result as the cell's new state.

  The candidate's features are the inputs beside the reset-scaled state, two 64-wide pieces joined along the feature
  axis. Each diffusion is a batched product with a random-walk matrix, a sum over the 1024 nodes. The stacked triple
  joins the features and twice their diffusion as three unit pieces along a new last axis and flattens (feature, stack
  position) to the 384 columns 3f + s, so column k holds the features when k % 3 = 0 and the diffusion otherwise, at
  feature k / 3. The two products over those 384 columns plus their biases add up to the two-product convolution; its
  hyperbolic tangent, read back at position 64 n + u of row b, is the candidate, and the result is
  z·h + (1 − z)·candidate with z the update gate.
-/
import proofs.«179813_j9328668967409_1_alg».proof.Proof.RStageB

noncomputable section

open scoped BigOperators

namespace Cert.ReferenceIdeal.Stage
open Idealize.ShloMosaic Idealize.ShloMosaic.ValueIdx Cert.ReferenceIdeal Cert.ReferenceIdeal.ReadCopy Cert.DiffGru

/-! ## Joined arrays read at an index -/

/-- Two 64-wide pieces joined along the last axis, read at an index: the first piece below 64, else the second. -/
theorem candJoin2_apply {α : Type} (y0 y1 : (⟨3, ![16, 1024, 64]⟩ : Shape).Idx → α)
    (h : Shape.Concatenates [(⟨3, ![16, 1024, 64]⟩ : Shape), ⟨3, ![16, 1024, 64]⟩] ⟨3, ![16, 1024, 128]⟩ 2)
    (b : Fin 16) (n : Fin 1024) (f : Fin 128) :
    concatenate (⟨3, ![16, 1024, 128]⟩ : Shape) 2 [⟨⟨3, ![16, 1024, 64]⟩, y0⟩, ⟨⟨3, ![16, 1024, 64]⟩, y1⟩] h (ix3 b n f)
      = if hf : f.val < 64 then y0 (ix3 b n ⟨f.val, hf⟩) else y1 (ix3 b n ⟨f.val - 64, by omega⟩) := by
  split
  · next hf =>
    exact concatenate_pair_apply_left (t := ⟨3, ![16, 1024, 128]⟩) (s₁ := ⟨3, ![16, 1024, 64]⟩) (s₂ := ⟨3, ![16, 1024, 64]⟩)
      2 y0 y1 h (ix3 b n f) rfl (ix3 b n ⟨f.val, hf⟩)
      (fun a => by match a with | ⟨0, _⟩ => rfl | ⟨1, _⟩ => rfl | ⟨2, _⟩ => rfl)
  · next hf =>
    exact concatenate_pair_apply_right (t := ⟨3, ![16, 1024, 128]⟩) (s₁ := ⟨3, ![16, 1024, 64]⟩) (s₂ := ⟨3, ![16, 1024, 64]⟩)
      2 y0 y1 h (ix3 b n f) rfl rfl (ix3 b n ⟨f.val - 64, by omega⟩)
      (fun a ha => by
        match a, ha with
        | ⟨0, _⟩, _ => rfl
        | ⟨1, _⟩, _ => rfl
        | ⟨2, _⟩, ha => exact absurd rfl ha)
      (by show f.val - 64 + 64 = f.val; omega)

/-- Three unit pieces joined along the last axis, read at an index: the piece the last coordinate names. -/
theorem candJoin3_apply {α : Type} (z0 z1 z2 : (⟨4, ![16, 1024, 128, 1]⟩ : Shape).Idx → α)
    (h : Shape.Concatenates [(⟨4, ![16, 1024, 128, 1]⟩ : Shape), ⟨4, ![16, 1024, 128, 1]⟩, ⟨4, ![16, 1024, 128, 1]⟩]
      ⟨4, ![16, 1024, 128, 3]⟩ 3)
    (b : Fin 16) (n : Fin 1024) (f : Fin 128) (s : Fin 3) :
    concatenate (⟨4, ![16, 1024, 128, 3]⟩ : Shape) 3
        [⟨⟨4, ![16, 1024, 128, 1]⟩, z0⟩, ⟨⟨4, ![16, 1024, 128, 1]⟩, z1⟩, ⟨⟨4, ![16, 1024, 128, 1]⟩, z2⟩] h (ix4 b n f s)
      = if s.val = 0 then z0 (ix4 b n f 0) else if s.val = 1 then z1 (ix4 b n f 0) else z2 (ix4 b n f 0) := by
  have hi : ∀ a : Fin 4, a.cast (rfl : (4 : Nat) = 4) ≠ (3 : Fin 4) →
      ((ix4 b n f (0 : Fin 1) : (⟨4, ![16, 1024, 128, 1]⟩ : Shape).Idx) a).val
        = ((ix4 b n f s : (⟨4, ![16, 1024, 128, 3]⟩ : Shape).Idx) (a.cast rfl)).val := fun a ha => by
    match a, ha with
    | ⟨0, _⟩, _ => rfl
    | ⟨1, _⟩, _ => rfl
    | ⟨2, _⟩, _ => rfl
    | ⟨3, _⟩, ha => exact absurd rfl ha
  match s with
  | ⟨0, _⟩ =>
    rw [if_pos rfl]
    exact concatenate_apply_piece (t := ⟨4, ![16, 1024, 128, 3]⟩) 3
      [⟨⟨4, ![16, 1024, 128, 1]⟩, z0⟩, ⟨⟨4, ![16, 1024, 128, 1]⟩, z1⟩, ⟨⟨4, ![16, 1024, 128, 1]⟩, z2⟩] h (ix4 b n f _)
      0 (Nat.succ_pos _) ⟨4, ![16, 1024, 128, 1]⟩ z0 rfl rfl 0 rfl (ix4 b n f 0) hi rfl
  | ⟨1, _⟩ =>
    rw [if_neg (show ¬(1 : Nat) = 0 by decide), if_pos rfl]
    exact concatenate_apply_piece (t := ⟨4, ![16, 1024, 128, 3]⟩) 3
      [⟨⟨4, ![16, 1024, 128, 1]⟩, z0⟩, ⟨⟨4, ![16, 1024, 128, 1]⟩, z1⟩, ⟨⟨4, ![16, 1024, 128, 1]⟩, z2⟩] h (ix4 b n f _)
      1 (by show 1 < 3; decide) ⟨4, ![16, 1024, 128, 1]⟩ z1 rfl rfl 1 rfl (ix4 b n f 0) hi rfl
  | ⟨2, _⟩ =>
    rw [if_neg (show ¬(2 : Nat) = 0 by decide), if_neg (show ¬(2 : Nat) = 1 by decide)]
    exact concatenate_apply_piece (t := ⟨4, ![16, 1024, 128, 3]⟩) 3
      [⟨⟨4, ![16, 1024, 128, 1]⟩, z0⟩, ⟨⟨4, ![16, 1024, 128, 1]⟩, z1⟩, ⟨⟨4, ![16, 1024, 128, 1]⟩, z2⟩] h (ix4 b n f _)
      2 (by show 2 < 3; decide) ⟨4, ![16, 1024, 128, 1]⟩ z2 rfl rfl 2 rfl (ix4 b n f 0) hi rfl

/-! ## The candidate's features -/

/-- Position (b, n, u) of a [16, 1024, 64] view of a [16, 65536] array is position 64 n + u of row b. -/
theorem candRows_idx (b : Fin 16) (n : Fin 1024) (u : Fin 64) :
    idx_main_v77 (ix3 b n u) = ix2 b (nu n u) ∧ idx_main_v78 (ix3 b n u) = ix2 b (nu n u) := by
  have hb := b.isLt; have hn := n.isLt; have hu := u.isLt
  constructor
  · exact funext fun a => Fin.ext (by
      match a with
      | ⟨0, _⟩ => show ((b.val * 1024 + n.val) * 64 + u.val) / 65536 = b.val; omega
      | ⟨1, _⟩ => show ((b.val * 1024 + n.val) * 64 + u.val) % 65536 = n.val * 64 + u.val; omega)
  · exact funext fun a => Fin.ext (by
      match a with
      | ⟨0, _⟩ => show ((b.val * 1024 + n.val) * 64 + u.val) / 65536 = b.val; omega
      | ⟨1, _⟩ => show ((b.val * 1024 + n.val) * 64 + u.val) % 65536 = n.val * 64 + u.val; omega)

theorem v79_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (f : Fin 128) :
    val_main_v79 (F := Ideal) x0 x1 x2 x3 x4 x5 x6 (ix3 b n f)
      = xcand (gconvR (wOf x3) (wOf x5) (vOf x4) (vOf x6)) (adjOf x2 b) (rowsOf x0 b) (rowsOf x1 b) n f := by
  unfold val_main_v79
  refine (candJoin2_apply _ _ _ b n f).trans ?_
  unfold xcand cat
  by_cases hf : f.val < 64
  · rw [dif_pos hf, dif_pos hf, val_main_v77_apply, (candRows_idx b n ⟨f.val, hf⟩).1]
    rfl
  · rw [dif_neg hf, dif_neg hf, val_main_v78_apply, (candRows_idx b n ⟨f.val - 64, by omega⟩).2, v76_apply]

/-! ## Their two diffusions and the stacked triples -/

theorem v80_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (f : Fin 128) :
    val_main_v80 (F := Ideal) x0 x1 x2 x3 x4 x5 x6 (ix3 b n f) = mm (rwalk (adjOf x2 b)) (xcand (gconvR (wOf x3) (wOf x5) (vOf x4) (vOf x6)) (adjOf x2 b) (rowsOf x0 b) (rowsOf x1 b)) n f := by
  refine (val_main_v80_apply x0 x1 x2 x3 x4 x5 x6 (ix3 b n f)).trans ?_
  refine Finset.sum_congr rfl fun k _ => ?_
  have el : lidx_main_v80 (ix3 b n f) k = ix3 b n k := funext fun a => by match a with | ⟨0, _⟩ => rfl | ⟨1, _⟩ => rfl | ⟨2, _⟩ => rfl
  have er : ridx_main_v80 (ix3 b n f) k = ix3 b k f := funext fun a => by match a with | ⟨0, _⟩ => rfl | ⟨1, _⟩ => rfl | ⟨2, _⟩ => rfl
  rw [el, er, v18_apply, v79_apply]

theorem v87_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (f : Fin 128) :
    val_main_v87 (F := Ideal) x0 x1 x2 x3 x4 x5 x6 (ix3 b n f) = mm (rwalk (tr (adjOf x2 b))) (xcand (gconvR (wOf x3) (wOf x5) (vOf x4) (vOf x6)) (adjOf x2 b) (rowsOf x0 b) (rowsOf x1 b)) n f := by
  refine (val_main_v87_apply x0 x1 x2 x3 x4 x5 x6 (ix3 b n f)).trans ?_
  refine Finset.sum_congr rfl fun k _ => ?_
  have el : lidx_main_v87 (ix3 b n f) k = ix3 b n k := funext fun a => by match a with | ⟨0, _⟩ => rfl | ⟨1, _⟩ => rfl | ⟨2, _⟩ => rfl
  have er : ridx_main_v87 (ix3 b n f) k = ix3 b k f := funext fun a => by match a with | ⟨0, _⟩ => rfl | ⟨1, _⟩ => rfl | ⟨2, _⟩ => rfl
  rw [el, er, v38_apply, v79_apply]

theorem v86_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (k : Fin 384) :
    val_main_v86 (F := Ideal) x0 x1 x2 x3 x4 x5 x6 (ix2 (bn b n) k) = stack3 (xcand (gconvR (wOf x3) (wOf x5) (vOf x4) (vOf x6)) (adjOf x2 b) (rowsOf x0 b) (rowsOf x1 b)) (mm (rwalk (adjOf x2 b)) (xcand (gconvR (wOf x3) (wOf x5) (vOf x4) (vOf x6)) (adjOf x2 b) (rowsOf x0 b) (rowsOf x1 b))) n k := by
  have e : idx_main_v86 (ix2 (bn b n) k) = ix4 b n (⟨k.val / 3, by omega⟩ : Fin 128) (⟨k.val % 3, by omega⟩ : Fin 3) :=
    funext fun a => Fin.ext (by
      have hb := b.isLt; have hn := n.isLt; have hk := k.isLt
      match a with
      | ⟨0, _⟩ => show ((b.val * 1024 + n.val) * 384 + k.val) / 393216 = b.val; omega
      | ⟨1, _⟩ => show ((b.val * 1024 + n.val) * 384 + k.val) / 384 % 1024 = n.val; omega
      | ⟨2, _⟩ => show ((b.val * 1024 + n.val) * 384 + k.val) / 3 % 128 = k.val / 3; omega
      | ⟨3, _⟩ => show ((b.val * 1024 + n.val) * 384 + k.val) % 3 = k.val % 3; omega)
  have e0 : ∀ f : Fin 128, idx_main_v82 (ix4 b n f (0 : Fin 1)) = ix3 b n f := fun f => funext fun a => by match a with | ⟨0, _⟩ => rfl | ⟨1, _⟩ => rfl | ⟨2, _⟩ => rfl
  have e1 : ∀ f : Fin 128, idx_main_v83 (ix4 b n f (0 : Fin 1)) = ix3 b n f := fun f => funext fun a => by match a with | ⟨0, _⟩ => rfl | ⟨1, _⟩ => rfl | ⟨2, _⟩ => rfl
  have e2 : ∀ f : Fin 128, idx_main_v84 (ix4 b n f (0 : Fin 1)) = ix3 b n f := fun f => funext fun a => by match a with | ⟨0, _⟩ => rfl | ⟨1, _⟩ => rfl | ⟨2, _⟩ => rfl
  refine (val_main_v86_apply (F := Ideal) x0 x1 x2 x3 x4 x5 x6 (ix2 (bn b n) k)).trans ?_
  rw [e]
  unfold val_main_v85
  refine (candJoin3_apply _ _ _ _ b n _ _).trans ?_
  show (if k.val % 3 = 0 then _ else if k.val % 3 = 1 then _ else _) = _
  unfold stack3
  by_cases h0 : k.val % 3 = 0
  · rw [if_pos h0, if_pos h0, val_main_v82_apply, e0, v79_apply]
  · rw [if_neg h0, if_neg h0]
    by_cases h1 : k.val % 3 = 1
    · rw [if_pos h1, val_main_v83_apply, e1, v80_apply]
    · rw [if_neg h1, val_main_v84_apply, e2, v80_apply]

theorem v93_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (b : Fin 16) (n : Fin 1024) (k : Fin 384) :
    val_main_v93 (F := Ideal) x0 x1 x2 x3 x4 x5 x6 (ix2 (bn b n) k) = stack3 (xcand (gconvR (wOf x3) (wOf x5) (vOf x4) (vOf x6)) (adjOf x2 b) (rowsOf x0 b) (rowsOf x1 b)) (mm (rwalk (tr (adjOf x2 b))) (xcand (gconvR (wOf x3) (wOf x5) (vOf x4) (vOf x6)) (adjOf x2 b) (rowsOf x0 b) (rowsOf x1 b))) n k := by
  have e : idx_main_v93 (ix2 (bn b n) k) = ix4 b n (⟨k.val / 3, by omega⟩ : Fin 128) (⟨k.val % 3, by omega⟩ : Fin 3) :=
    funext fun a => Fin.ext (by
      have hb := b.isLt; have hn := n.isLt; have hk := k.isLt
      match a with
      | ⟨0, _⟩ => show ((b.val * 1024 + n.val) * 384 + k.val) / 393216 = b.val; omega
      | ⟨1, _⟩ => show ((b.val * 1024 + n.val) * 384 + k.val) / 384 % 1024 = n.val; omega
      | ⟨2, _⟩ => show ((b.val * 1024 + n.val) * 384 + k.val) / 3 % 128 = k.val / 3; omega
      | ⟨3, _⟩ => show ((b.val * 1024 + n.val) * 384 + k.val) % 3 = k.val % 3; omega)
  have e0 : ∀ f : Fin 128, idx_main_v89 (ix4 b n f (0 : Fin 1)) = ix3 b n f := fun f => funext fun a => by match a with | ⟨0, _⟩ => rfl | ⟨1, _⟩ => rfl | ⟨2, _⟩ => rfl
  have e1 : ∀ f : Fin 128, idx_main_v90 (ix4 b n f (0 : Fin 1)) = ix3 b n f := fun f => funext fun a => by match a with | ⟨0, _⟩ => rfl | ⟨1, _⟩ => rfl | ⟨2, _⟩ => rfl
  have e2 : ∀ f : Fin 128, idx_main_v91 (ix4 b n f (0 : Fin 1)) = ix3 b n f := fun f => funext fun a => by match a with | ⟨0, _⟩ => rfl | ⟨1, _⟩ => rfl | ⟨2, _⟩ => rfl
  refine (val_main_v93_apply (F := Ideal) x0 x1 x2 x3 x4 x5 x6 (ix2 (bn b n) k)).trans ?_
  rw [e]
  unfold val_main_v92
  refine (candJoin3_apply _ _ _ _ b n _ _).trans ?_
  show (if k.val % 3 = 0 then _ else if k.val % 3 = 1 then _ else _) = _
  unfold stack3
  by_cases h0 : k.val % 3 = 0
  · rw [if_pos h0, if_pos h0, val_main_v89_apply, e0, v79_apply]
  · rw [if_neg h0, if_neg h0]
    by_cases h1 : k.val % 3 = 1
    · rw [if_pos h1, val_main_v90_apply, e1, v87_apply]
    · rw [if_neg h1, val_main_v91_apply, e2, v87_apply]

/-! ## The two products with the 64-wide weights, and the biases -/

theorem v94_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (x7 : FVec Ideal S384x64 .f32) (b : Fin 16) (n : Fin 1024) (o : Fin 64) :
    val_main_v94 (F := Ideal) x0 x1 x2 x3 x4 x5 x6 x7 (ix2 (bn b n) o)
      = mm (stack3 (xcand (gconvR (wOf x3) (wOf x5) (vOf x4) (vOf x6)) (adjOf x2 b) (rowsOf x0 b) (rowsOf x1 b)) (mm (rwalk (adjOf x2 b)) (xcand (gconvR (wOf x3) (wOf x5) (vOf x4) (vOf x6)) (adjOf x2 b) (rowsOf x0 b) (rowsOf x1 b)))) (wOf x7) n o := by
  refine (val_main_v94_apply x0 x1 x2 x3 x4 x5 x6 x7 (ix2 (bn b n) o)).trans ?_
  refine Finset.sum_congr rfl fun k _ => ?_
  have el : lidx_main_v94 (ix2 (bn b n) o) k = ix2 (bn b n) k := funext fun a => by match a with | ⟨0, _⟩ => rfl | ⟨1, _⟩ => rfl
  have er : ridx_main_v94 (ix2 (bn b n) o) k = ix2 k o := funext fun a => by match a with | ⟨0, _⟩ => rfl | ⟨1, _⟩ => rfl
  rw [el, er, v86_apply]
  rfl

theorem v98_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (x9 : FVec Ideal S384x64 .f32) (b : Fin 16) (n : Fin 1024) (o : Fin 64) :
    val_main_v98 (F := Ideal) x0 x1 x2 x3 x4 x5 x6 x9 (ix2 (bn b n) o)
      = mm (stack3 (xcand (gconvR (wOf x3) (wOf x5) (vOf x4) (vOf x6)) (adjOf x2 b) (rowsOf x0 b) (rowsOf x1 b)) (mm (rwalk (tr (adjOf x2 b))) (xcand (gconvR (wOf x3) (wOf x5) (vOf x4) (vOf x6)) (adjOf x2 b) (rowsOf x0 b) (rowsOf x1 b)))) (wOf x9) n o := by
  refine (val_main_v98_apply x0 x1 x2 x3 x4 x5 x6 x9 (ix2 (bn b n) o)).trans ?_
  refine Finset.sum_congr rfl fun k _ => ?_
  have el : lidx_main_v98 (ix2 (bn b n) o) k = ix2 (bn b n) k := funext fun a => by match a with | ⟨0, _⟩ => rfl | ⟨1, _⟩ => rfl
  have er : ridx_main_v98 (ix2 (bn b n) o) k = ix2 k o := funext fun a => by match a with | ⟨0, _⟩ => rfl | ⟨1, _⟩ => rfl
  rw [el, er, v93_apply]
  rfl

theorem v96_apply (x8 : FVec Ideal S64 .f32) (r : Fin 16384) (o : Fin 64) :
    val_main_v96 (F := Ideal) x8 (ix2 r o) = vOf x8 o := by
  rw [val_main_v96_apply, val_main_v95_apply]
  exact congrArg x8 (funext fun a => by match a with | ⟨0, _⟩ => rfl)

theorem v100_apply (x10 : FVec Ideal S64 .f32) (r : Fin 16384) (o : Fin 64) :
    val_main_v100 (F := Ideal) x10 (ix2 r o) = vOf x10 o := by
  rw [val_main_v100_apply, val_main_v99_apply]
  exact congrArg x10 (funext fun a => by match a with | ⟨0, _⟩ => rfl)

/-- The sum of the two products and biases is the 64-wide two-product convolution of the candidate's features. -/
theorem v102_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (x7 : FVec Ideal S384x64 .f32) (x8 : FVec Ideal S64 .f32) (x9 : FVec Ideal S384x64 .f32) (x10 : FVec Ideal S64 .f32) (b : Fin 16) (n : Fin 1024) (o : Fin 64) :
    val_main_v102 (F := Ideal) x0 x1 x2 x3 x4 x5 x6 x7 x8 x9 x10 (ix2 (bn b n) o)
      = gconvR (wOf x7) (wOf x9) (vOf x8) (vOf x10) (xcand (gconvR (wOf x3) (wOf x5) (vOf x4) (vOf x6)) (adjOf x2 b) (rowsOf x0 b) (rowsOf x1 b)) (mm (rwalk (adjOf x2 b)) (xcand (gconvR (wOf x3) (wOf x5) (vOf x4) (vOf x6)) (adjOf x2 b) (rowsOf x0 b) (rowsOf x1 b))) (mm (rwalk (tr (adjOf x2 b))) (xcand (gconvR (wOf x3) (wOf x5) (vOf x4) (vOf x6)) (adjOf x2 b) (rowsOf x0 b) (rowsOf x1 b))) n o := by
  rw [val_main_v102_apply, val_main_v97_apply, val_main_v101_apply, v94_apply, v96_apply, v98_apply, v100_apply]
  rfl

theorem v104_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (x7 : FVec Ideal S384x64 .f32) (x8 : FVec Ideal S64 .f32) (x9 : FVec Ideal S384x64 .f32) (x10 : FVec Ideal S64 .f32) (b : Fin 16) (n : Fin 1024) (u : Fin 64) :
    val_main_v104 (F := Ideal) x0 x1 x2 x3 x4 x5 x6 x7 x8 x9 x10 (ix2 b (nu n u))
      = cand (gconvR (wOf x3) (wOf x5) (vOf x4) (vOf x6)) (gconvR (wOf x7) (wOf x9) (vOf x8) (vOf x10)) (adjOf x2 b) (rowsOf x0 b) (rowsOf x1 b) n u := by
  have e : idx_main_v104 (ix2 b (nu n u)) = ix2 (bn b n) u :=
    funext fun a => Fin.ext (by
      have hb := b.isLt; have hn := n.isLt; have hu := u.isLt
      match a with
      | ⟨0, _⟩ => show (b.val * 65536 + (n.val * 64 + u.val)) / 64 = b.val * 1024 + n.val; omega
      | ⟨1, _⟩ => show (b.val * 65536 + (n.val * 64 + u.val)) % 64 = u.val; omega)
  rw [val_main_v104_apply, e, val_main_v103_apply, v102_apply]
  rfl

/-! ## The new state -/

/-- The result at feature u of node n of batch element b: the update gate mixes the state and the candidate. -/
theorem v109_apply (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (x7 : FVec Ideal S384x64 .f32) (x8 : FVec Ideal S64 .f32) (x9 : FVec Ideal S384x64 .f32) (x10 : FVec Ideal S64 .f32) (b : Fin 16) (n : Fin 1024) (u : Fin 64) :
    val_main_v109 (F := Ideal) x0 x1 x2 x3 x4 x5 x6 x7 x8 x9 x10 (ix2 b (nu n u))
      = cell (gconvR (wOf x3) (wOf x5) (vOf x4) (vOf x6)) (gconvR (wOf x7) (wOf x9) (vOf x8) (vOf x10)) (adjOf x2 b) (rowsOf x0 b) (rowsOf x1 b) n u := by
  rw [val_main_v109_apply, val_main_v105_apply, val_main_v108_apply, val_main_v107_apply, val_main_v106_apply,
    val_main_cst_10_apply, v75_apply, v104_apply]
  rfl

/-- The reference's result is the specification's function with the two-product convolutions. -/
theorem ref_val (x0 x1 : FVec Ideal S16x65536 .f32) (x2 : FVec Ideal S16x1024x1024 .f32) (x3 : FVec Ideal S384x128 .f32) (x4 : FVec Ideal S128 .f32) (x5 : FVec Ideal S384x128 .f32) (x6 : FVec Ideal S128 .f32) (x7 : FVec Ideal S384x64 .f32) (x8 : FVec Ideal S64 .f32) (x9 : FVec Ideal S384x64 .f32) (x10 : FVec Ideal S64 .f32) :
    val_main_v109 (F := Ideal) x0 x1 x2 x3 x4 x5 x6 x7 x8 x9 x10 = outR x0 x1 x2 x3 x4 x5 x6 x7 x8 x9 x10 := by
  funext i
  have hi : i = ix2 (bOf i) (nu (nOf i) (uOf i)) := funext fun a => by
    match a with
    | ⟨0, _⟩ => rfl
    | ⟨1, _⟩ => exact Fin.ext (show (i 1).val = (i 1).val / 64 * 64 + (i 1).val % 64 by omega)
  exact (congrArg (val_main_v109 (F := Ideal) x0 x1 x2 x3 x4 x5 x6 x7 x8 x9 x10) hi).trans
    (v109_apply x0 x1 x2 x3 x4 x5 x6 x7 x8 x9 x10 (bOf i) (nOf i) (uOf i))

end Cert.ReferenceIdeal.Stage

end
-- ==== Proof.Law.lean ====
/-
  The two arrangements of the graph convolution agree on real (finite) data, and so do the two cells.

  On extended reals multiplication distributes over addition only away from the infinities; with every input a real
  number every intermediate value of the cell is real (a guarded reciprocal of a real is real, a finite sum of
  products of reals is real, the logistic function and the hyperbolic tangent of a real are real), and there
  Σ_{k<384} X(k)·W(k) over the interleaved rows k = 3f + s splits into the three sums over f of the spec's
  three-product form, the two copies of the diffused features sharing one factor.
-/
import proofs.«179813_j9328668967409_1_alg».proof.Proof.Spec

noncomputable section

open scoped BigOperators

namespace Cert.DiffGru
open Idealize.ShloMosaic Idealize.ShloMosaic.ValueIdx

/-! ## Real numbers among the extended reals -/

/-- A real number among the extended reals. -/
def IsR (e : EReal) : Prop := ∃ r : ℝ, e = (r : EReal)

/-- A real-valued family of two indices. -/
def IsR2 {α β : Type} (f : α → β → EReal) : Prop := ∀ i j, IsR (f i j)

theorem isR_zero : IsR 0 := ⟨0, EReal.coe_zero.symm⟩

theorem isR_one : IsR 1 := ⟨1, EReal.coe_one.symm⟩

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

/-- A finite sum of reals is real. -/
theorem IsR.sum {ι : Type} (s : Finset ι) (f : ι → EReal) (h : ∀ k ∈ s, IsR (f k)) : IsR (∑ k ∈ s, f k) := by
  classical
  induction s using Finset.induction_on with
  | empty => simpa using isR_zero
  | insert a s ha ih =>
    rw [Finset.sum_insert ha]
    exact (h a (Finset.mem_insert_self a s)).add (ih fun k hk => h k (Finset.mem_insert_of_mem hk))

/-- Among reals multiplication distributes over addition. -/
theorem IsR.mul_add {x a b : EReal} (hx : IsR x) (ha : IsR a) (hb : IsR b) : x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, _root_.mul_add]

theorem w0_eq : w0 = 0 := by
  simp [w0, Ideal.ofBits, Ideal.ieee]

theorem w1_eq : w1 = 1 := by
  simp [w1, Ideal.ofBits, Ideal.ieee, -EReal.coe_mul]; norm_num

/-- The guarded reciprocal of a real is real. -/
theorem IsR.rinv {d : EReal} (hd : IsR d) : IsR (rinv d) := by
  obtain ⟨r, rfl⟩ := hd
  unfold Cert.DiffGru.rinv
  rw [w0_eq, w1_eq]
  by_cases hr : r = 0
  · have h : Ideal.cmp .oeq ((r : ℝ) : EReal) 0 = 1 := by
      subst hr
      simp [Ideal.cmp]
    rw [h]
    simpa [Scalar.select] using isR_zero
  · have hne : ((r : ℝ) : EReal) ≠ 0 := by exact_mod_cast hr
    have h : Ideal.cmp .oeq ((r : ℝ) : EReal) 0 = 0 := by
      simp [Ideal.cmp, hne]
    rw [h, Ideal.div_coe hr]
    have h01 : (0 : BitVec 1) ≠ 1 := by decide
    rw [Scalar.select, if_neg h01]
    exact isR_one.mul ⟨_, rfl⟩

theorem IsR.logistic {a : EReal} (ha : IsR a) : IsR (Ideal.logistic a) := by
  obtain ⟨r, rfl⟩ := ha
  exact ⟨_, Ideal.logistic_coe r⟩

theorem IsR.tanh {a : EReal} (ha : IsR a) : IsR (Ideal.tanh a) := by
  obtain ⟨r, rfl⟩ := ha
  exact ⟨_, Ideal.tanh_coe r⟩

/-! ## The cell's intermediate values are real -/

theorem isR2_eye : IsR2 eye := by
  intro i j
  unfold eye
  split
  · exact isR_one
  · exact isR_zero

theorem IsR2.selfLoop {a : Fin 1024 → Fin 1024 → EReal} (ha : IsR2 a) : IsR2 (selfLoop a) :=
  fun i j => (ha i j).add (isR2_eye i j)

theorem IsR2.rwalk {a : Fin 1024 → Fin 1024 → EReal} (ha : IsR2 a) : IsR2 (rwalk a) :=
  fun i j => (IsR.sum _ _ fun k _ => ha.selfLoop k i).rinv.mul (ha.selfLoop i j)

theorem IsR2.tr {a : Fin 1024 → Fin 1024 → EReal} (ha : IsR2 a) : IsR2 (tr a) :=
  fun i j => ha j i

theorem IsR2.cat {p q : Fin 1024 → Fin 64 → EReal} (hp : IsR2 p) (hq : IsR2 q) : IsR2 (cat p q) := by
  intro n f
  unfold Cert.DiffGru.cat
  split
  · exact hp _ _
  · exact hq _ _

/-- A product of real matrices is real. -/
theorem IsR2.mm {M K N : Nat} {A : Fin M → Fin K → EReal} {B : Fin K → Fin N → EReal} (hA : IsR2 A) (hB : IsR2 B) :
    IsR2 (mm A B) :=
  fun i j => IsR.sum _ _ fun κ _ => (hA i κ).mul (hB κ j)

theorem IsR2.wsl {O : Nat} {W : Fin 384 → Fin O → EReal} (hW : IsR2 W) (s : Fin 3) : IsR2 (wsl W s) :=
  fun _ o => hW _ o

/-- The three-product convolution of real data with real weights and biases is real. -/
theorem IsR2.gconvK {O : Nat} {W0 W1 : Fin 384 → Fin O → EReal} {b0 b1 : Fin O → EReal}
    {x ax0 ax1 : Fin 1024 → Fin 128 → EReal} (hW0 : IsR2 W0) (hW1 : IsR2 W1) (hb0 : ∀ o, IsR (b0 o))
    (hb1 : ∀ o, IsR (b1 o)) (hx : IsR2 x) (hax0 : IsR2 ax0) (hax1 : IsR2 ax1) :
    IsR2 (gconvK W0 W1 b0 b1 x ax0 ax1) := by
  intro n o
  unfold Cert.DiffGru.gconvK gconvP
  refine IsR.add (IsR.add (IsR.add ?_ ?_) ?_) ((hb0 o).add (hb1 o))
  · exact IsR2.mm hx (fun f o => (hW0.wsl 0 f o).add (hW1.wsl 0 f o)) n o
  · exact IsR2.mm hax0 (fun f o => (hW0.wsl 1 f o).add (hW0.wsl 2 f o)) n o
  · exact IsR2.mm hax1 (fun f o => (hW1.wsl 1 f o).add (hW1.wsl 2 f o)) n o

/-! ## The interleaved sum -/

/-- A sum over 384 = 128·3 interleaved positions, taken three at a time. -/
theorem sum_interleave {M : Type} [AddCommMonoid M] (F : Fin 384 → M) :
    ∑ k : Fin 384, F k
      = ∑ f : Fin 128, (F ⟨f.val * 3 + 0, by omega⟩ + F ⟨f.val * 3 + 1, by omega⟩ + F ⟨f.val * 3 + 2, by omega⟩) := by
  rw [← (finProdFinEquiv (m := 128) (n := 3)).sum_comp F, Fintype.sum_prod_type]
  refine Finset.sum_congr rfl fun f _ => ?_
  rw [Fin.sum_univ_three]
  have e : ∀ s : Fin 3, (finProdFinEquiv (f, s) : Fin 384) = ⟨f.val * 3 + s.val, by omega⟩ := by
    intro s
    apply Fin.ext
    simp [finProdFinEquiv]
    omega
  rw [e 0, e 1, e 2]
  rfl

theorem stack3_zero (x ax : Fin 1024 → Fin 128 → EReal) (n : Fin 1024) (f : Fin 128) (h : f.val * 3 + 0 < 384) :
    stack3 x ax n ⟨f.val * 3 + 0, h⟩ = x n f := by
  unfold stack3
  have h0 : (f.val * 3 + 0) % 3 = 0 := by omega
  have hf : (⟨(f.val * 3 + 0) / 3, by omega⟩ : Fin 128) = f := Fin.ext (by show (f.val * 3 + 0) / 3 = f.val; omega)
  simp only [h0, if_true, hf]

theorem stack3_one (x ax : Fin 1024 → Fin 128 → EReal) (n : Fin 1024) (f : Fin 128) (h : f.val * 3 + 1 < 384) :
    stack3 x ax n ⟨f.val * 3 + 1, h⟩ = ax n f := by
  unfold stack3
  have h0 : ¬ (f.val * 3 + 1) % 3 = 0 := by omega
  have hf : (⟨(f.val * 3 + 1) / 3, by omega⟩ : Fin 128) = f := Fin.ext (by show (f.val * 3 + 1) / 3 = f.val; omega)
  simp only [h0, if_false, hf]

theorem stack3_two (x ax : Fin 1024 → Fin 128 → EReal) (n : Fin 1024) (f : Fin 128) (h : f.val * 3 + 2 < 384) :
    stack3 x ax n ⟨f.val * 3 + 2, h⟩ = ax n f := by
  unfold stack3
  have h0 : ¬ (f.val * 3 + 2) % 3 = 0 := by omega
  have hf : (⟨(f.val * 3 + 2) / 3, by omega⟩ : Fin 128) = f := Fin.ext (by show (f.val * 3 + 2) / 3 = f.val; omega)
  simp only [h0, if_false, hf]

/-- The product of the stacked triple with an interleaved weight matrix, by stack position. -/
theorem mm_stack3 {O : Nat} (x ax : Fin 1024 → Fin 128 → EReal) (W : Fin 384 → Fin O → EReal) (n : Fin 1024) (o : Fin O) :
    mm (stack3 x ax) W n o
      = mm x (wsl W 0) n o + mm ax (wsl W 1) n o + mm ax (wsl W 2) n o := by
  unfold mm
  rw [sum_interleave, ← Finset.sum_add_distrib, ← Finset.sum_add_distrib]
  refine Finset.sum_congr rfl fun f _ => ?_
  rw [stack3_zero, stack3_one, stack3_two]
  rfl

/-! ## The two arrangements of the convolution -/

/-- A real matrix against a sum of two real matrices: the product splits. -/
theorem mm_add_right {M K N : Nat} {A : Fin M → Fin K → EReal} {B C : Fin K → Fin N → EReal}
    (hA : IsR2 A) (hB : IsR2 B) (hC : IsR2 C) (i : Fin M) (j : Fin N) :
    mm A (fun κ j => B κ j + C κ j) i j = mm A B i j + mm A C i j := by
  unfold mm
  rw [← Finset.sum_add_distrib]
  exact Finset.sum_congr rfl fun κ _ => (hA i κ).mul_add (hB κ j) (hC κ j)

/-- Eight summands regrouped: addition of extended reals is commutative and associative. -/
theorem add_regroup (A0 B0 C0 d0 A1 B1 C1 d1 : EReal) :
    (A0 + B0 + C0 + d0) + (A1 + B1 + C1 + d1) = (A0 + A1) + (B0 + C0) + (B1 + C1) + (d0 + d1) := by
  ac_rfl

/-- On real features and weights the two-product and the three-product convolutions agree. -/
theorem gconvR_eq_gconvK {O : Nat} {W0 W1 : Fin 384 → Fin O → EReal} (b0 b1 : Fin O → EReal)
    {x ax0 ax1 : Fin 1024 → Fin 128 → EReal} (hW0 : IsR2 W0) (hW1 : IsR2 W1) (hx : IsR2 x) (hax0 : IsR2 ax0)
    (hax1 : IsR2 ax1) (n : Fin 1024) (o : Fin O) :
    gconvR W0 W1 b0 b1 x ax0 ax1 n o = gconvK W0 W1 b0 b1 x ax0 ax1 n o := by
  unfold gconvR gconvK gconvP
  rw [mm_stack3, mm_stack3, mm_add_right hx (hW0.wsl 0) (hW1.wsl 0), mm_add_right hax0 (hW0.wsl 1) (hW0.wsl 2),
    mm_add_right hax1 (hW1.wsl 1) (hW1.wsl 2)]
  exact add_regroup _ _ _ _ _ _ _ _

/-! ## The cell -/

section cell

variable {W0 W1 : Fin 384 → Fin 128 → EReal} {b0 b1 : Fin 128 → EReal} {V0 V1 : Fin 384 → Fin 64 → EReal}
  {c0 c1 : Fin 64 → EReal} {adj : Fin 1024 → Fin 1024 → EReal} {inp hx : Fin 1024 → Fin 64 → EReal}

theorem gate_R_eq_K (hW0 : IsR2 W0) (hW1 : IsR2 W1) (hadj : IsR2 adj) (hinp : IsR2 inp) (hhx : IsR2 hx) :
    gate (gconvR W0 W1 b0 b1) adj inp hx = gate (gconvK W0 W1 b0 b1) adj inp hx := by
  funext n o
  unfold gate
  rw [gconvR_eq_gconvK b0 b1 hW0 hW1 (hinp.cat hhx) (hadj.rwalk.mm (hinp.cat hhx)) (hadj.tr.rwalk.mm (hinp.cat hhx))]

/-- The gates of real data are real. -/
theorem isR2_gate (hW0 : IsR2 W0) (hW1 : IsR2 W1) (hb0 : ∀ o, IsR (b0 o)) (hb1 : ∀ o, IsR (b1 o)) (hadj : IsR2 adj)
    (hinp : IsR2 inp) (hhx : IsR2 hx) : IsR2 (gate (gconvK W0 W1 b0 b1) adj inp hx) := by
  intro n o
  unfold gate
  exact (IsR2.gconvK hW0 hW1 hb0 hb1 (hinp.cat hhx) (hadj.rwalk.mm (hinp.cat hhx))
    (hadj.tr.rwalk.mm (hinp.cat hhx)) n o).logistic

theorem xcand_R_eq_K (hW0 : IsR2 W0) (hW1 : IsR2 W1) (hadj : IsR2 adj) (hinp : IsR2 inp) (hhx : IsR2 hx) :
    xcand (gconvR W0 W1 b0 b1) adj inp hx = xcand (gconvK W0 W1 b0 b1) adj inp hx := by
  unfold xcand
  rw [gate_R_eq_K hW0 hW1 hadj hinp hhx]

/-- The candidate's features of real data are real. -/
theorem isR2_xcand (hW0 : IsR2 W0) (hW1 : IsR2 W1) (hb0 : ∀ o, IsR (b0 o)) (hb1 : ∀ o, IsR (b1 o)) (hadj : IsR2 adj)
    (hinp : IsR2 inp) (hhx : IsR2 hx) : IsR2 (xcand (gconvK W0 W1 b0 b1) adj inp hx) := by
  unfold xcand
  exact hinp.cat fun n u => (isR2_gate hW0 hW1 hb0 hb1 hadj hinp hhx n (lo u)).mul (hhx n u)

theorem cand_R_eq_K (hW0 : IsR2 W0) (hW1 : IsR2 W1) (hb0 : ∀ o, IsR (b0 o)) (hb1 : ∀ o, IsR (b1 o))
    (hV0 : IsR2 V0) (hV1 : IsR2 V1) (hadj : IsR2 adj) (hinp : IsR2 inp) (hhx : IsR2 hx) :
    cand (gconvR W0 W1 b0 b1) (gconvR V0 V1 c0 c1) adj inp hx
      = cand (gconvK W0 W1 b0 b1) (gconvK V0 V1 c0 c1) adj inp hx := by
  funext n u
  have hxc := isR2_xcand hW0 hW1 hb0 hb1 hadj hinp hhx
  unfold cand
  rw [xcand_R_eq_K hW0 hW1 hadj hinp hhx, gconvR_eq_gconvK c0 c1 hV0 hV1 hxc (hadj.rwalk.mm hxc) (hadj.tr.rwalk.mm hxc)]

theorem cell_R_eq_K (hW0 : IsR2 W0) (hW1 : IsR2 W1) (hb0 : ∀ o, IsR (b0 o)) (hb1 : ∀ o, IsR (b1 o))
    (hV0 : IsR2 V0) (hV1 : IsR2 V1) (hadj : IsR2 adj) (hinp : IsR2 inp) (hhx : IsR2 hx) :
    cell (gconvR W0 W1 b0 b1) (gconvR V0 V1 c0 c1) adj inp hx
      = cell (gconvK W0 W1 b0 b1) (gconvK V0 V1 c0 c1) adj inp hx := by
  funext n u
  unfold cell
  rw [gate_R_eq_K hW0 hW1 hadj hinp hhx, cand_R_eq_K hW0 hW1 hb0 hb1 hV0 hV1 hadj hinp hhx]

end cell

/-! ## The arrays -/

theorem isR2_wOf {O : Nat} {a : (⟨2, ![384, O]⟩ : Shape).Idx → EReal} (h : ∀ i, ∃ r : ℝ, a i = (r : EReal)) :
    IsR2 (wOf a) := by
  intro k o
  exact h _

theorem isR_vOf {O : Nat} {a : (⟨1, ![O]⟩ : Shape).Idx → EReal} (h : ∀ i, ∃ r : ℝ, a i = (r : EReal)) (o : Fin O) :
    IsR (vOf a o) := h _

theorem isR2_adjOf {a : (⟨3, ![16, 1024, 1024]⟩ : Shape).Idx → EReal} (h : ∀ i, ∃ r : ℝ, a i = (r : EReal)) (b : Fin 16) :
    IsR2 (adjOf a b) := by
  intro i j
  exact h _

theorem isR2_rowsOf {a : (⟨2, ![16, 65536]⟩ : Shape).Idx → EReal} (h : ∀ i, ∃ r : ℝ, a i = (r : EReal)) (b : Fin 16) :
    IsR2 (rowsOf a b) := by
  intro n u
  exact h _

/-- With every argument array real-valued the two-product and the three-product results are equal. -/
theorem outR_eq_outK (a0 a1 : (⟨2, ![16, 65536]⟩ : Shape).Idx → EReal) (a2 : (⟨3, ![16, 1024, 1024]⟩ : Shape).Idx → EReal)
    (a3 : (⟨2, ![384, 128]⟩ : Shape).Idx → EReal) (a4 : (⟨1, ![128]⟩ : Shape).Idx → EReal) (a5 : (⟨2, ![384, 128]⟩ : Shape).Idx → EReal) (a6 : (⟨1, ![128]⟩ : Shape).Idx → EReal)
    (a7 : (⟨2, ![384, 64]⟩ : Shape).Idx → EReal) (a8 : (⟨1, ![64]⟩ : Shape).Idx → EReal) (a9 : (⟨2, ![384, 64]⟩ : Shape).Idx → EReal) (a10 : (⟨1, ![64]⟩ : Shape).Idx → EReal)
    (h0 : (∀ i, ∃ r : ℝ, a0 i = (r : EReal))) (h1 : (∀ i, ∃ r : ℝ, a1 i = (r : EReal))) (h2 : (∀ i, ∃ r : ℝ, a2 i = (r : EReal))) (h3 : (∀ i, ∃ r : ℝ, a3 i = (r : EReal))) (h4 : (∀ i, ∃ r : ℝ, a4 i = (r : EReal)))
    (h5 : (∀ i, ∃ r : ℝ, a5 i = (r : EReal))) (h6 : (∀ i, ∃ r : ℝ, a6 i = (r : EReal))) (h7 : (∀ i, ∃ r : ℝ, a7 i = (r : EReal))) (h8 : (∀ i, ∃ r : ℝ, a8 i = (r : EReal))) (h9 : (∀ i, ∃ r : ℝ, a9 i = (r : EReal)))
    (h10 : (∀ i, ∃ r : ℝ, a10 i = (r : EReal))) :
    outR a0 a1 a2 a3 a4 a5 a6 a7 a8 a9 a10 = outK a0 a1 a2 a3 a4 a5 a6 a7 a8 a9 a10 := by
  funext i
  unfold outR outK
  rw [cell_R_eq_K (isR2_wOf h3) (isR2_wOf h5) (isR_vOf h4) (isR_vOf h6) (isR2_wOf h7) (isR2_wOf h9)
    (isR2_adjOf h2 (bOf i)) (isR2_rowsOf h0 (bOf i)) (isR2_rowsOf h1 (bOf i))]

end Cert.DiffGru

end
-- ==== Proof.Finite.lean ====
/-
  Under the precondition every entry of every argument array is a real number: the precondition is the conjunction,
  array by array, of "every |x| is below +∞", and an extended real whose absolute value is below +∞ is a real.
-/
import proofs.«179813_j9328668967409_1_alg».proof.Pre_finite_inputs
import proofs.«179813_j9328668967409_1_alg».proof.Proof.Gen.Pre_finite_inputs
import Idealize.ShloMosaic.Lib.ReduceAll
import Idealize.ShloMosaic.Lib.ValueIdx
import Idealize.ShloMosaic.PureOps.Ideal.Laws

noncomputable section

open scoped BigOperators

namespace Cert.FiniteArgs
open Idealize.ShloMosaic Idealize.ShloMosaic.ValueIdx Cert.Pre_finite_inputs

/-- The f32 word `0x7F800000` denotes +∞. -/
theorem inf_word : Ideal.ofBits .f32 0x7F800000#32 = (⊤ : EReal) := by
  simp [Ideal.ofBits, Ideal.ieee]

/-- An extended real `x` with `max x (-x) < ⊤` is a real: at `⊤` the maximum is `⊤`, at `⊥` it is `-⊥ = ⊤`,
    and neither is below `⊤`. -/
theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

/-- The rank-0 shape has one index. -/
instance : Subsingleton S_.Idx := ⟨fun a b => funext fun d => d.elim0⟩

/-- One array's `all(|x| < +∞)`: if the conjunction over all entries of `|x i| < +∞` is 1, every entry is 1, so every
    `x i` has `max (x i) (-(x i)) < ⊤` and is a real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : ∃ r : ℝ, x i = (r : EReal) := by
  have h1 := Host.reduce_andi_all _ _ hr hu j e i
  refine real_of_abs_lt_top (x i) ?_
  rw [← inf_word]
  exact h1

/-- The precondition's predicate all ones makes every argument real-valued. -/
theorem real_of_fn [Cert.Pre_finite_inputs.Facts]
    (a0 a1 : FVec Ideal S16x65536 .f32) (a2 : FVec Ideal S16x1024x1024 .f32) (a3 : FVec Ideal S384x128 .f32)
    (a4 : FVec Ideal S128 .f32) (a5 : FVec Ideal S384x128 .f32) (a6 : FVec Ideal S128 .f32) (a7 : FVec Ideal S384x64 .f32)
    (a8 : FVec Ideal S64 .f32) (a9 : FVec Ideal S384x64 .f32) (a10 : FVec Ideal S64 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) := by
  -- the predicate at its one index, with the printed lets opened: an eleven-fold conjunction, nested to the left
  have h' := congrFun h ValueIdx.ix0
  dsimp only [fn, fn_part1, fn_part2, fn_part3] at h'
  simp only [andi, IntOp.andi_eq_one] at h'
  obtain ⟨⟨⟨⟨⟨⟨⟨⟨⟨⟨h0, h1⟩, h2⟩, h3⟩, h4⟩, h5⟩, h6⟩, h7⟩, h8⟩, h9⟩, h10⟩ := h'
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6, real_of_all a7 _ _ _ _ h7,
    real_of_all a8 _ _ _ _ h8, real_of_all a9 _ _ _ _ h9, real_of_all a10 _ _ _ _ h10⟩

end Cert.FiniteArgs

end
-- ==== Proof.lean ====
/-
  The certificate of the diffusion-convolution gated recurrent cell: the kernel program against its reference, over the
  extended reals, under "every input is finite".

  Both programs compute, for each of 16 batch elements, the cell's new state on a graph of 1024 nodes (Proof/Spec.lean):
  two random-walk matrices from the adjacency matrix and its transpose; a 128-wide graph convolution of the node
  features (inputs beside state) and of their two diffusions, through the logistic function, as reset and update gates;
  a 64-wide convolution of the inputs beside the reset-scaled state, through the hyperbolic tangent, as candidate;
  and z·h + (1 − z)·c. The reference multiplies the stacked triples (x, Ax, Ax) with the 384 interleaved rows of each
  weight matrix; the kernel adds the rows that meet equal factors first and multiplies three times over 128 rows. On
  extended reals the two agree where multiplication distributes over addition, which is where every number is finite:
  the precondition makes every input real, and every intermediate value of the cell is then real (Proof/Law.lean).

  The kernel's run with its result named is Proof/KRun.lean (over the generated frame, the body's payloads read at an index
  in Proof/KBodyA.lean and Proof/KBodyB.lean, the arrays the host lines prepare in Proof/KHost.lean); the reference's
  result as the same function is Proof/RStageA.lean to Proof/RStageC.lean over its run (Proof/RefRun.lean, Proof/RefRead.lean); the inputs' realness
  under the precondition is Proof/Finite.lean.
-/
import proofs.«179813_j9328668967409_1_alg».proof.Defs
import proofs.«179813_j9328668967409_1_alg».proof.Proof.Gen.Kernel
import proofs.«179813_j9328668967409_1_alg».proof.Proof.Gen.Kernel.Frame
import proofs.«179813_j9328668967409_1_alg».proof.Proof.Gen.KernelIdeal
import proofs.«179813_j9328668967409_1_alg».proof.Proof.Gen.KernelIdeal.Frame
import proofs.«179813_j9328668967409_1_alg».proof.Proof.Gen.ReferenceIdeal
import proofs.«179813_j9328668967409_1_alg».proof.Proof.RefRun
import proofs.«179813_j9328668967409_1_alg».proof.Proof.Gen.Pre_finite_inputs
import proofs.«179813_j9328668967409_1_alg».proof.Proof.KRun
import proofs.«179813_j9328668967409_1_alg».proof.Proof.RStageC
import proofs.«179813_j9328668967409_1_alg».proof.Proof.Law
import proofs.«179813_j9328668967409_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the idealized reference: its run with the result dropped. -/
theorem frame_ri : Cert.frame_ReferenceIdeal := fun m ρ _ =>
  (θ_run Cert.ReferenceIdeal.defs _ _).mono (fun _ h c => (h c).2) (Cert.ReferenceIdeal.ValueCopy.run (F := Ideal) m ρ)

/-- The idealization rewrote nothing. -/
theorem preserves : Cert.preserves_Kernel_KernelIdeal := trivial

/-- From memories agreeing on the arguments the kernel ends at the cell with the three-product convolutions and the
    reference at the cell with the two-product convolutions of the same, real, arrays: one function there. -/
theorem algebraic : Cert.algebraic_KernelIdeal_ReferenceIdeal := by
  intro m ρ m' ρ' hpre hagree
  refine ⟨fun c => Cert.DiffGru.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.RunValue.kernel_run m ρ, ?_⟩
  refine (θ_run Cert.ReferenceIdeal.defs _ _).mono (fun _ h c => ⟨(h c).1.trans ?_, (h c).2⟩)
    (Cert.ReferenceIdeal.ValueCopy.run (F := Ideal) m' ρ')
  obtain ⟨e0, e1, e2, e3, e4, e5, e6, e7, e8, e9, e10⟩ := hagree c
  obtain ⟨r0, r1, r2, r3, r4, r5, r6, r7, r8, r9, r10⟩ := Cert.FiniteArgs.real_of_fn _ _ _ _ _ _ _ _ _ _ _ (hpre c)
  rw [Cert.ReferenceIdeal.Stage.ref_val, e0, e1, e2, e3, e4, e5, e6, e7, e8, e9, e10]
  exact Cert.DiffGru.outR_eq_outK _ _ _ _ _ _ _ _ _ _ _ r0 r1 r2 r3 r4 r5 r6 r7 r8 r9 r10

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
